-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512x128 : Shape := ⟨3, ![512, 512, 128]⟩
abbrev S512x512 : Shape := ⟨2, ![512, 512]⟩
abbrev S128 : Shape := ⟨1, ![128]⟩
abbrev S128x128 : Shape := ⟨2, ![128, 128]⟩
abbrev S_ : Shape := ⟨0, ![]⟩

class Facts : Prop where
  bcast_S_S512x512x128 : S_.BroadcastsInDim S512x512x128 (![] : Fin 0 → Fin S512x512x128.rank)
  reducesTo_S512x512x128_S_d0_1_2 : S512x512x128.ReducesTo [0, 1, 2] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg1 : IVec S512x512 32) (main_arg2 : IVec S512x512 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_c_6 : IVec S_ 32 := constantI S_ 32 0#32
  let main_v19 : IVec S512x512 32 := broadcastInDim S512x512 ![] bcast_S_S512x512 main_c_6
  let main_v20 : IVec S512x512 1 := cmpi .sge main_arg1 main_v19
  let main_c_7 : IVec S_ 1 := constantI S_ 1 1#1
  let main_v21 : IVec S_ 1 := (fun x v => Host.reduce IntOp.andi x v reducesTo_S512x512_S_d0_1 h_S_) main_v20 main_c_7
  let main_v22 : IVec S_ 1 := andi main_v18 main_v21
  let main_c_8 : IVec S_ 32 := constantI S_ 32 128#32
  let main_v23 : IVec S512x512 32 := broadcastInDim S512x512 ![] bcast_S_S512x512 main_c_8
  let main_v24 : IVec S512x512 1 := cmpi .slt main_arg1 main_v23
  let main_c_9 : IVec S_ 1 := constantI S_ 1 1#1
  let main_v25 : IVec S_ 1 := (fun x v => Host.reduce IntOp.andi x v reducesTo_S512x512_S_d0_1 h_S_) main_v24 main_c_9
  let main_v26 : IVec S_ 1 := andi main_v22 main_v25
  let main_c_10 : IVec S_ 32 := constantI S_ 32 0#32
  let main_v27 : IVec S512x512 32 := broadcastInDim S512x512 ![] bcast_S_S512x512 main_c_10
  let main_v28 : IVec S512x512 1 := cmpi .eq main_arg2 main_v27
  let main_c_11 : IVec S_ 32 := constantI S_ 32 1#32
  let main_v29 : IVec S512x512 32 := broadcastInDim S512x512 ![] bcast_S_S512x512 main_c_11
  let main_v30 : IVec S512x512 1 := cmpi .eq main_arg2 main_v29
  let main_v31 : IVec S512x512 1 := ori main_v28 main_v30
  let main_c_12 : IVec S_ 1 := constantI S_ 1 1#1
  let main_v32 : IVec S_ 1 := (fun x v => Host.reduce IntOp.andi x v reducesTo_S512x512_S_d0_1 h_S_) main_v31 main_c_12
  fn_part2 (F := F) main_v26 main_v32

def fn {F : FTy → Type} [FloatOps F] (main_arg0 : FVec F S512x512x128 .f32) (main_arg1 : IVec S512x512 32) (main_arg2 : IVec S512x512 32) (main_arg3 : FVec F S128 .f32) (main_arg4 : FVec F S128 .f32) (main_arg5 : FVec F S128x128 .f32) : IVec S_ 1 :=
  let main_v0 : FVec F S512x512x128 .f32 := Host.absf main_arg0
  let main_cst : FVec F S_ .f32 := constant S_ .f32 0x7F800000#32
  let main_v1 : FVec F S512x512x128 .f32 := broadcastInDim S512x512x128 ![] bcast_S_S512x512x128 main_cst
  let main_v2 : IVec S512x512x128 1 := cmpf .olt main_v0 main_v1
  let main_c : IVec S_ 1 := constantI S_ 1 1#1
  let main_v3 : IVec S_ 1 := (fun x v => Host.reduce IntOp.andi x v reducesTo_S512x512x128_S_d0_1_2 h_S_) main_v2 main_c
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg2 main_v13 main_v16
-- ==== Kernel.lean ====
abbrev S512x512x128 : Shape := ⟨3, ![512, 512, 128]⟩
abbrev S512x512 : Shape := ⟨2, ![512, 512]⟩
abbrev S128 : Shape := ⟨1, ![128]⟩
abbrev S128x128 : Shape := ⟨2, ![128, 128]⟩
abbrev S512 : Shape := ⟨1, ![512]⟩
abbrev S512x1 : Shape := ⟨2, ![512, 1]⟩
abbrev S_ : Shape := ⟨0, ![]⟩
abbrev S1x512 : Shape := ⟨2, ![1, 512]⟩
abbrev S64x128x128 : Shape := ⟨3, ![64, 128, 128]⟩
abbrev S64x128 : Shape := ⟨2, ![64, 128]⟩
abbrev S1x128 : Shape := ⟨2, ![1, 128]⟩
abbrev S64x128x1 : Shape := ⟨3, ![64, 128, 1]⟩
abbrev S128x64 : Shape := ⟨2, ![128, 64]⟩
abbrev S128x1 : Shape := ⟨2, ![128, 1]⟩
abbrev S511x512 : Shape := ⟨2, ![511, 512]⟩
abbrev S511x512x1 : Shape := ⟨3, ![511, 512, 1]⟩
abbrev S511x512x2 : Shape := ⟨3, ![511, 512, 2]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 94
  | .vmem => 8
  | .smem => 0
  | _ => 0

abbrev bufTy : (tb : Table) → Fin (tcTables nBuf tb) → BufTy
  | .hbm, ⟨0, _⟩ => ⟨S512x512x128, .f32⟩
  | .hbm, ⟨1, _⟩ => ⟨S512x512, .i32⟩
  | .hbm, ⟨2, _⟩ => ⟨S512x512, .i32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S512x512, .f32⟩
  | .hbm, ⟨7, _⟩ => ⟨S512, .i32⟩
  | .hbm, ⟨8, _⟩ => ⟨S512x1, .i32⟩
  | .hbm, ⟨9, _⟩ => ⟨S_, .i32⟩
  | .hbm, ⟨10, _⟩ => ⟨S512x1, .i32⟩
  | .hbm, ⟨11, _⟩ => ⟨S512x1, .i1⟩
  | .hbm, ⟨12, _⟩ => ⟨S_, .f32⟩
  | .hbm, ⟨13, _⟩ => ⟨S512x512, .f32⟩
  | .hbm, ⟨14, _⟩ => ⟨S512x512, .i1⟩
  | .hbm, ⟨15, _⟩ => ⟨S512x512, .f32⟩
  | .hbm, ⟨16, _⟩ => ⟨S1x512, .f32⟩
  | .hbm, ⟨17, _⟩ => ⟨S512, .f32⟩
  | .hbm, ⟨18, _⟩ => ⟨S1x512, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S512, .f32⟩
  | .hbm, ⟨29, _⟩ => ⟨S511x512, .i32⟩
  | .hbm, ⟨30, _⟩ => ⟨S511x512, .i32⟩
  | .hbm, ⟨31, _⟩ => ⟨S_, .i32⟩
  | .hbm, ⟨32, _⟩ => ⟨S511x512, .i32⟩
  | .hbm, ⟨33, _⟩ => ⟨S511x512, .i1⟩
  | .hbm, ⟨34, _⟩ => ⟨S_, .i32⟩
  | .hbm, ⟨35, _⟩ => ⟨S511x512, .i32⟩
  | .hbm, ⟨36, _⟩ => ⟨S511x512, .i32⟩
  | .hbm, ⟨37, _⟩ => ⟨S511x512, .i32⟩
  | .hbm, ⟨38, _⟩ => ⟨S_, .i32⟩
  | .hbm, ⟨39, _⟩ => ⟨S511x512, .i32⟩
  | .hbm, ⟨40, _⟩ => ⟨S511x512, .i1⟩
  | .hbm, ⟨41, _⟩ => ⟨S_, .i32⟩
  | .hbm, ⟨42, _⟩ => ⟨S511x512, .i32⟩
  | .hbm, ⟨43, _⟩ => ⟨S511x512, .i32⟩
  | .hbm, ⟨44, _⟩ => ⟨S511x512, .i32⟩
  | .hbm, ⟨45, _⟩ => ⟨S511x512x1, .i32⟩
  | .hbm, ⟨46, _⟩ => ⟨S511x512x1, .i32⟩
  | .hbm, ⟨47, _⟩ => ⟨S511x512x2, .i32⟩
  | .hbm, ⟨48, _⟩ => ⟨S511x512, .f32⟩
  | .hbm, ⟨49, _⟩ => ⟨S511x512, .f32⟩
  | .hbm, ⟨50, _⟩ => ⟨S511x512, .f32⟩
  | .hbm, ⟨51, _⟩ => ⟨S_, .f32⟩
  | .hbm, ⟨52, _⟩ => ⟨S512, .f32⟩
  | .hbm, ⟨53, _⟩ => ⟨S_, .i32⟩
  | .hbm, ⟨54, _⟩ => ⟨S512, .i32⟩
  | .hbm, ⟨55, _⟩ => ⟨S_, .i32⟩
  | .hbm, ⟨56, _⟩ => ⟨S512, .i32⟩
  | .hbm, ⟨57, _⟩ => ⟨S512, .i32⟩
  | .hbm, ⟨58, _⟩ => ⟨S1x512, .i32⟩
  | .hbm, ⟨59, _⟩ => ⟨S_, .i32⟩
  | .hbm, ⟨60, _⟩ => ⟨S1x512, .i32⟩
  | .hbm, ⟨61, _⟩ => ⟨S1x512, .i1⟩
  | .hbm, ⟨62, _⟩ => ⟨S_, .i32⟩
  | .hbm, ⟨63, _⟩ => ⟨S1x512, .i32⟩
  | .hbm, ⟨64, _⟩ => ⟨S1x512, .i32⟩
  | .hbm, ⟨65, _⟩ => ⟨S1x512, .i32⟩
  | .hbm, ⟨66, _⟩ => ⟨S1x512x1, .i32⟩
  | .hbm, ⟨67, _⟩ => ⟨S1, .i32⟩
  | .hbm, ⟨68, _⟩ => ⟨S_, .i32⟩
  | .hbm, ⟨69, _⟩ => ⟨S1x512x1, .i32⟩
  | .hbm, ⟨70, _⟩ => ⟨S1x512x1, .i1⟩
  | .hbm, ⟨71, _⟩ => ⟨S1x1x1, .i32⟩
  | .hbm, ⟨72, _⟩ => ⟨S1x512x1, .i32⟩
  | .hbm, ⟨73, _⟩ => ⟨S1x512x1, .i1⟩
  | .hbm, ⟨74, _⟩ => ⟨S1x512x1, .i1⟩
  | .hbm, ⟨75, _⟩ => ⟨S_, .i1⟩
  | .hbm, ⟨76, _⟩ => ⟨S1x512, .i1⟩
  | .hbm, ⟨77, _⟩ => ⟨S1x512, .i32⟩
  | .hbm, ⟨78, _⟩ => ⟨S_, .i32⟩
  | .hbm, ⟨79, _⟩ => ⟨S1x512, .i32⟩
  | .hbm, ⟨80, _⟩ => ⟨S1x512, .i32⟩
  | .hbm, ⟨81, _⟩ => ⟨S512, .i32⟩
  | .hbm, ⟨82, _⟩ => ⟨S_, .i32⟩
  | .hbm, ⟨83, _⟩ => ⟨S512, .i32⟩
  | .hbm, ⟨84, _⟩ => ⟨S512, .i1⟩
  | .hbm, ⟨85, _⟩ => ⟨S_, .i32⟩
  | .hbm, ⟨86, _⟩ => ⟨S512, .i32⟩
  | .hbm, ⟨87, _⟩ => ⟨S512, .i32⟩
  | .hbm, ⟨88, _⟩ => ⟨S512, .i32⟩
  | .hbm, ⟨89, _⟩ => ⟨S512x1, .i32⟩
  | .hbm, ⟨90, _⟩ => ⟨S512, .f32⟩
  | .hbm, ⟨91, _⟩ => ⟨S512, .f32⟩
  | .hbm, ⟨92, _⟩ => ⟨S512, .f32⟩
  | .hbm, ⟨93, _⟩ => ⟨S512, .f32⟩
  | .local _ .vmem, ⟨0, _⟩ => ⟨S64x128x128, .f32⟩
  | .local _ .vmem, ⟨1, _⟩ => ⟨S64x128x128, .f32⟩
  | .local _ .vmem, ⟨2, _⟩ => ⟨S64x128, .i32⟩
  | .local _ .vmem, ⟨3, _⟩ => ⟨S64x128, .i32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S1x128, .f32⟩
  | _, _ => ⟨S512x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_c_4 : Ref sig .tc := ⟨.hbm, 78, rfl⟩
abbrev main_call1_v14 : Ref sig .tc := ⟨.hbm, 79, rfl⟩
abbrev main_v41 : Ref sig .tc := ⟨.hbm, 80, rfl⟩
abbrev main_v42 : Ref sig .tc := ⟨.hbm, 81, rfl⟩
abbrev main_c_9 : Ref sig .tc := ⟨.hbm, 82, rfl⟩
abbrev main_v43 : Ref sig .tc := ⟨.hbm, 83, rfl⟩
abbrev main_v44 : Ref sig .tc := ⟨.hbm, 84, rfl⟩
abbrev main_c_10 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v17 : BitVec 1 := Scalar.cmpi .eq arg1 c0_i32
  let v18 : BitVec 32 := Scalar.extui v17
  let c0_i32_7 : BitVec 32 := 0#32
  let v19 : BitVec 1 := Scalar.cmpi .ne v18 c0_i32_7
  v19

def k0_cond2 (i : grid0.Coords) : BitVec 1 :=
  let arg1 : BitVec 32 := BitVec.ofNat 32 (i 1).val
  let c0_i32_8 : BitVec 32 := 0#32
  let v20 : BitVec 1 := Scalar.cmpi .sgt arg1 c0_i32_8
  let v21 : BitVec 32 := Scalar.extui v20
  let c0_i32_9 : BitVec 32 := 0#32
  let v22 : BitVec 1 := Scalar.cmpi .ne v21 c0_i32_9
  v22

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S512_S512x1_0 : S512.BroadcastsInDim S512x1 (![0] : Fin 1 → Fin S512x1.rank)
  bcast_S_S512x1 : S_.BroadcastsInDim S512x1 (![] : Fin 0 → Fin S512x1.rank)
  bcast_S_S512x512 : S_.BroadcastsInDim S512x512 (![] : Fin 0 → Fin S512x512.rank)
  bcast_S512x1_S512x512_0_1 : S512x1.BroadcastsInDim S512x512 (![0, 1] : Fin 2 → Fin S512x512.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x128x128_S64x128x128_0_0_0 : ∀ a, (![0, 0, 0] : Fin 3 → Nat) a + S64x128x128.size a ≤ S64x128x128.size a
  h_S64x128x128 : 0 < S64x128x128.numel
  iota_S64x128x128_d2_w32 : S64x128x128.Iotas .tc 32 [2]
  shapeCasts_S64x128_S64x128x1 : S64x128.ShapeCasts S64x128x1
  broadcasts_S64x128x1_S64x128x128 : S64x128x1.Broadcasts S64x128x128
  natLt_1_32 : 1 < 32
  reduces_S64x128x128_S64x128 : S64x128x128.Reduces [2] S64x128
  transposes_S64x128_p1_0_S128x64 : S64x128.Transposes [1, 0] S128x64
  reduces_S128x64_S128 : S128x64.Reduces [1] S128
  shapeCasts_S128_S128x1 : S128.ShapeCasts S128x1
  transposes_S128x1_p1_0_S1x128 : S128x1.Transposes [1, 0] S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x512_S512 : S1x512.ShapeCasts S512
  slices_S512x512_S1x512_0_0 : S512x512.Slices ![0, 0] S1x512
  bcast_S_S512 : S_.BroadcastsInDim S512 (![] : Fin 0 → Fin S512.rank)
  slices_S512x512_S511x512_0_0 : S512x512.Slices ![0, 0] S511x512
  slices_S512x512_S511x512_1_0 : S512x512.Slices ![1, 0] S511x512
  bcast_S_S511x512 : S_.BroadcastsInDim S511x512 (![] : Fin 0 → Fin S511x512.rank)
  bcast_S511x512_S511x512x1_0_1 : S511x512.BroadcastsInDim S511x512x1 (![0, 1] : Fin 2 → Fin S511x512x1.rank)
  concatenates_S511x512x1_S511x512x1_S511x512x2_d2 : Shape.Concatenates [S511x512x1, S511x512x1] S511x512x2 2
  reducesTo_S511x512_S512_d0 : S511x512.ReducesTo [0] S512
  h_S_ : 0 < S_.numel
  reducesTo_S512x512_S512_d0 : S512x512.ReducesTo [0] S512
  bcast_S512_S1x512_1 : S512.BroadcastsInDim S1x512 (![1] : Fin 1 → Fin S1x512.rank)
  bcast_S_S1x512 : S_.BroadcastsInDim S1x512 (![] : Fin 0 → Fin S1x512.rank)
  shapeCasts_S1x512_S1x512x1 : S1x512.ShapeCasts S1x512x1
  bcast_S_S1x512x1 : S_.BroadcastsInDim S1x512x1 (![] : Fin 0 → Fin S1x512x1.rank)
  bcast_S1_S1x1x1_2 : S1.BroadcastsInDim S1x1x1 (![2] : Fin 1 → Fin S1x1x1.rank)
  bcast_S1x1x1_S1x512x1_0_1_2 : S1x1x1.BroadcastsInDim S1x512x1 (![0, 1, 2] : Fin 3 → Fin S1x512x1.rank)
  reducesTo_S1x512x1_S1x512_d2 : S1x512x1.ReducesTo [2] S1x512
  gather_S128_S512x1_S512_n_0_n_n_0_1_1_wf : GatherDims.WF S128 S512x1 S512 [] [0] [] [0] [] 1 ![1]
  gather_S128x128_S511x512x2_S511x512_n_01_n_n_01_2_11_wf : GatherDims.WF S128x128 S511x512x2 S511x512 [] [0, 1] [] [0, 1] [] 2 ![1, 1]
  gather_S512x512_S1x512x1_S1x512_n_0_1_1_0_2_11_wf : GatherDims.WF S512x512 S1x512x1 S1x512 [] [0] [1] [0] [1] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x128.size a ≤ S512x512x128.size a
  hwx0_0 : ∀ i : grid0.Coords, EltTy.bits .f32 = 32 ∨ (Rect.block (s := S512x512x128) S64x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S512x512.size a
  hwx0_1 : ∀ i : grid0.Coords, EltTy.bits .i32 = 32 ∨ (Rect.block (s := S512x512) S64x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S512x512.size a
  hwx0_2 : ∀ i : grid0.Coords, EltTy.bits .f32 = 32 ∨ (Rect.block (s := S512x512) S64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x512.size a
  hwx0_3 : ∀ i : grid0.Coords, EltTy.bits .f32 = 32 ∨ (Rect.block (s := S1x512) S1x128.size (cc0_transform_3 i) (hinb0_3 i)).WholeWords (EltTy.packing .f32)

variable [Facts₀]

def gather_S128_S512x1_S512_n_0_n_n_0_1_1 : GatherDims S128 S512x1 S512 where
  offsetDims := []
  collapsedSliceDims := [0]
  operandBatchingDims := []
  startIndicesBatchingDims := []
  startIndexMap := [0]
  indexVectorDim := 1
  sliceSizes := ![1]
  wf := gather_S128_S512x1_S512_n_0_n_n_0_1_1_wf
def gather_S128x128_S511x512x2_S511x512_n_01_n_n_01_2_11 : GatherDims S128x128 S511x512x2 S511x512 where
  offsetDims := []
  collapsedSliceDims := [0, 1]
  operandBatchingDims := []
  startIndicesBatchingDims := []
  startIndexMap := [0, 1]
  indexVectorDim := 2
  sliceSizes := ![1, 1]
  wf := gather_S128x128_S511x512x2_S511x512_n_01_n_n_01_2_11_wf
def gather_S512x512_S1x512x1_S1x512_n_0_1_1_0_2_11 : GatherDims S512x512 S1x512x1 S1x512 where
  offsetDims := []
  collapsedSliceDims := [0]
  operandBatchingDims := [1]
  startIndicesBatchingDims := [1]
  startIndexMap := [0]
  indexVectorDim := 2
  sliceSizes := ![1, 1]
  wf := gather_S512x512_S1x512x1_S1x512_n_0_1_1_0_2_11_wf

abbrev win0_0 : Pipeline.Window sig grid0 :=
  Pipeline.Window.ofSpec (Memref.whole main_arg0) S64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S512x512x128 : Shape := ⟨3, ![512, 512, 128]⟩
abbrev S512x512 : Shape := ⟨2, ![512, 512]⟩
abbrev S128 : Shape := ⟨1, ![128]⟩
abbrev S128x128 : Shape := ⟨2, ![128, 128]⟩
abbrev S512 : Shape := ⟨1, ![512]⟩
abbrev S512x512x1 : Shape := ⟨3, ![512, 512, 1]⟩
abbrev S_ : Shape := ⟨0, ![]⟩
abbrev S512x512x1x1 : Shape := ⟨4, ![512, 512, 1, 1]⟩
abbrev S1 : Shape := ⟨1, ![1]⟩
abbrev S1x1x1x1 : Shape := ⟨4, ![1, 1, 1, 1]⟩
abbrev S511x512 : Shape := ⟨2, ![511, 512]⟩
abbrev S511x512x1 : Shape := ⟨3, ![511, 512, 1]⟩
abbrev S511x512x2 : Shape := ⟨3, ![511, 512, 2]⟩
abbrev S1x512 : Shape := ⟨2, ![1, 512]⟩
abbrev S512x1 : Shape := ⟨2, ![512, 1]⟩
abbrev S512x2 : Shape := ⟨2, ![512, 2]⟩

abbrev nBuf : Space → Nat
  | .hbm => 106
  | .vmem => 0
  | .smem => 0
  | _ => 0

abbrev bufTy : (tb : Table) → Fin (tcTables nBuf tb) → BufTy
  | .hbm, ⟨0, _⟩ => ⟨S512x512x128, .f32⟩
  | .hbm, ⟨1, _⟩ => ⟨S512x512, .i32⟩
  | .hbm, ⟨2, _⟩ => ⟨S512x512, .i32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S512x512, .f32⟩
  | .hbm, ⟨7, _⟩ => ⟨S512, .i32⟩
  | .hbm, ⟨8, _⟩ => ⟨S512x512x1, .i32⟩
  | .hbm, ⟨9, _⟩ => ⟨S_, .i32⟩
  | .hbm, ⟨10, _⟩ => ⟨S512x512x1, .i32⟩
  | .hbm, ⟨11, _⟩ => ⟨S512x512x1, .i1⟩
  | .hbm, ⟨12, _⟩ => ⟨S_, .i32⟩
  | .hbm, ⟨13, _⟩ => ⟨S512x512x1, .i32⟩
  | .hbm, ⟨14, _⟩ => ⟨S512x512x1, .i32⟩
  | .hbm, ⟨15, _⟩ => ⟨S512x512x1, .i32⟩
  | .hbm, ⟨16, _⟩ => ⟨S512x512x1x1, .i32⟩
  | .hbm, ⟨17, _⟩ => ⟨S1, .i32⟩
  | .hbm, ⟨18, _⟩ => ⟨S_, .i32⟩
  | .hbm, ⟨19, _⟩ => ⟨S512x512x1x1, .i32⟩
  | .hbm, ⟨20, _⟩ => ⟨S512x512x1x1, .i1⟩
  | .hbm, ⟨21, _⟩ => ⟨S1x1x1x1, .i32⟩
  | .hbm, ⟨22, _⟩ => ⟨S512x512x1x1, .i32⟩
  | .hbm, ⟨23, _⟩ => ⟨S512x512x1x1, .i1⟩
  | .hbm, ⟨24, _⟩ => ⟨S512x512x1x1, .i1⟩
  | .hbm, ⟨25, _⟩ => ⟨S_, .i1⟩
  | .hbm, ⟨26, _⟩ => ⟨S512x512x1, .i1⟩
  | .hbm, ⟨27, _⟩ => ⟨S512x512x1, .f32⟩
  | .hbm, ⟨28, _⟩ => ⟨S_, .f32⟩
  | .hbm, ⟨29, _⟩ => ⟨S512x512x1, .f32⟩
  | .hbm, ⟨30, _⟩ => ⟨S512x512x1, .f32⟩
  | .hbm, ⟨31, _⟩ => ⟨S512x512, .f32⟩
  | .hbm, ⟨32, _⟩ => ⟨S511x512, .i32⟩
  | .hbm, ⟨33, _⟩ => ⟨S511x512, .i32⟩
  | .hbm, ⟨34, _⟩ => ⟨S_, .i32⟩
  | .hbm, ⟨35, _⟩ => ⟨S511x512, .i32⟩
  | .hbm, ⟨36, _⟩ => ⟨S511x512, .i1⟩
  | .hbm, ⟨37, _⟩ => ⟨S_, .i32⟩
  | .hbm, ⟨38, _⟩ => ⟨S511x512, .i32⟩
  | .hbm, ⟨39, _⟩ => ⟨S511x512, .i32⟩
  | .hbm, ⟨40, _⟩ => ⟨S511x512, .i32⟩
  | .hbm, ⟨41, _⟩ => ⟨S_, .i32⟩
  | .hbm, ⟨42, _⟩ => ⟨S511x512, .i32⟩
  | .hbm, ⟨43, _⟩ => ⟨S511x512, .i1⟩
  | .hbm, ⟨44, _⟩ => ⟨S_, .i32⟩
  | .hbm, ⟨45, _⟩ => ⟨S511x512, .i32⟩
  | .hbm, ⟨46, _⟩ => ⟨S511x512, .i32⟩
  | .hbm, ⟨47, _⟩ => ⟨S511x512, .i32⟩
  | .hbm, ⟨48, _⟩ => ⟨S511x512x1, .i32⟩
  | .hbm, ⟨49, _⟩ => ⟨S511x512x1, .i32⟩
  | .hbm, ⟨50, _⟩ => ⟨S511x512x2, .i32⟩
  | .hbm, ⟨51, _⟩ => ⟨S511x512, .f32⟩
  | .hbm, ⟨52, _⟩ => ⟨S1x512, .i32⟩
  | .hbm, ⟨53, _⟩ => ⟨S512, .i32⟩
  | .hbm, ⟨54, _⟩ => ⟨S_, .i32⟩
  | .hbm, ⟨55, _⟩ => ⟨S512, .i32⟩
  | .hbm, ⟨56, _⟩ => ⟨S512, .i1⟩
  | .hbm, ⟨57, _⟩ => ⟨S_, .i32⟩
  | .hbm, ⟨58, _⟩ => ⟨S512, .i32⟩
  | .hbm, ⟨59, _⟩ => ⟨S512, .i32⟩
  | .hbm, ⟨60, _⟩ => ⟨S512, .i32⟩
  | .hbm, ⟨61, _⟩ => ⟨S512x1, .i32⟩
  | .hbm, ⟨62, _⟩ => ⟨S512, .f32⟩
  | .hbm, ⟨63, _⟩ => ⟨S1x512, .f32⟩
  | .hbm, ⟨64, _⟩ => ⟨S512, .f32⟩
  | .hbm, ⟨65, _⟩ => ⟨S512, .f32⟩
  | .hbm, ⟨66, _⟩ => ⟨S511x512, .f32⟩
  | .hbm, ⟨67, _⟩ => ⟨S511x512, .f32⟩
  | .hbm, ⟨68, _⟩ => ⟨S511x512, .f32⟩
  | .hbm, ⟨69, _⟩ => ⟨S511x512, .f32⟩
  | .hbm, ⟨70, _⟩ => ⟨S_, .f32⟩
  | .hbm, ⟨71, _⟩ => ⟨S512, .f32⟩
  | .hbm, ⟨72, _⟩ => ⟨S512, .f32⟩
  | .hbm, ⟨73, _⟩ => ⟨S_, .i32⟩
  | .hbm, ⟨74, _⟩ => ⟨S512, .i32⟩
  | .hbm, ⟨75, _⟩ => ⟨S_, .i32⟩
  | .hbm, ⟨76, _⟩ => ⟨S512, .i32⟩
  | .hbm, ⟨77, _⟩ => ⟨S512, .i32⟩
  | .hbm, ⟨78, _⟩ => ⟨S_, .i32⟩
  | .hbm, ⟨79, _⟩ => ⟨S512, .i32⟩
  | .hbm, ⟨80, _⟩ => ⟨S512, .i1⟩
  | .hbm, ⟨81, _⟩ => ⟨S_, .i32⟩
  | .hbm, ⟨82, _⟩ => ⟨S512, .i32⟩
  | .hbm, ⟨83, _⟩ => ⟨S512, .i32⟩
  | .hbm, ⟨84, _⟩ => ⟨S512, .i32⟩
  | .hbm, ⟨85, _⟩ => ⟨S_, .i32⟩
  | .hbm, ⟨86, _⟩ => ⟨S512, .i32⟩
  | .hbm, ⟨87, _⟩ => ⟨S512, .i1⟩
  | .hbm, ⟨88, _⟩ => ⟨S_, .i32⟩
  | .hbm, ⟨89, _⟩ => ⟨S512, .i32⟩
  | .hbm, ⟨90, _⟩ => ⟨S512, .i32⟩
  | .hbm, ⟨91, _⟩ => ⟨S512, .i32⟩
  | .hbm, ⟨92, _⟩ => ⟨S512x1, .i32⟩
  | .hbm, ⟨93, _⟩ => ⟨S512x1, .i32⟩
  | .hbm, ⟨94, _⟩ => ⟨S512x2, .i32⟩
  | .hbm, ⟨95, _⟩ => ⟨S512, .i32⟩
  | .hbm, ⟨96, _⟩ => ⟨S_, .i32⟩
  | .hbm, ⟨97, _⟩ => ⟨S512, .i32⟩
  | .hbm, ⟨98, _⟩ => ⟨S512, .i1⟩
  | .hbm, ⟨99, _⟩ => ⟨S_, .i32⟩
  | .hbm, ⟨100, _⟩ => ⟨S512, .i32⟩
  | .hbm, ⟨101, _⟩ => ⟨S512, .i32⟩
  | .hbm, ⟨102, _⟩ => ⟨S512, .i32⟩
  | .hbm, ⟨103, _⟩ => ⟨S512x1, .i32⟩
  | .hbm, ⟨104, _⟩ => ⟨S512, .f32⟩
  | .hbm, ⟨105, _⟩ => ⟨S512, .f32⟩
  | _, _ => ⟨S512x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_c : Ref sig .tc := ⟨.hbm, 34, rfl⟩
abbrev main_v7 : Ref sig .tc := ⟨.hbm, 35, rfl⟩
abbrev main_v8 : Ref sig .tc := ⟨.hbm, 36, rfl⟩
abbrev main_c_0 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_c_1 : Ref sig .tc := ⟨.hbm, 41, rfl⟩
abbrev main_v12 : Ref sig .tc := ⟨.hbm, 42, rfl⟩
abbrev main_v13 : Ref sig .tc := ⟨.hbm, 43, rfl⟩
abbrev main_c_2 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_3 : Ref sig .tc := ⟨.hbm, 54, rfl⟩
abbrev main_v23 : Ref sig .tc := ⟨.hbm, 55, rfl⟩
abbrev main_v24 : Ref sig .tc := ⟨.hbm, 56, rfl⟩
abbrev main_c_4 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst : Ref sig .tc := ⟨.hbm, 70, rfl⟩
abbrev main_v37 : Ref sig .tc := ⟨.hbm, 71, rfl⟩
abbrev main_v38 : Ref sig .tc := ⟨.hbm, 72, rfl⟩
abbrev main_c_5 : Ref sig .tc := ⟨.hbm, 73, rfl⟩
abbrev main_v39 : Ref sig .tc := ⟨.hbm, 74, rfl⟩
abbrev main_c_6 : Ref sig .tc := ⟨.hbm, 75, rfl⟩
abbrev main_v40 : Ref sig .tc := ⟨.hbm, 76, rfl⟩
abbrev main_v41 : Ref sig .tc := ⟨.hbm, 77, rfl⟩
abbrev main_c_7 : Ref sig .tc := ⟨.hbm, 78, rfl⟩
abbrev main_v42 : Ref sig .tc := ⟨.hbm, 79, rfl⟩
abbrev main_v43 : Ref sig .tc := ⟨.hbm, 80, rfl⟩
abbrev main_c_8 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_c_9 : Ref sig .tc := ⟨.hbm, 85, rfl⟩
abbrev main_v47 : Ref sig .tc := ⟨.hbm, 86, rfl⟩
abbrev main_v48 : Ref sig .tc := ⟨.hbm, 87, rfl⟩
abbrev main_c_10 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_c_11 : Ref sig .tc := ⟨.hbm, 96, rfl⟩
abbrev main_v56 : Ref sig .tc := ⟨.hbm, 97, rfl⟩
abbrev main_v57 : Ref sig .tc := ⟨.hbm, 98, rfl⟩
abbrev main_c_12 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩

abbrev nD : Nat := 1
abbrev τ : Topo := Topo.v7x

variable {F : FTy → Type} [FloatOps F]

class Facts₀ : Prop where
  bcast_S512x512_S512x512x1_0_1 : S512x512.BroadcastsInDim S512x512x1 (![0, 1] : Fin 2 → Fin S512x512x1.rank)
  bcast_S_S512x512x1 : S_.BroadcastsInDim S512x512x1 (![] : Fin 0 → Fin S512x512x1.rank)
  shapeCasts_S512x512x1_S512x512x1x1 : S512x512x1.ShapeCasts S512x512x1x1
  bcast_S_S512x512x1x1 : S_.BroadcastsInDim S512x512x1x1 (![] : Fin 0 → Fin S512x512x1x1.rank)
  bcast_S1_S1x1x1x1_3 : S1.BroadcastsInDim S1x1x1x1 (![3] : Fin 1 → Fin S1x1x1x1.rank)
  bcast_S1x1x1x1_S512x512x1x1_0_1_2_3 : S1x1x1x1.BroadcastsInDim S512x512x1x1 (![0, 1, 2, 3] : Fin 4 → Fin S512x512x1x1.rank)
  reducesTo_S512x512x1x1_S512x512x1_d3 : S512x512x1x1.ReducesTo [3] S512x512x1
  h_S_ : 0 < S_.numel
  shapeCasts_S512x512x1_S512x512 : S512x512x1.ShapeCasts S512x512
  slices_S512x512_S511x512_0_0 : S512x512.Slices ![0, 0] S511x512
  slices_S512x512_S511x512_1_0 : S512x512.Slices ![1, 0] S511x512
  bcast_S_S511x512 : S_.BroadcastsInDim S511x512 (![] : Fin 0 → Fin S511x512.rank)
  bcast_S511x512_S511x512x1_0_1 : S511x512.BroadcastsInDim S511x512x1 (![0, 1] : Fin 2 → Fin S511x512x1.rank)
  concatenates_S511x512x1_S511x512x1_S511x512x2_d2 : Shape.Concatenates [S511x512x1, S511x512x1] S511x512x2 2
  slices_S512x512_S1x512_0_0 : S512x512.Slices ![0, 0] S1x512
  shapeCasts_S1x512_S512 : S1x512.ShapeCasts S512
  bcast_S_S512 : S_.BroadcastsInDim S512 (![] : Fin 0 → Fin S512.rank)
  bcast_S512_S512x1_0 : S512.BroadcastsInDim S512x1 (![0] : Fin 1 → Fin S512x1.rank)
  reducesTo_S511x512_S512_d0 : S511x512.ReducesTo [0] S512
  reducesTo_S512x512_S512_d0 : S512x512.ReducesTo [0] S512
  concatenates_S512x1_S512x1_S512x2_d1 : Shape.Concatenates [S512x1, S512x1] S512x2 1
  gather_S512x512x128_S512x512x1x1_S512x512x1_n_2_01_01_2_3_111_wf : GatherDims.WF S512x512x128 S512x512x1x1 S512x512x1 [] [2] [0, 1] [2] [0, 1] 3 ![1, 1, 1]
  gather_S128x128_S511x512x2_S511x512_n_01_n_n_01_2_11_wf : GatherDims.WF S128x128 S511x512x2 S511x512 [] [0, 1] [] [0, 1] [] 2 ![1, 1]
  gather_S128_S512x1_S512_n_0_n_n_0_1_1_wf : GatherDims.WF S128 S512x1 S512 [] [0] [] [0] [] 1 ![1]
  gather_S512x512_S512x2_S512_n_01_n_n_01_1_11_wf : GatherDims.WF S512x512 S512x2 S512 [] [0, 1] [] [0, 1] [] 1 ![1, 1]

variable [Facts₀]

def gather_S512x512x128_S512x512x1x1_S512x512x1_n_2_01_01_2_3_111 : GatherDims S512x512x128 S512x512x1x1 S512x512x1 where
  offsetDims := []
  collapsedSliceDims := [2]
  operandBatchingDims := [0, 1]
  startIndicesBatchingDims := [0, 1]
  startIndexMap := [2]
  indexVectorDim := 3
  sliceSizes := ![1, 1, 1]
  wf := gather_S512x512x128_S512x512x1x1_S512x512x1_n_2_01_01_2_3_111_wf
def gather_S128x128_S511x512x2_S511x512_n_01_n_n_01_2_11 : GatherDims S128x128 S511x512x2 S511x512 where
  offsetDims := []
  collapsedSliceDims := [0, 1]
  operandBatchingDims := []
  startIndicesBatchingDims := []
  startIndexMap := [0, 1]
  indexVectorDim := 2
  sliceSizes := ![1, 1]
  wf := gather_S128x128_S511x512x2_S511x512_n_01_n_n_01_2_11_wf
def gather_S128_S512x1_S512_n_0_n_n_0_1_1 : GatherDims S128 S512x1 S512 where
  offsetDims := []
  collapsedSliceDims := [0]
  operandBatchingDims := []
  startIndicesBatchingDims := []
  startIndexMap := [0]
  indexVectorDim := 1
  sliceSizes := ![1]
  wf := gather_S128_S512x1_S512_n_0_n_n_0_1_1_wf
def gather_S512x512_S512x2_S512_n_01_n_n_01_1_11 : GatherDims S512x512 S512x2 S512 where
  offsetDims := []
  collapsedSliceDims := [0, 1]
  operandBatchingDims := []
  startIndicesBatchingDims := []
  startIndexMap := [0, 1]
  indexVectorDim := 1
  sliceSizes := ![1, 1]
  wf := gather_S512x512_S512x2_S512_n_01_n_n_01_1_11_wf

class Facts : Prop extends Facts₀ where

variable [Facts]
-- ==== Proof.K.Kit.lean ====
/-
  The launch side of `Kernel`'s one pallas_call, stated for any float instance `F`.

  @main is ten host operations, the region, and seventy-seven host operations. The region is entered with every
  buffer at `V0`: the launch contents pushed through the ten operations (the mask converted to floats and the
  weight array `%6` built from it); the seventy-seven later operations read the region's result array and the
  arguments, write fresh buffers only, and never an array a window stages.

  The grid has 4 × 8 points, point `t` at batch block `t / 8` and sequence block `t % 8`. The body's two
  conditionals read the sequence block only: the first holds exactly where `t % 8 = 0` (the output block is reset),
  the second exactly where `t % 8 ≠ 0` (the output block is added to). The output block is written back where
  `t % 8 = 7`.
-/
import proofs.«410888_j47141561041240_3_alg».proof.Proof.Gen.Kernel.Launch
import proofs.«410888_j47141561041240_3_alg».proof.Proof.Gen.Kernel.Skeleton
import proofs.«410888_j47141561041240_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, stretch by stretch, and those after it. -/
abbrev pfx : List (List (HloOp τ sig (Elt F))) := [hostOps0, hostOps0_1]
abbrev sfx : List (List (HloOp τ sig (Elt F))) := [hostOps1, hostOps1_1, hostOps1_2]

/-- Core `c`'s buffer contents when the region is entered: the launch contents after the ten operations. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

set_option maxHeartbeats 4000000 in
/-- @main is the ten operations, the region, the seventy-seven operations: it reduces to the region continued by the
    later ones, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0, hostOps0_1] [hostOps1, hostOps1_1, hostOps1_2]
    (by simp only [List.Forall]; exact ⟨hostOps0_sub, hostOps0_1_sub⟩)
    (by simp only [List.Forall]; exact ⟨hostOps0_fresh, hostOps0_1_fresh⟩) main_chain

/-- The later operations touch the pipeline's arrays and the buffers that bypass the region only. -/
theorem sfx_sub : ∀ ops ∈ (sfx : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (sfx : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-! ## The body's branch conditions, over the grid -/

/-- The first conditional is taken: the point is the first of its batch block. -/
abbrev cond1 (i : grid0.Coords) : Prop := k0_cond1 i = 1#1
/-- The second conditional is taken: the point is a later one of its batch block. -/
abbrev cond2 (i : grid0.Coords) : Prop := k0_cond2 i = 1#1

theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, cond2 (grid0.coords t) ↔ ¬ t.val % 8 = 0 :=
  (by decide +kernel : ∀ t : Fin grid0.N, cond2 (grid0.coords t) ↔ ¬ t.val % 8 = 0)

/-- The output window is idle nowhere on the grid: one of the two conditionals is always taken. -/
theorem live3 : ∀ t : Fin cfg0.N, cfg0.idle 3 (grid0.coords t) = false := by decide +kernel

/-! ## The windows' blocks and staging memrefs -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging memref at point `t`, as the pipeline passes it to the body, and its wholeness. -/
abbrev ms0 (t : Fin cfg0.N) : Memref sig .tc .vmem S64x128x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x128 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)

/-- One staging buffer of the output window, through which its contents are stated. -/
abbrev VO3 : View sig .tc .vmem S1x128 .f32 := (Memref.whole cc0_stg3_0 : Memref sig .tc .vmem S1x128 .f32).view

end Cert.Kernel.Hand

end
-- ==== Proof.K.RunA.lean ====
/-
  The body's run at the first point of a batch block: the sequence block is 0, so the first conditional is taken
  and the second is not. The body reads the tags, the weights and the emissions, reads the output buffer (the value
  is not used) and stores the partial row over the whole of it.
-/
import proofs.«410888_j47141561041240_3_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging buffer when the first conditional is taken and the
    second is not, with the proof that on whole staging buffers (the three inputs at their contents, the output at
    anything) the body runs to a continuation that holds the inputs unchanged and the output with those pieces
    written. -/
noncomputable def kernelRunA (c : Dev nD) (i : grid0.Coords) (arg2 : Memref sig .tc .vmem S64x128x128 .f32) (harg2 : arg2.IsWhole) (arg3 : Memref sig .tc .vmem S64x128 .i32) (harg3 : arg3.IsWhole) (arg4 : Memref sig .tc .vmem S64x128 .f32) (harg4 : arg4.IsWhole) (arg5 : Memref sig .tc .vmem S1x128 .f32) (harg5 : arg5.IsWhole) (hc1 : cond1 i) (hc2 : ¬cond2 i)
    (x0 : Vec F S64x128x128 .f32) (x1 : Vec F S64x128 .i32) (x2 : Vec F S64x128 .f32) :
    { L : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L)) -∗ K ⟨⟩))
          ⊢ wp frame (wpE (defs₀ (F := F)) Variants.none c none) E (cc0__emit_weighted_kernel i arg2 harg2 arg3 harg3 arg4 harg4 arg5 harg5) K } := by
  refine ⟨?_, fun E K => ?run⟩
  case run =>
    simp only [cc0__emit_weighted_kernel_eq_skeleton]; unfold cc0__emit_weighted_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.K.RunB.lean ====
/-
  The body's run at a later point of a batch block: the sequence block is not 0, so the first conditional is not
  taken and the second is. The body reads the tags, the weights and the emissions, reads the output buffer twice and
  stores the sum of the first value read and the partial row over the whole of it.
-/
import proofs.«410888_j47141561041240_3_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging buffer when the first conditional is not taken and
    the second is, with the proof that on whole staging buffers (the three inputs at their contents, the output at
    its running contents `xo`) the body runs to a continuation that holds the inputs unchanged and the output with
    those pieces written. -/
noncomputable def kernelRunB (c : Dev nD) (i : grid0.Coords) (arg2 : Memref sig .tc .vmem S64x128x128 .f32) (harg2 : arg2.IsWhole) (arg3 : Memref sig .tc .vmem S64x128 .i32) (harg3 : arg3.IsWhole) (arg4 : Memref sig .tc .vmem S64x128 .f32) (harg4 : arg4.IsWhole) (arg5 : Memref sig .tc .vmem S1x128 .f32) (harg5 : arg5.IsWhole) (hc1 : ¬cond1 i) (hc2 : cond2 i)
    (x0 : Vec F S64x128x128 .f32) (x1 : Vec F S64x128 .i32) (x2 : Vec F S64x128 .f32) (xo : Vec F S1x128 .f32) :
    { L : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L)) -∗ K ⟨⟩))
          ⊢ wp frame (wpE (defs₀ (F := F)) Variants.none c none) E (cc0__emit_weighted_kernel i arg2 harg2 arg3 harg3 arg4 harg4 arg5 harg5) K } := by
  refine ⟨?_, fun E K => ?run⟩
  case run =>
    simp only [cc0__emit_weighted_kernel_eq_skeleton]; unfold cc0__emit_weighted_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2
    obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.K.HostKeep.lean ====
/-
  Which buffers the host operations of `Kernel`'s @main write, stated for any float instance `F`.

  Every host operation writes exactly one buffer, its result, and no result is an argument of @main or the
  region's output array. Hence: the ten operations before the region leave every argument at its launch contents;
  the seventy-seven operations after it write no array a window stages, and leave the arguments no window stages
  at their launch contents; and the frame run's post, read at the six arguments, is the frame claim's post.
-/
import proofs.«410888_j47141561041240_3_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments as the region finds them -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The later operations write no array of the pipeline -/

set_option maxHeartbeats 4000000 in
/-- None of the forty-two operations after the region writes an array a window stages: each writes its own result buffer only. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

set_option maxHeartbeats 4000000 in
/-- Nor does any of the twenty-two operations of the gather along the sequence axis. -/
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

set_option maxHeartbeats 4000000 in
/-- Nor any of the last thirteen. -/
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

/-- No later operation writes an array a window stages. -/
theorem sfx_keeps : ∀ ops ∈ (sfx : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact (List.forall_iff_forall_mem.mp hostOps1_keeps) op hop
  · exact (List.forall_iff_forall_mem.mp hostOps1_1_keeps) op hop
  · exact (List.forall_iff_forall_mem.mp hostOps1_2_keeps) op hop

/-! ## The arguments no window stages, after the later operations -/

set_option maxHeartbeats 4000000 in
/-- None of the forty-two operations after the region writes an argument that no window stages. -/
theorem hostOps1_keeps_args : (hostOps1 : List (HloOp τ sig (Elt F))).Forall fun op =>
    ∀ b ∈ ([main_arg2, main_arg3, main_arg4, main_arg5] : List (Ref sig .tc)), Proc.devRef .tc b ∉ op.writes := by
  simp only [hostOps1, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

set_option maxHeartbeats 4000000 in
/-- Nor does any of the twenty-two operations of the gather along the sequence axis. -/
theorem hostOps1_1_keeps_args : (hostOps1_1 : List (HloOp τ sig (Elt F))).Forall fun op =>
    ∀ b ∈ ([main_arg2, main_arg3, main_arg4, main_arg5] : List (Ref sig .tc)), Proc.devRef .tc b ∉ op.writes := by
  simp only [hostOps1_1, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

set_option maxHeartbeats 4000000 in
/-- Nor any of the last thirteen. -/
theorem hostOps1_2_keeps_args : (hostOps1_2 : List (HloOp τ sig (Elt F))).Forall fun op =>
    ∀ b ∈ ([main_arg2, main_arg3, main_arg4, main_arg5] : List (Ref sig .tc)), Proc.devRef .tc b ∉ op.writes := by
  simp only [hostOps1_2, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- No later operation writes an argument that no window stages. -/
theorem sfx_keeps_args : ∀ op ∈ (sfx : List (List (HloOp τ sig (Elt F)))).flatten,
    ∀ b ∈ ([main_arg2, main_arg3, main_arg4, main_arg5] : List (Ref sig .tc)), Proc.devRef .tc b ∉ op.writes := by
  intro op hop
  obtain ⟨ops, hops, hop⟩ := List.mem_flatten.mp hop
  simp only [List.mem_cons, List.mem_nil_iff, or_false] at hops
  rcases hops with rfl | rfl | rfl
  · exact (List.forall_iff_forall_mem.mp hostOps1_keeps_args) op hop
  · exact (List.forall_iff_forall_mem.mp hostOps1_1_keeps_args) op hop
  · exact (List.forall_iff_forall_mem.mp hostOps1_2_keeps_args) op hop

/-- `main_arg2` after the later operations, for any proof data: its launch contents. -/
theorem tail_arg2 (dats : (p : Fin 1) → (c : Dev nD) → Dat τ (Elt F) Unit ℕ (UR sig nD τ) ℕ (cfgs p) c) (c : Dev nD) :
    Pipeline.afterTail₀ cfgs dats 0 (V0 m) sfx c main_arg2 = m ((c : Thread nD τ).loc main_arg2) := by
  unfold Pipeline.afterTail₀
  rw [StableHlo.after_of_forall_not_mem _ _ (fun op hop => sfx_keeps_args op hop main_arg2 (by simp only [List.mem_cons, List.mem_nil_iff, or_false, true_or, or_true])),
    Pipeline.withArrays_of_ne _ c (V0 m c) _ main_arg2 (fun w => by fin_cases w <;> decide)]
  exact V_main_arg2 m c

/-- `main_arg3` after the later operations, for any proof data: its launch contents. -/
theorem tail_arg3 (dats : (p : Fin 1) → (c : Dev nD) → Dat τ (Elt F) Unit ℕ (UR sig nD τ) ℕ (cfgs p) c) (c : Dev nD) :
    Pipeline.afterTail₀ cfgs dats 0 (V0 m) sfx c main_arg3 = m ((c : Thread nD τ).loc main_arg3) := by
  unfold Pipeline.afterTail₀
  rw [StableHlo.after_of_forall_not_mem _ _ (fun op hop => sfx_keeps_args op hop main_arg3 (by simp only [List.mem_cons, List.mem_nil_iff, or_false, true_or, or_true])),
    Pipeline.withArrays_of_ne _ c (V0 m c) _ main_arg3 (fun w => by fin_cases w <;> decide)]
  exact V_main_arg3 m c

/-- `main_arg4` after the later operations, for any proof data: its launch contents. -/
theorem tail_arg4 (dats : (p : Fin 1) → (c : Dev nD) → Dat τ (Elt F) Unit ℕ (UR sig nD τ) ℕ (cfgs p) c) (c : Dev nD) :
    Pipeline.afterTail₀ cfgs dats 0 (V0 m) sfx c main_arg4 = m ((c : Thread nD τ).loc main_arg4) := by
  unfold Pipeline.afterTail₀
  rw [StableHlo.after_of_forall_not_mem _ _ (fun op hop => sfx_keeps_args op hop main_arg4 (by simp only [List.mem_cons, List.mem_nil_iff, or_false, true_or, or_true])),
    Pipeline.withArrays_of_ne _ c (V0 m c) _ main_arg4 (fun w => by fin_cases w <;> decide)]
  exact V_main_arg4 m c

/-- `main_arg5` after the later operations, for any proof data: its launch contents. -/
theorem tail_arg5 (dats : (p : Fin 1) → (c : Dev nD) → Dat τ (Elt F) Unit ℕ (UR sig nD τ) ℕ (cfgs p) c) (c : Dev nD) :
    Pipeline.afterTail₀ cfgs dats 0 (V0 m) sfx c main_arg5 = m ((c : Thread nD τ).loc main_arg5) := by
  unfold Pipeline.afterTail₀
  rw [StableHlo.after_of_forall_not_mem _ _ (fun op hop => sfx_keeps_args op hop main_arg5 (by simp only [List.mem_cons, List.mem_nil_iff, or_false, true_or, or_true])),
    Pipeline.withArrays_of_ne _ c (V0 m c) _ main_arg5 (fun w => by fin_cases w <;> decide)]
  exact V_main_arg5 m c

/-! ## The frame claim's post from the frame run's -/

/-- For any proof data whose arrays are the region-entry contents, the frame run's post read at the six arguments is
    the frame claim's: the two staged inputs hold their entry contents, which are the launch contents; the four
    arguments no window stages bypass the region and the later operations. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) sfx))) :
    θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) ∧ r.2.mem ((c.tc : Thread nD τ).loc main_arg5) = m ((c.tc : Thread nD τ).loc main_arg5)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c))),
     ((h c).2 main_arg2 (Pipeline.mem_restRefs_of main_arg2 (by decide) (by decide))).trans (tail_arg2 m dats c),
     ((h c).2 main_arg3 (Pipeline.mem_restRefs_of main_arg3 (by decide) (by decide))).trans (tail_arg3 m dats c),
     ((h c).2 main_arg4 (Pipeline.mem_restRefs_of main_arg4 (by decide) (by decide))).trans (tail_arg4 m dats c),
     ((h c).2 main_arg5 (Pipeline.mem_restRefs_of main_arg5 (by decide) (by decide))).trans (tail_arg5 m dats c)⟩) h

end Cert.Kernel.Hand

end
-- ==== Proof.K.Frame.lean ====
/-
  The frame of the one pallas_call and of @main around it.

  The output block of a batch block is an accumulator over that batch block's eight sequence blocks: the first point
  stores the partial row over it, each later point adds its partial row to what the point before left, and the block
  is written back after the eighth. What the output's staging buffer holds after each point is therefore defined by
  recursion on the point; the three inputs' staging buffers hold their blocks at every point. With that as the
  pipeline's proof data the body's two runs give the body obligation at every point, and the library's frame run of
  a region followed by host operations gives the run of @main.
-/
import proofs.«410888_j47141561041240_3_alg».proof.Proof.K.RunB
import proofs.«410888_j47141561041240_3_alg».proof.Proof.K.HostKeep
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each run leaves in the output's staging buffer -/

/-- The one store of the first case covers the whole [1,128] block. -/
theorem coverA (c : Dev nD) (i : grid0.Coords) (arg2 : Memref sig .tc .vmem S64x128x128 .f32) (harg2 : arg2.IsWhole) (arg3 : Memref sig .tc .vmem S64x128 .i32) (harg3 : arg3.IsWhole) (arg4 : Memref sig .tc .vmem S64x128 .f32) (harg4 : arg4.IsWhole) (arg5 : Memref sig .tc .vmem S1x128 .f32) (harg5 : arg5.IsWhole) (hc1 : cond1 i) (hc2 : ¬cond2 i)
    (x0 : Vec F S64x128x128 .f32) (x1 : Vec F S64x128 .i32) (x2 : Vec F S64x128 .f32) (y : S1x128.Idx) :
    ∃ pc ∈ (kernelRunA c i arg2 harg2 arg3 harg3 arg4 harg4 arg5 harg5 hc1 hc2 x0 x1 x2).1, y ∈ pc.1.set :=
  View.cover_of_tiledL (kernelRunA c i arg2 harg2 arg3 harg3 arg4 harg4 arg5 harg5 hc1 hc2 x0 x1 x2).1 S1x128.size (by sl_kernel_rfl) y

/-- What the first case leaves in the output's staging buffer: its pieces read back over junk. -/
def outA (c : Dev nD) (i : grid0.Coords) (arg2 : Memref sig .tc .vmem S64x128x128 .f32) (harg2 : arg2.IsWhole) (arg3 : Memref sig .tc .vmem S64x128 .i32) (harg3 : arg3.IsWhole) (arg4 : Memref sig .tc .vmem S64x128 .f32) (harg4 : arg4.IsWhole) (arg5 : Memref sig .tc .vmem S1x128 .f32) (harg5 : arg5.IsWhole) (hc1 : cond1 i) (hc2 : ¬cond2 i)
    (x0 : Vec F S64x128x128 .f32) (x1 : Vec F S64x128 .i32) (x2 : Vec F S64x128 .f32) : Vec F S1x128 .f32 :=
  VO3.read (Elt F) (VO3.writes (Elt F) VO3.junk (kernelRunA c i arg2 harg2 arg3 harg3 arg4 harg4 arg5 harg5 hc1 hc2 x0 x1 x2).1)

/-- The one store of the second case covers the whole [1,128] block. -/
theorem coverB (c : Dev nD) (i : grid0.Coords) (arg2 : Memref sig .tc .vmem S64x128x128 .f32) (harg2 : arg2.IsWhole) (arg3 : Memref sig .tc .vmem S64x128 .i32) (harg3 : arg3.IsWhole) (arg4 : Memref sig .tc .vmem S64x128 .f32) (harg4 : arg4.IsWhole) (arg5 : Memref sig .tc .vmem S1x128 .f32) (harg5 : arg5.IsWhole) (hc1 : ¬cond1 i) (hc2 : cond2 i)
    (x0 : Vec F S64x128x128 .f32) (x1 : Vec F S64x128 .i32) (x2 : Vec F S64x128 .f32) (xo : Vec F S1x128 .f32) (y : S1x128.Idx) :
    ∃ pc ∈ (kernelRunB c i arg2 harg2 arg3 harg3 arg4 harg4 arg5 harg5 hc1 hc2 x0 x1 x2 xo).1, y ∈ pc.1.set :=
  View.cover_of_tiledL (kernelRunB c i arg2 harg2 arg3 harg3 arg4 harg4 arg5 harg5 hc1 hc2 x0 x1 x2 xo).1 S1x128.size (by sl_kernel_rfl) y

/-- What the second case leaves in the output's staging buffer, from what it found there (`xo`). -/
def outB (c : Dev nD) (i : grid0.Coords) (arg2 : Memref sig .tc .vmem S64x128x128 .f32) (harg2 : arg2.IsWhole) (arg3 : Memref sig .tc .vmem S64x128 .i32) (harg3 : arg3.IsWhole) (arg4 : Memref sig .tc .vmem S64x128 .f32) (harg4 : arg4.IsWhole) (arg5 : Memref sig .tc .vmem S1x128 .f32) (harg5 : arg5.IsWhole) (hc1 : ¬cond1 i) (hc2 : cond2 i)
    (x0 : Vec F S64x128x128 .f32) (x1 : Vec F S64x128 .i32) (x2 : Vec F S64x128 .f32) (xo : Vec F S1x128 .f32) : Vec F S1x128 .f32 :=
  VO3.read (Elt F) (VO3.writes (Elt F) VO3.junk (kernelRunB c i arg2 harg2 arg3 harg3 arg4 harg4 arg5 harg5 hc1 hc2 x0 x1 x2 xo).1)

/-! ## The accumulation, point by point -/

/-- What the output's staging buffer holds after the body at position `n`: at the first point of a batch block
    (`n % 8 = 0`) what the first case leaves; at a later one what the second case leaves over the contents after
    position `n - 1` (the buffer is not written back in between). -/
def outsAt (c : Dev nD) : (n : ℕ) → n < cfg0.N → Vec F S1x128 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((hcond1 ⟨0, hn⟩).mpr (Nat.zero_mod _)) (fun h => (hcond2 ⟨0, hn⟩).mp h (Nat.zero_mod _)) (iblk m c 0 ⟨0, hn⟩) (iblk m c 1 ⟨0, hn⟩) (iblk m c 2 ⟨0, hn⟩)
  | n + 1, hn =>
    if h0 : (n + 1) % 8 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((hcond1 ⟨n + 1, hn⟩).mpr h0) (fun h => (hcond2 ⟨n + 1, hn⟩).mp h h0) (iblk m c 0 ⟨n + 1, hn⟩) (iblk m c 1 ⟨n + 1, hn⟩) (iblk m c 2 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((hcond1 ⟨n + 1, hn⟩).mp h)) ((hcond2 ⟨n + 1, hn⟩).mpr h0) (iblk m c 0 ⟨n + 1, hn⟩) (iblk m c 1 ⟨n + 1, hn⟩) (iblk m c 2 ⟨n + 1, hn⟩) (outsAt c n (Nat.lt_of_succ_lt hn))

/-- At the first point of a batch block: the first case's contents. -/
theorem outsAt_A (c : Dev nD) (t : Fin cfg0.N) (h0 : t.val % 8 = 0) :
    outsAt m c t.val t.isLt = outA c (grid0.coords t) (ms0 t) (hs0 t) (ms1 t) (hs1 t) (ms2 t) (hs2 t) (ms3 t) (hs3 t) ((hcond1 t).mpr h0) (fun h => (hcond2 t).mp h h0) (iblk m c 0 t) (iblk m c 1 t) (iblk m c 2 t) := by
  obtain ⟨n, hn⟩ := t
  cases n with
  | zero => exact rfl
  | succ n => exact (dif_pos h0).trans rfl

/-- At a later point of a batch block: the second case's contents, over what the point before left. -/
theorem outsAt_B (c : Dev nD) (t : Fin cfg0.N) (h0 : ¬t.val % 8 = 0) :
    outsAt m c t.val t.isLt = outB c (grid0.coords t) (ms0 t) (hs0 t) (ms1 t) (hs1 t) (ms2 t) (hs2 t) (ms3 t) (hs3 t) (fun h => h0 ((hcond1 t).mp h)) ((hcond2 t).mpr h0) (iblk m c 0 t) (iblk m c 1 t) (iblk m c 2 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t`
    each input's buffer at its block and the output's at `outsAt`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t.val t.isLt
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outsAt m c t.val t.isLt := by dsimp only [dats]

/-- An input's current staging buffer holds its block at every point, for any proof data whose array is the
    region-entry one and whose body leaves the block in place: the window is uncut and never idle, and where it is
    not fetched its block index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-- The output window is idle at no setting of the coordinates: of the two conditions on the sequence block, "is 0"
    and "is greater than 0", one always holds. -/
theorem live3_all (i : grid0.Coords) : cfg0.idle 3 i = false := by
  have h : ∀ j : Fin 8, (!(Scalar.cmpi .ne (Scalar.extui (Scalar.cmpi .eq (BitVec.ofNat 32 j.val) 0#32)) 0#32 == 1#1)
      && !(Scalar.cmpi .ne (Scalar.extui (Scalar.cmpi .sgt (BitVec.ofNat 32 j.val) 0#32)) 0#32 == 1#1)) = false := by decide
  exact h (i 1)

/-- At a later point of a batch block the output's current staging buffer holds what the body left at the point
    before: the point is not the grid's first, the block is written back only after a batch block's last point, and
    the window is live and uncut. -/
theorem before3_B (c : Dev nD) (t : Fin cfg0.N) (h0 : ¬t.val % 8 = 0) (d) :
    (dats m 0 c).before 3 t d = outsAt m c (t.val - 1) (Nat.lt_of_le_of_lt (Nat.sub_le _ _) t.isLt) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    live3_all (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- No window is idle at a grid point, so each is handed back at what the body leaves. -/
theorem leaves0 (c : Dev nD) (t : Fin cfg0.N) :
    (dats m 0 c).leavesExact 0 t = owns (c : Thread nD τ) (ms0 t) fullShare (iblk m c 0 t) := by
  unfold Dat.leavesExact; rw [show cfg0.idle 0 (cfg0.grid.coords t) = false from rfl, after0]
theorem leaves1 (c : Dev nD) (t : Fin cfg0.N) :
    (dats m 0 c).leavesExact 1 t = owns (c : Thread nD τ) (ms1 t) fullShare (iblk m c 1 t) := by
  unfold Dat.leavesExact; rw [show cfg0.idle 1 (cfg0.grid.coords t) = false from rfl, after1]
theorem leaves2 (c : Dev nD) (t : Fin cfg0.N) :
    (dats m 0 c).leavesExact 2 t = owns (c : Thread nD τ) (ms2 t) fullShare (iblk m c 2 t) := by
  unfold Dat.leavesExact; rw [show cfg0.idle 2 (cfg0.grid.coords t) = false from rfl, after2]
theorem leaves3 (c : Dev nD) (t : Fin cfg0.N) :
    (dats m 0 c).leavesExact 3 t = owns (c : Thread nD τ) (ms3 t) fullShare (outsAt m c t.val t.isLt) := by
  unfold Dat.leavesExact; rw [live3 t, after3]

set_option maxHeartbeats 1600000 in
/-- The body at any point. The inputs' buffers hold their blocks; the point is the first of its batch block or a
    later one; at a later one the output's buffer holds what the point before left; so the case's run applies, and
    its one store covers the output's buffer. The invariant passes through unread and the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    leaves0, leaves1, leaves2, leaves3]
  by_cases h0 : t.val % 8 = 0
  · rw [outsAt_A m c t h0]
    unfold outA
    iintro ⟨HΦ, Ho, ⟨%d0, H0⟩, ⟨%d1, H1⟩, ⟨%d2, H2⟩, ⟨%d3, H3⟩⟩
    iapply ((kernelRunA c (grid0.coords t) _ _ _ _ _ _ _ _ ((hcond1 t).mpr h0) (fun h => (hcond2 t).mp h h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _ _)
  · rw [outsAt_B m c t h0]
    simp only [before3_B m c t h0]
    unfold outB
    iintro ⟨HΦ, Ho, ⟨%d0, H0⟩, ⟨%d1, H1⟩, ⟨%d2, H2⟩, ⟨%d3, H3⟩⟩
    iapply ((kernelRunB c (grid0.coords t) _ _ _ _ _ _ _ _ (fun h => h0 ((hcond1 t).mp h)) ((hcond2 t).mpr h0) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverB c _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option maxHeartbeats 4000000 in
set_option backward.isDefEq.respectTransparency.types false in
/-- At the compiled mesh, for any values, from any memory with zero counters: every weakly fair execution of @main on
    the TensorCores terminates, and every final state has every array of the pipeline at what the library computes
    from the proof data and every other unscoped buffer as the operations after the region leave it. -/
theorem run_main : θ_run defs (onTc (τ := τ) (main (F := F))) (s₀ m ρ) (Pipeline.FramePost cfgs (dats m) 0 (Pipeline.afterTail₀ cfgs (dats m) 0 (V0 m) sfx)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := sfx) (hsub := sfx_sub) (hfresh := sfx_fresh) (hkeep := sfx_keeps)
    (hmain := hmain m Variants.none) (hA := A_eq m) (hΦ := fun _ _ => rfl)

/-- THE FRAME: from any launch contents with zero counters, every weakly fair execution of @main on the TensorCores
    terminates with the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) ∧ r.2.mem ((c.tc : Thread nD τ).loc main_arg5) = m ((c.tc : Thread nD τ).loc main_arg5)) :=
  frame_of m ρ (dats m) (A_eq m) (run_main m ρ)

end Cert.Kernel.Hand

end
-- ==== Proof.KI.Kit.lean ====
/-
  The launch side of `KernelIdeal`'s one pallas_call, stated for any float instance `F`.

  @main is ten host operations, the region, and seventy-seven host operations. The region is entered with every
  buffer at `V0`: the launch contents pushed through the ten operations (the mask converted to floats and the
  weight array `%6` built from it); the seventy-seven later operations read the region's result array and the
  arguments, write fresh buffers only, and never an array a window stages.

  The grid has 4 × 8 points, point `t` at batch block `t / 8` and sequence block `t % 8`. The body's two
  conditionals read the sequence block only: the first holds exactly where `t % 8 = 0` (the output block is reset),
  the second exactly where `t % 8 ≠ 0` (the output block is added to). The output block is written back where
  `t % 8 = 7`.
-/
import proofs.«410888_j47141561041240_3_alg».proof.Proof.Gen.KernelIdeal.Launch
import proofs.«410888_j47141561041240_3_alg».proof.Proof.Gen.KernelIdeal.Skeleton
import proofs.«410888_j47141561041240_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, stretch by stretch, and those after it. -/
abbrev pfx : List (List (HloOp τ sig (Elt F))) := [hostOps0, hostOps0_1]
abbrev sfx : List (List (HloOp τ sig (Elt F))) := [hostOps1, hostOps1_1, hostOps1_2]

/-- Core `c`'s buffer contents when the region is entered: the launch contents after the ten operations. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

set_option maxHeartbeats 4000000 in
/-- @main is the ten operations, the region, the seventy-seven operations: it reduces to the region continued by the
    later ones, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0, hostOps0_1] [hostOps1, hostOps1_1, hostOps1_2]
    (by simp only [List.Forall]; exact ⟨hostOps0_sub, hostOps0_1_sub⟩)
    (by simp only [List.Forall]; exact ⟨hostOps0_fresh, hostOps0_1_fresh⟩) main_chain

/-- The later operations touch the pipeline's arrays and the buffers that bypass the region only. -/
theorem sfx_sub : ∀ ops ∈ (sfx : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (sfx : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-! ## The body's branch conditions, over the grid -/

/-- The first conditional is taken: the point is the first of its batch block. -/
abbrev cond1 (i : grid0.Coords) : Prop := k0_cond1 i = 1#1
/-- The second conditional is taken: the point is a later one of its batch block. -/
abbrev cond2 (i : grid0.Coords) : Prop := k0_cond2 i = 1#1

theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, cond2 (grid0.coords t) ↔ ¬ t.val % 8 = 0 :=
  (by decide +kernel : ∀ t : Fin grid0.N, cond2 (grid0.coords t) ↔ ¬ t.val % 8 = 0)

/-- The output window is idle nowhere on the grid: one of the two conditionals is always taken. -/
theorem live3 : ∀ t : Fin cfg0.N, cfg0.idle 3 (grid0.coords t) = false := by decide +kernel

/-! ## The windows' blocks and staging memrefs -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging memref at point `t`, as the pipeline passes it to the body, and its wholeness. -/
abbrev ms0 (t : Fin cfg0.N) : Memref sig .tc .vmem S64x128x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x128 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)

/-- One staging buffer of the output window, through which its contents are stated. -/
abbrev VO3 : View sig .tc .vmem S1x128 .f32 := (Memref.whole cc0_stg3_0 : Memref sig .tc .vmem S1x128 .f32).view

end Cert.KernelIdeal.Hand

end
-- ==== Proof.KI.RunA.lean ====
/-
  The body's run at the first point of a batch block: the sequence block is 0, so the first conditional is taken
  and the second is not. The body reads the tags, the weights and the emissions, reads the output buffer (the value
  is not used) and stores the partial row over the whole of it.
-/
import proofs.«410888_j47141561041240_3_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging buffer when the first conditional is taken and the
    second is not, with the proof that on whole staging buffers (the three inputs at their contents, the output at
    anything) the body runs to a continuation that holds the inputs unchanged and the output with those pieces
    written. -/
noncomputable def kernelRunA (c : Dev nD) (i : grid0.Coords) (arg2 : Memref sig .tc .vmem S64x128x128 .f32) (harg2 : arg2.IsWhole) (arg3 : Memref sig .tc .vmem S64x128 .i32) (harg3 : arg3.IsWhole) (arg4 : Memref sig .tc .vmem S64x128 .f32) (harg4 : arg4.IsWhole) (arg5 : Memref sig .tc .vmem S1x128 .f32) (harg5 : arg5.IsWhole) (hc1 : cond1 i) (hc2 : ¬cond2 i)
    (x0 : Vec F S64x128x128 .f32) (x1 : Vec F S64x128 .i32) (x2 : Vec F S64x128 .f32) :
    { L : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L)) -∗ K ⟨⟩))
          ⊢ wp frame (wpE (defs₀ (F := F)) Variants.none c none) E (cc0__emit_weighted_kernel i arg2 harg2 arg3 harg3 arg4 harg4 arg5 harg5) K } := by
  refine ⟨?_, fun E K => ?run⟩
  case run =>
    simp only [cc0__emit_weighted_kernel_eq_skeleton]; unfold cc0__emit_weighted_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KI.RunB.lean ====
/-
  The body's run at a later point of a batch block: the sequence block is not 0, so the first conditional is not
  taken and the second is. The body reads the tags, the weights and the emissions, reads the output buffer twice and
  stores the sum of the first value read and the partial row over the whole of it.
-/
import proofs.«410888_j47141561041240_3_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging buffer when the first conditional is not taken and
    the second is, with the proof that on whole staging buffers (the three inputs at their contents, the output at
    its running contents `xo`) the body runs to a continuation that holds the inputs unchanged and the output with
    those pieces written. -/
noncomputable def kernelRunB (c : Dev nD) (i : grid0.Coords) (arg2 : Memref sig .tc .vmem S64x128x128 .f32) (harg2 : arg2.IsWhole) (arg3 : Memref sig .tc .vmem S64x128 .i32) (harg3 : arg3.IsWhole) (arg4 : Memref sig .tc .vmem S64x128 .f32) (harg4 : arg4.IsWhole) (arg5 : Memref sig .tc .vmem S1x128 .f32) (harg5 : arg5.IsWhole) (hc1 : ¬cond1 i) (hc2 : cond2 i)
    (x0 : Vec F S64x128x128 .f32) (x1 : Vec F S64x128 .i32) (x2 : Vec F S64x128 .f32) (xo : Vec F S1x128 .f32) :
    { L : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L)) -∗ K ⟨⟩))
          ⊢ wp frame (wpE (defs₀ (F := F)) Variants.none c none) E (cc0__emit_weighted_kernel i arg2 harg2 arg3 harg3 arg4 harg4 arg5 harg5) K } := by
  refine ⟨?_, fun E K => ?run⟩
  case run =>
    simp only [cc0__emit_weighted_kernel_eq_skeleton]; unfold cc0__emit_weighted_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2
    obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KI.HostKeep.lean ====
/-
  Which buffers the host operations of `KernelIdeal`'s @main write, stated for any float instance `F`.

  Every host operation writes exactly one buffer, its result, and no result is an argument of @main or the
  region's output array. Hence: the ten operations before the region leave every argument at its launch contents;
  the seventy-seven operations after it write no array a window stages, and leave the arguments no window stages
  at their launch contents; and the frame run's post, read at the six arguments, is the frame claim's post.
-/
import proofs.«410888_j47141561041240_3_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments as the region finds them -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The later operations write no array of the pipeline -/

set_option maxHeartbeats 4000000 in
/-- None of the forty-two operations after the region writes an array a window stages: each writes its own result buffer only. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

set_option maxHeartbeats 4000000 in
/-- Nor does any of the twenty-two operations of the gather along the sequence axis. -/
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

set_option maxHeartbeats 4000000 in
/-- Nor any of the last thirteen. -/
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

/-- No later operation writes an array a window stages. -/
theorem sfx_keeps : ∀ ops ∈ (sfx : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact (List.forall_iff_forall_mem.mp hostOps1_keeps) op hop
  · exact (List.forall_iff_forall_mem.mp hostOps1_1_keeps) op hop
  · exact (List.forall_iff_forall_mem.mp hostOps1_2_keeps) op hop

/-! ## The arguments no window stages, after the later operations -/

set_option maxHeartbeats 4000000 in
/-- None of the forty-two operations after the region writes an argument that no window stages. -/
theorem hostOps1_keeps_args : (hostOps1 : List (HloOp τ sig (Elt F))).Forall fun op =>
    ∀ b ∈ ([main_arg2, main_arg3, main_arg4, main_arg5] : List (Ref sig .tc)), Proc.devRef .tc b ∉ op.writes := by
  simp only [hostOps1, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

set_option maxHeartbeats 4000000 in
/-- Nor does any of the twenty-two operations of the gather along the sequence axis. -/
theorem hostOps1_1_keeps_args : (hostOps1_1 : List (HloOp τ sig (Elt F))).Forall fun op =>
    ∀ b ∈ ([main_arg2, main_arg3, main_arg4, main_arg5] : List (Ref sig .tc)), Proc.devRef .tc b ∉ op.writes := by
  simp only [hostOps1_1, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

set_option maxHeartbeats 4000000 in
/-- Nor any of the last thirteen. -/
theorem hostOps1_2_keeps_args : (hostOps1_2 : List (HloOp τ sig (Elt F))).Forall fun op =>
    ∀ b ∈ ([main_arg2, main_arg3, main_arg4, main_arg5] : List (Ref sig .tc)), Proc.devRef .tc b ∉ op.writes := by
  simp only [hostOps1_2, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- No later operation writes an argument that no window stages. -/
theorem sfx_keeps_args : ∀ op ∈ (sfx : List (List (HloOp τ sig (Elt F)))).flatten,
    ∀ b ∈ ([main_arg2, main_arg3, main_arg4, main_arg5] : List (Ref sig .tc)), Proc.devRef .tc b ∉ op.writes := by
  intro op hop
  obtain ⟨ops, hops, hop⟩ := List.mem_flatten.mp hop
  simp only [List.mem_cons, List.mem_nil_iff, or_false] at hops
  rcases hops with rfl | rfl | rfl
  · exact (List.forall_iff_forall_mem.mp hostOps1_keeps_args) op hop
  · exact (List.forall_iff_forall_mem.mp hostOps1_1_keeps_args) op hop
  · exact (List.forall_iff_forall_mem.mp hostOps1_2_keeps_args) op hop

/-- `main_arg2` after the later operations, for any proof data: its launch contents. -/
theorem tail_arg2 (dats : (p : Fin 1) → (c : Dev nD) → Dat τ (Elt F) Unit ℕ (UR sig nD τ) ℕ (cfgs p) c) (c : Dev nD) :
    Pipeline.afterTail₀ cfgs dats 0 (V0 m) sfx c main_arg2 = m ((c : Thread nD τ).loc main_arg2) := by
  unfold Pipeline.afterTail₀
  rw [StableHlo.after_of_forall_not_mem _ _ (fun op hop => sfx_keeps_args op hop main_arg2 (by simp only [List.mem_cons, List.mem_nil_iff, or_false, true_or, or_true])),
    Pipeline.withArrays_of_ne _ c (V0 m c) _ main_arg2 (fun w => by fin_cases w <;> decide)]
  exact V_main_arg2 m c

/-- `main_arg3` after the later operations, for any proof data: its launch contents. -/
theorem tail_arg3 (dats : (p : Fin 1) → (c : Dev nD) → Dat τ (Elt F) Unit ℕ (UR sig nD τ) ℕ (cfgs p) c) (c : Dev nD) :
    Pipeline.afterTail₀ cfgs dats 0 (V0 m) sfx c main_arg3 = m ((c : Thread nD τ).loc main_arg3) := by
  unfold Pipeline.afterTail₀
  rw [StableHlo.after_of_forall_not_mem _ _ (fun op hop => sfx_keeps_args op hop main_arg3 (by simp only [List.mem_cons, List.mem_nil_iff, or_false, true_or, or_true])),
    Pipeline.withArrays_of_ne _ c (V0 m c) _ main_arg3 (fun w => by fin_cases w <;> decide)]
  exact V_main_arg3 m c

/-- `main_arg4` after the later operations, for any proof data: its launch contents. -/
theorem tail_arg4 (dats : (p : Fin 1) → (c : Dev nD) → Dat τ (Elt F) Unit ℕ (UR sig nD τ) ℕ (cfgs p) c) (c : Dev nD) :
    Pipeline.afterTail₀ cfgs dats 0 (V0 m) sfx c main_arg4 = m ((c : Thread nD τ).loc main_arg4) := by
  unfold Pipeline.afterTail₀
  rw [StableHlo.after_of_forall_not_mem _ _ (fun op hop => sfx_keeps_args op hop main_arg4 (by simp only [List.mem_cons, List.mem_nil_iff, or_false, true_or, or_true])),
    Pipeline.withArrays_of_ne _ c (V0 m c) _ main_arg4 (fun w => by fin_cases w <;> decide)]
  exact V_main_arg4 m c

/-- `main_arg5` after the later operations, for any proof data: its launch contents. -/
theorem tail_arg5 (dats : (p : Fin 1) → (c : Dev nD) → Dat τ (Elt F) Unit ℕ (UR sig nD τ) ℕ (cfgs p) c) (c : Dev nD) :
    Pipeline.afterTail₀ cfgs dats 0 (V0 m) sfx c main_arg5 = m ((c : Thread nD τ).loc main_arg5) := by
  unfold Pipeline.afterTail₀
  rw [StableHlo.after_of_forall_not_mem _ _ (fun op hop => sfx_keeps_args op hop main_arg5 (by simp only [List.mem_cons, List.mem_nil_iff, or_false, true_or, or_true])),
    Pipeline.withArrays_of_ne _ c (V0 m c) _ main_arg5 (fun w => by fin_cases w <;> decide)]
  exact V_main_arg5 m c

/-! ## The frame claim's post from the frame run's -/

/-- For any proof data whose arrays are the region-entry contents, the frame run's post read at the six arguments is
    the frame claim's: the two staged inputs hold their entry contents, which are the launch contents; the four
    arguments no window stages bypass the region and the later operations. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) sfx))) :
    θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) ∧ r.2.mem ((c.tc : Thread nD τ).loc main_arg5) = m ((c.tc : Thread nD τ).loc main_arg5)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c))),
     ((h c).2 main_arg2 (Pipeline.mem_restRefs_of main_arg2 (by decide) (by decide))).trans (tail_arg2 m dats c),
     ((h c).2 main_arg3 (Pipeline.mem_restRefs_of main_arg3 (by decide) (by decide))).trans (tail_arg3 m dats c),
     ((h c).2 main_arg4 (Pipeline.mem_restRefs_of main_arg4 (by decide) (by decide))).trans (tail_arg4 m dats c),
     ((h c).2 main_arg5 (Pipeline.mem_restRefs_of main_arg5 (by decide) (by decide))).trans (tail_arg5 m dats c)⟩) h

end Cert.KernelIdeal.Hand

end
-- ==== Proof.KI.Frame.lean ====
/-
  The frame of the one pallas_call and of @main around it.

  The output block of a batch block is an accumulator over that batch block's eight sequence blocks: the first point
  stores the partial row over it, each later point adds its partial row to what the point before left, and the block
  is written back after the eighth. What the output's staging buffer holds after each point is therefore defined by
  recursion on the point; the three inputs' staging buffers hold their blocks at every point. With that as the
  pipeline's proof data the body's two runs give the body obligation at every point, and the library's frame run of
  a region followed by host operations gives the run of @main.
-/
import proofs.«410888_j47141561041240_3_alg».proof.Proof.KI.RunB
import proofs.«410888_j47141561041240_3_alg».proof.Proof.KI.HostKeep
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each run leaves in the output's staging buffer -/

/-- The one store of the first case covers the whole [1,128] block. -/
theorem coverA (c : Dev nD) (i : grid0.Coords) (arg2 : Memref sig .tc .vmem S64x128x128 .f32) (harg2 : arg2.IsWhole) (arg3 : Memref sig .tc .vmem S64x128 .i32) (harg3 : arg3.IsWhole) (arg4 : Memref sig .tc .vmem S64x128 .f32) (harg4 : arg4.IsWhole) (arg5 : Memref sig .tc .vmem S1x128 .f32) (harg5 : arg5.IsWhole) (hc1 : cond1 i) (hc2 : ¬cond2 i)
    (x0 : Vec F S64x128x128 .f32) (x1 : Vec F S64x128 .i32) (x2 : Vec F S64x128 .f32) (y : S1x128.Idx) :
    ∃ pc ∈ (kernelRunA c i arg2 harg2 arg3 harg3 arg4 harg4 arg5 harg5 hc1 hc2 x0 x1 x2).1, y ∈ pc.1.set :=
  View.cover_of_tiledL (kernelRunA c i arg2 harg2 arg3 harg3 arg4 harg4 arg5 harg5 hc1 hc2 x0 x1 x2).1 S1x128.size (by sl_kernel_rfl) y

/-- What the first case leaves in the output's staging buffer: its pieces read back over junk. -/
def outA (c : Dev nD) (i : grid0.Coords) (arg2 : Memref sig .tc .vmem S64x128x128 .f32) (harg2 : arg2.IsWhole) (arg3 : Memref sig .tc .vmem S64x128 .i32) (harg3 : arg3.IsWhole) (arg4 : Memref sig .tc .vmem S64x128 .f32) (harg4 : arg4.IsWhole) (arg5 : Memref sig .tc .vmem S1x128 .f32) (harg5 : arg5.IsWhole) (hc1 : cond1 i) (hc2 : ¬cond2 i)
    (x0 : Vec F S64x128x128 .f32) (x1 : Vec F S64x128 .i32) (x2 : Vec F S64x128 .f32) : Vec F S1x128 .f32 :=
  VO3.read (Elt F) (VO3.writes (Elt F) VO3.junk (kernelRunA c i arg2 harg2 arg3 harg3 arg4 harg4 arg5 harg5 hc1 hc2 x0 x1 x2).1)

/-- The one store of the second case covers the whole [1,128] block. -/
theorem coverB (c : Dev nD) (i : grid0.Coords) (arg2 : Memref sig .tc .vmem S64x128x128 .f32) (harg2 : arg2.IsWhole) (arg3 : Memref sig .tc .vmem S64x128 .i32) (harg3 : arg3.IsWhole) (arg4 : Memref sig .tc .vmem S64x128 .f32) (harg4 : arg4.IsWhole) (arg5 : Memref sig .tc .vmem S1x128 .f32) (harg5 : arg5.IsWhole) (hc1 : ¬cond1 i) (hc2 : cond2 i)
    (x0 : Vec F S64x128x128 .f32) (x1 : Vec F S64x128 .i32) (x2 : Vec F S64x128 .f32) (xo : Vec F S1x128 .f32) (y : S1x128.Idx) :
    ∃ pc ∈ (kernelRunB c i arg2 harg2 arg3 harg3 arg4 harg4 arg5 harg5 hc1 hc2 x0 x1 x2 xo).1, y ∈ pc.1.set :=
  View.cover_of_tiledL (kernelRunB c i arg2 harg2 arg3 harg3 arg4 harg4 arg5 harg5 hc1 hc2 x0 x1 x2 xo).1 S1x128.size (by sl_kernel_rfl) y

/-- What the second case leaves in the output's staging buffer, from what it found there (`xo`). -/
def outB (c : Dev nD) (i : grid0.Coords) (arg2 : Memref sig .tc .vmem S64x128x128 .f32) (harg2 : arg2.IsWhole) (arg3 : Memref sig .tc .vmem S64x128 .i32) (harg3 : arg3.IsWhole) (arg4 : Memref sig .tc .vmem S64x128 .f32) (harg4 : arg4.IsWhole) (arg5 : Memref sig .tc .vmem S1x128 .f32) (harg5 : arg5.IsWhole) (hc1 : ¬cond1 i) (hc2 : cond2 i)
    (x0 : Vec F S64x128x128 .f32) (x1 : Vec F S64x128 .i32) (x2 : Vec F S64x128 .f32) (xo : Vec F S1x128 .f32) : Vec F S1x128 .f32 :=
  VO3.read (Elt F) (VO3.writes (Elt F) VO3.junk (kernelRunB c i arg2 harg2 arg3 harg3 arg4 harg4 arg5 harg5 hc1 hc2 x0 x1 x2 xo).1)

/-! ## The accumulation, point by point -/

/-- What the output's staging buffer holds after the body at position `n`: at the first point of a batch block
    (`n % 8 = 0`) what the first case leaves; at a later one what the second case leaves over the contents after
    position `n - 1` (the buffer is not written back in between). -/
def outsAt (c : Dev nD) : (n : ℕ) → n < cfg0.N → Vec F S1x128 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((hcond1 ⟨0, hn⟩).mpr (Nat.zero_mod _)) (fun h => (hcond2 ⟨0, hn⟩).mp h (Nat.zero_mod _)) (iblk m c 0 ⟨0, hn⟩) (iblk m c 1 ⟨0, hn⟩) (iblk m c 2 ⟨0, hn⟩)
  | n + 1, hn =>
    if h0 : (n + 1) % 8 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((hcond1 ⟨n + 1, hn⟩).mpr h0) (fun h => (hcond2 ⟨n + 1, hn⟩).mp h h0) (iblk m c 0 ⟨n + 1, hn⟩) (iblk m c 1 ⟨n + 1, hn⟩) (iblk m c 2 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((hcond1 ⟨n + 1, hn⟩).mp h)) ((hcond2 ⟨n + 1, hn⟩).mpr h0) (iblk m c 0 ⟨n + 1, hn⟩) (iblk m c 1 ⟨n + 1, hn⟩) (iblk m c 2 ⟨n + 1, hn⟩) (outsAt c n (Nat.lt_of_succ_lt hn))

/-- At the first point of a batch block: the first case's contents. -/
theorem outsAt_A (c : Dev nD) (t : Fin cfg0.N) (h0 : t.val % 8 = 0) :
    outsAt m c t.val t.isLt = outA c (grid0.coords t) (ms0 t) (hs0 t) (ms1 t) (hs1 t) (ms2 t) (hs2 t) (ms3 t) (hs3 t) ((hcond1 t).mpr h0) (fun h => (hcond2 t).mp h h0) (iblk m c 0 t) (iblk m c 1 t) (iblk m c 2 t) := by
  obtain ⟨n, hn⟩ := t
  cases n with
  | zero => exact rfl
  | succ n => exact (dif_pos h0).trans rfl

/-- At a later point of a batch block: the second case's contents, over what the point before left. -/
theorem outsAt_B (c : Dev nD) (t : Fin cfg0.N) (h0 : ¬t.val % 8 = 0) :
    outsAt m c t.val t.isLt = outB c (grid0.coords t) (ms0 t) (hs0 t) (ms1 t) (hs1 t) (ms2 t) (hs2 t) (ms3 t) (hs3 t) (fun h => h0 ((hcond1 t).mp h)) ((hcond2 t).mpr h0) (iblk m c 0 t) (iblk m c 1 t) (iblk m c 2 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t`
    each input's buffer at its block and the output's at `outsAt`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t.val t.isLt
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outsAt m c t.val t.isLt := by dsimp only [dats]

/-- An input's current staging buffer holds its block at every point, for any proof data whose array is the
    region-entry one and whose body leaves the block in place: the window is uncut and never idle, and where it is
    not fetched its block index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-- The output window is idle at no setting of the coordinates: of the two conditions on the sequence block, "is 0"
    and "is greater than 0", one always holds. -/
theorem live3_all (i : grid0.Coords) : cfg0.idle 3 i = false := by
  have h : ∀ j : Fin 8, (!(Scalar.cmpi .ne (Scalar.extui (Scalar.cmpi .eq (BitVec.ofNat 32 j.val) 0#32)) 0#32 == 1#1)
      && !(Scalar.cmpi .ne (Scalar.extui (Scalar.cmpi .sgt (BitVec.ofNat 32 j.val) 0#32)) 0#32 == 1#1)) = false := by decide
  exact h (i 1)

/-- At a later point of a batch block the output's current staging buffer holds what the body left at the point
    before: the point is not the grid's first, the block is written back only after a batch block's last point, and
    the window is live and uncut. -/
theorem before3_B (c : Dev nD) (t : Fin cfg0.N) (h0 : ¬t.val % 8 = 0) (d) :
    (dats m 0 c).before 3 t d = outsAt m c (t.val - 1) (Nat.lt_of_le_of_lt (Nat.sub_le _ _) t.isLt) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    live3_all (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- No window is idle at a grid point, so each is handed back at what the body leaves. -/
theorem leaves0 (c : Dev nD) (t : Fin cfg0.N) :
    (dats m 0 c).leavesExact 0 t = owns (c : Thread nD τ) (ms0 t) fullShare (iblk m c 0 t) := by
  unfold Dat.leavesExact; rw [show cfg0.idle 0 (cfg0.grid.coords t) = false from rfl, after0]
theorem leaves1 (c : Dev nD) (t : Fin cfg0.N) :
    (dats m 0 c).leavesExact 1 t = owns (c : Thread nD τ) (ms1 t) fullShare (iblk m c 1 t) := by
  unfold Dat.leavesExact; rw [show cfg0.idle 1 (cfg0.grid.coords t) = false from rfl, after1]
theorem leaves2 (c : Dev nD) (t : Fin cfg0.N) :
    (dats m 0 c).leavesExact 2 t = owns (c : Thread nD τ) (ms2 t) fullShare (iblk m c 2 t) := by
  unfold Dat.leavesExact; rw [show cfg0.idle 2 (cfg0.grid.coords t) = false from rfl, after2]
theorem leaves3 (c : Dev nD) (t : Fin cfg0.N) :
    (dats m 0 c).leavesExact 3 t = owns (c : Thread nD τ) (ms3 t) fullShare (outsAt m c t.val t.isLt) := by
  unfold Dat.leavesExact; rw [live3 t, after3]

set_option maxHeartbeats 1600000 in
/-- The body at any point. The inputs' buffers hold their blocks; the point is the first of its batch block or a
    later one; at a later one the output's buffer holds what the point before left; so the case's run applies, and
    its one store covers the output's buffer. The invariant passes through unread and the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    leaves0, leaves1, leaves2, leaves3]
  by_cases h0 : t.val % 8 = 0
  · rw [outsAt_A m c t h0]
    unfold outA
    iintro ⟨HΦ, Ho, ⟨%d0, H0⟩, ⟨%d1, H1⟩, ⟨%d2, H2⟩, ⟨%d3, H3⟩⟩
    iapply ((kernelRunA c (grid0.coords t) _ _ _ _ _ _ _ _ ((hcond1 t).mpr h0) (fun h => (hcond2 t).mp h h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _ _)
  · rw [outsAt_B m c t h0]
    simp only [before3_B m c t h0]
    unfold outB
    iintro ⟨HΦ, Ho, ⟨%d0, H0⟩, ⟨%d1, H1⟩, ⟨%d2, H2⟩, ⟨%d3, H3⟩⟩
    iapply ((kernelRunB c (grid0.coords t) _ _ _ _ _ _ _ _ (fun h => h0 ((hcond1 t).mp h)) ((hcond2 t).mpr h0) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverB c _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option maxHeartbeats 4000000 in
set_option backward.isDefEq.respectTransparency.types false in
/-- At the compiled mesh, for any values, from any memory with zero counters: every weakly fair execution of @main on
    the TensorCores terminates, and every final state has every array of the pipeline at what the library computes
    from the proof data and every other unscoped buffer as the operations after the region leave it. -/
theorem run_main : θ_run defs (onTc (τ := τ) (main (F := F))) (s₀ m ρ) (Pipeline.FramePost cfgs (dats m) 0 (Pipeline.afterTail₀ cfgs (dats m) 0 (V0 m) sfx)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := sfx) (hsub := sfx_sub) (hfresh := sfx_fresh) (hkeep := sfx_keeps)
    (hmain := hmain m Variants.none) (hA := A_eq m) (hΦ := fun _ _ => rfl)

/-- THE FRAME: from any launch contents with zero counters, every weakly fair execution of @main on the TensorCores
    terminates with the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) ∧ r.2.mem ((c.tc : Thread nD τ).loc main_arg5) = m ((c.tc : Thread nD τ).loc main_arg5)) :=
  frame_of m ρ (dats m) (A_eq m) (run_main m ρ)

end Cert.KernelIdeal.Hand

end
-- ==== Proof.Spec.lean ====
/-
  The index of a sequence's last position, shared by the two programs' readings.

  Both programs sum column `b` of the mask as 32-bit words and subtract one; a negative result is wrapped by the
  axis' extent 512. With a mask of zeros and ones the sum is the number `n ≤ 512` of set entries, so the index is
  `n - 1` when `n ≥ 1` and `511` (the wrapped `-1`) when the column is empty.
-/
import Mathlib.Data.Fin.Basic
import Mathlib.Data.BitVec

namespace Cert.Spec

/-- The row both programs read the last tag from, as a function of the column's word sum `cnt`. -/
def lastRow (cnt : BitVec 32) : Fin 512 :=
  if h : 1 ≤ cnt.toNat ∧ cnt.toNat ≤ 512 then ⟨cnt.toNat - 1, by omega⟩ else ⟨511, by decide⟩

end Cert.Spec
-- ==== Proof.Gathers.lean ====
/-
  Three gathers read at an index. A gather's result at index j is the operand at the index that has, on each operand
  axis, the start index's component for that axis (read signed off the start indices and clamped so that the unit
  slice fits), plus j's coordinate on a batching axis. When the start index read signed lies inside the axis, the
  clamp does nothing and the component is the word's value.
-/
import proofs.«410888_j47141561041240_3_alg».proof.Proof.Gen.KernelIdeal
import proofs.«410888_j47141561041240_3_alg».proof.Proof.Gen.ReferenceIdeal
import Idealize.ShloMosaic.Lib.ValueIdx
import Idealize.ShloMosaic.Lib.StableHlo.Predicate

noncomputable section

namespace Cert.Gathers

open Idealize.ShloMosaic Idealize.ShloMosaic.ValueIdx

/-- A 32-bit word whose signed value lies in [0, n) has that value unsigned too. -/
theorem toNat_of_range (w : BitVec 32) (n : Nat) (h : 0 ≤ w.toInt ∧ w.toInt < n) :
    w.toInt.toNat = w.toNat ∧ w.toNat < n := by
  have hlt := w.isLt
  rw [BitVec.toInt_eq_toNat_cond] at h
  rw [BitVec.toInt_eq_toNat_cond]
  split_ifs at h ⊢ with hc <;> omega

theorem toNat_lt_of_range (w : BitVec 32) (n : Nat) (h : 0 ≤ w.toInt ∧ w.toInt < n) : w.toNat < n :=
  (toNat_of_range w n h).2

/-- A start index inside the axis is not moved by the clamp. -/
theorem clamp_of_range (w : BitVec 32) (n : Nat) (h : 0 ≤ w.toInt ∧ w.toInt < n) :
    min w.toInt.toNat (n - 1) = w.toNat := by
  obtain ⟨e, hl⟩ := toNat_of_range w n h
  rw [e]; omega

section Reference
open Cert.ReferenceIdeal

/-- The two-index gather of a [512, 512] operand at [512, 2] start indices: result b reads the operand at
    (idx[b, 0], idx[b, 1]). -/
theorem g3 {α : Type} (x : S512x512.Idx → α) (idx : IVec S512x2 32) (b : Fin 512)
    (h0 : 0 ≤ (idx (ix2 b 0)).toInt ∧ (idx (ix2 b 0)).toInt < 512)
    (h1 : 0 ≤ (idx (ix2 b 1)).toInt ∧ (idx (ix2 b 1)).toInt < 512) :
    Host.gather gather_S512x512_S512x2_S512_n_01_n_n_01_1_11 x idx (ix1 b)
      = x (ix2 ⟨(idx (ix2 b 0)).toNat, toNat_lt_of_range _ 512 h0⟩ ⟨(idx (ix2 b 1)).toNat, toNat_lt_of_range _ 512 h1⟩) := by
  unfold Host.gather
  congr 1
  funext a
  refine Fin.ext ?_
  match a with
  | ⟨0, _⟩ =>
    show gather_S512x512_S512x2_S512_n_01_n_n_01_1_11.start (ix1 b) idx 0
      + gather_S512x512_S512x2_S512_n_01_n_n_01_1_11.batchCoord (ix1 b) 0
      + gather_S512x512_S512x2_S512_n_01_n_n_01_1_11.offCoord (ix1 b) 0 = (idx (ix2 b 0)).toNat
    have hm : (0 : Fin 2) ∈ ([0, 1] : List (Fin 2)) := by decide
    rw [GatherDims.batchCoord_eq_zero _ _ _ List.not_mem_nil,
      GatherDims.offCoord_eq_zero _ _ _ (fun h => ((GatherDims.mem_sKept _ _).mp h).1 hm)]
    simp only [Nat.add_zero]
    unfold GatherDims.start
    rw [dif_pos (show (0 : Fin 2) ∈ gather_S512x512_S512x2_S512_n_01_n_n_01_1_11.startIndexMap from hm)]
    have hsi : gather_S512x512_S512x2_S512_n_01_n_n_01_1_11.siIdx (ix1 b)
        ⟨List.idxOf (0 : Fin 2) gather_S512x512_S512x2_S512_n_01_n_n_01_1_11.startIndexMap,
          List.idxOf_lt_length_iff.2 hm⟩ = ix2 b 0 := by
      funext c; refine Fin.ext ?_
      match c with
      | ⟨0, _⟩ => rfl
      | ⟨1, _⟩ => rfl
    rw [hsi]
    exact clamp_of_range _ 512 h0
  | ⟨1, _⟩ =>
    show gather_S512x512_S512x2_S512_n_01_n_n_01_1_11.start (ix1 b) idx 1
      + gather_S512x512_S512x2_S512_n_01_n_n_01_1_11.batchCoord (ix1 b) 1
      + gather_S512x512_S512x2_S512_n_01_n_n_01_1_11.offCoord (ix1 b) 1 = (idx (ix2 b 1)).toNat
    have hm : (1 : Fin 2) ∈ ([0, 1] : List (Fin 2)) := by decide
    rw [GatherDims.batchCoord_eq_zero _ _ _ List.not_mem_nil,
      GatherDims.offCoord_eq_zero _ _ _ (fun h => ((GatherDims.mem_sKept _ _).mp h).1 hm)]
    simp only [Nat.add_zero]
    unfold GatherDims.start
    rw [dif_pos (show (1 : Fin 2) ∈ gather_S512x512_S512x2_S512_n_01_n_n_01_1_11.startIndexMap from hm)]
    have hsi : gather_S512x512_S512x2_S512_n_01_n_n_01_1_11.siIdx (ix1 b)
        ⟨List.idxOf (1 : Fin 2) gather_S512x512_S512x2_S512_n_01_n_n_01_1_11.startIndexMap,
          List.idxOf_lt_length_iff.2 hm⟩ = ix2 b 1 := by
      funext c; refine Fin.ext ?_
      match c with
      | ⟨0, _⟩ => rfl
      | ⟨1, _⟩ => rfl
    rw [hsi]
    exact clamp_of_range _ 512 h1

/-- The take along the last axis of a [512, 512, 128] operand, batched over its first two axes: result (s, b, 0) reads
    the operand at (s, b, idx[s, b, 0, 0]). -/
theorem g1 {α : Type} (x : S512x512x128.Idx → α) (idx : IVec S512x512x1x1 32) (s b : Fin 512)
    (h : 0 ≤ (idx (ix4 s b 0 0)).toInt ∧ (idx (ix4 s b 0 0)).toInt < 128) :
    Host.gather gather_S512x512x128_S512x512x1x1_S512x512x1_n_2_01_01_2_3_111 x idx (ix3 s b 0)
      = x (ix3 s b ⟨(idx (ix4 s b 0 0)).toNat, toNat_lt_of_range _ 128 h⟩) := by
  unfold Host.gather
  congr 1
  funext a
  refine Fin.ext ?_
  match a with
  | ⟨0, _⟩ =>
    show gather_S512x512x128_S512x512x1x1_S512x512x1_n_2_01_01_2_3_111.start (ix3 s b 0) idx 0
      + gather_S512x512x128_S512x512x1x1_S512x512x1_n_2_01_01_2_3_111.batchCoord (ix3 s b 0) 0
      + gather_S512x512x128_S512x512x1x1_S512x512x1_n_2_01_01_2_3_111.offCoord (ix3 s b 0) 0 = s.val
    have hm : (0 : Fin 3) ∈ ([0, 1] : List (Fin 3)) := by decide
    rw [GatherDims.start_batching _ _ _ _ hm,
      GatherDims.offCoord_eq_zero _ _ _ (fun h => ((GatherDims.mem_sKept _ _).mp h).2 hm)]
    simp only [Nat.add_zero, Nat.zero_add]
    unfold GatherDims.batchCoord
    rw [dif_pos (show (0 : Fin 3) ∈ gather_S512x512x128_S512x512x1x1_S512x512x1_n_2_01_01_2_3_111.operandBatchingDims from hm)]
    rfl
  | ⟨1, _⟩ =>
    show gather_S512x512x128_S512x512x1x1_S512x512x1_n_2_01_01_2_3_111.start (ix3 s b 0) idx 1
      + gather_S512x512x128_S512x512x1x1_S512x512x1_n_2_01_01_2_3_111.batchCoord (ix3 s b 0) 1
      + gather_S512x512x128_S512x512x1x1_S512x512x1_n_2_01_01_2_3_111.offCoord (ix3 s b 0) 1 = b.val
    have hm : (1 : Fin 3) ∈ ([0, 1] : List (Fin 3)) := by decide
    rw [GatherDims.start_batching _ _ _ _ hm,
      GatherDims.offCoord_eq_zero _ _ _ (fun h => ((GatherDims.mem_sKept _ _).mp h).2 hm)]
    simp only [Nat.add_zero, Nat.zero_add]
    unfold GatherDims.batchCoord
    rw [dif_pos (show (1 : Fin 3) ∈ gather_S512x512x128_S512x512x1x1_S512x512x1_n_2_01_01_2_3_111.operandBatchingDims from hm)]
    rfl
  | ⟨2, _⟩ =>
    show gather_S512x512x128_S512x512x1x1_S512x512x1_n_2_01_01_2_3_111.start (ix3 s b 0) idx 2
      + gather_S512x512x128_S512x512x1x1_S512x512x1_n_2_01_01_2_3_111.batchCoord (ix3 s b 0) 2
      + gather_S512x512x128_S512x512x1x1_S512x512x1_n_2_01_01_2_3_111.offCoord (ix3 s b 0) 2 = (idx (ix4 s b 0 0)).toNat
    have hm : (2 : Fin 3) ∈ ([2] : List (Fin 3)) := by decide
    have hn : (2 : Fin 3) ∉ ([0, 1] : List (Fin 3)) := by decide
    rw [GatherDims.batchCoord_eq_zero _ _ _ hn,
      GatherDims.offCoord_eq_zero _ _ _ (fun h => ((GatherDims.mem_sKept _ _).mp h).1 hm)]
    simp only [Nat.add_zero]
    unfold GatherDims.start
    rw [dif_pos (show (2 : Fin 3) ∈ gather_S512x512x128_S512x512x1x1_S512x512x1_n_2_01_01_2_3_111.startIndexMap from hm)]
    have hsi : gather_S512x512x128_S512x512x1x1_S512x512x1_n_2_01_01_2_3_111.siIdx (ix3 s b 0)
        ⟨List.idxOf (2 : Fin 3) gather_S512x512x128_S512x512x1x1_S512x512x1_n_2_01_01_2_3_111.startIndexMap,
          List.idxOf_lt_length_iff.2 hm⟩ = ix4 s b 0 0 := by
      funext c; refine Fin.ext ?_
      match c with
      | ⟨0, _⟩ => rfl
      | ⟨1, _⟩ => rfl
      | ⟨2, _⟩ => rfl
      | ⟨3, _⟩ => rfl
    rw [hsi]
    exact clamp_of_range _ 128 h

end Reference

section Kernel
open Cert.KernelIdeal

/-- The take along the first axis of a [512, 512] operand, batched over its second axis: result (0, b) reads the
    operand at (idx[0, b, 0], b). -/
theorem g2 {α : Type} (x : S512x512.Idx → α) (idx : IVec S1x512x1 32) (b : Fin 512)
    (h : 0 ≤ (idx (ix3 0 b 0)).toInt ∧ (idx (ix3 0 b 0)).toInt < 512) :
    Host.gather gather_S512x512_S1x512x1_S1x512_n_0_1_1_0_2_11 x idx (ix2 0 b)
      = x (ix2 ⟨(idx (ix3 0 b 0)).toNat, toNat_lt_of_range _ 512 h⟩ b) := by
  unfold Host.gather
  congr 1
  funext a
  refine Fin.ext ?_
  match a with
  | ⟨0, _⟩ =>
    show gather_S512x512_S1x512x1_S1x512_n_0_1_1_0_2_11.start (ix2 0 b) idx 0
      + gather_S512x512_S1x512x1_S1x512_n_0_1_1_0_2_11.batchCoord (ix2 0 b) 0
      + gather_S512x512_S1x512x1_S1x512_n_0_1_1_0_2_11.offCoord (ix2 0 b) 0 = (idx (ix3 0 b 0)).toNat
    have hm : (0 : Fin 2) ∈ ([0] : List (Fin 2)) := by decide
    have hn : (0 : Fin 2) ∉ ([1] : List (Fin 2)) := by decide
    rw [GatherDims.batchCoord_eq_zero _ _ _ hn,
      GatherDims.offCoord_eq_zero _ _ _ (fun h => ((GatherDims.mem_sKept _ _).mp h).1 hm)]
    simp only [Nat.add_zero]
    unfold GatherDims.start
    rw [dif_pos (show (0 : Fin 2) ∈ gather_S512x512_S1x512x1_S1x512_n_0_1_1_0_2_11.startIndexMap from hm)]
    have hsi : gather_S512x512_S1x512x1_S1x512_n_0_1_1_0_2_11.siIdx (ix2 0 b)
        ⟨List.idxOf (0 : Fin 2) gather_S512x512_S1x512x1_S1x512_n_0_1_1_0_2_11.startIndexMap,
          List.idxOf_lt_length_iff.2 hm⟩ = ix3 0 b 0 := by
      funext c; refine Fin.ext ?_
      match c with
      | ⟨0, _⟩ => rfl
      | ⟨1, _⟩ => rfl
      | ⟨2, _⟩ => rfl
    rw [hsi]
    exact clamp_of_range _ 512 h
  | ⟨1, _⟩ =>
    show gather_S512x512_S1x512x1_S1x512_n_0_1_1_0_2_11.start (ix2 0 b) idx 1
      + gather_S512x512_S1x512x1_S1x512_n_0_1_1_0_2_11.batchCoord (ix2 0 b) 1
      + gather_S512x512_S1x512x1_S1x512_n_0_1_1_0_2_11.offCoord (ix2 0 b) 1 = b.val
    have hm : (1 : Fin 2) ∈ ([1] : List (Fin 2)) := by decide
    rw [GatherDims.start_batching _ _ _ _ hm,
      GatherDims.offCoord_eq_zero _ _ _ (fun h => ((GatherDims.mem_sKept _ _).mp h).2 hm)]
    simp only [Nat.add_zero, Nat.zero_add]
    unfold GatherDims.batchCoord
    rw [dif_pos (show (1 : Fin 2) ∈ gather_S512x512_S1x512x1_S1x512_n_0_1_1_0_2_11.operandBatchingDims from hm)]
    rfl

end Kernel

end Cert.Gathers

end
-- ==== Proof.KI.HostValue.lean ====
/-
  The values of the host operations of `KernelIdeal`'s @main around its one region.

  Before the region ten operations convert the mask to floats and build the weight array: all ones on the first
  sequence row, the float mask elsewhere. After it seventy-seven operations add, to the region's result row, the
  start score at the first tag, the masked sum of the transition scores along the sequence, and the end score at
  the tag of each column's last set position.
-/
import proofs.«410888_j47141561041240_3_alg».proof.Proof.KI.Kit
import proofs.«410888_j47141561041240_3_alg».proof.Proof.KI.HostKeep
import proofs.«410888_j47141561041240_3_alg».proof.Proof.Spec
import proofs.«410888_j47141561041240_3_alg».proof.Proof.Gathers
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ) (ρ : Dev nD → PrngReg)

/-! ## Before the region -/

/-- The mask as floats. -/
def maskF (x2 : (⟨S512x512, .i32⟩ : BufTy).Contents (Elt F)) : (⟨S512x512, .f32⟩ : BufTy).Contents (Elt F) :=
  sitofp .f32 x2

/-- The weight array: one on the first sequence row, the float mask on the others. -/
def weightArr (x2 : (⟨S512x512, .i32⟩ : BufTy).Contents (Elt F)) : (⟨S512x512, .f32⟩ : BufTy).Contents (Elt F) :=
  select
    (broadcastInDim S512x512 ![0, 1] bcast_S512x1_S512x512_0_1
      (cmpi .eq
        (broadcastInDim S512x1 ![0] bcast_S512_S512x1_0 (iotaInDim S512 32 0) : (⟨S512x1, .i32⟩ : BufTy).Contents (Elt F))
        (broadcastInDim S512x1 ![] bcast_S_S512x1 (constantI S_ 32 0#32) : (⟨S512x1, .i32⟩ : BufTy).Contents (Elt F))
        : (⟨S512x1, .i1⟩ : BufTy).Contents (Elt F))
      : (⟨S512x512, .i1⟩ : BufTy).Contents (Elt F))
    (broadcastInDim S512x512 ![] bcast_S_S512x512 (constant (F := F) S_ .f32 0x3F800000#32) : (⟨S512x512, .f32⟩ : BufTy).Contents (Elt F))
    (maskF x2)

theorem V_main_v0 (c : Dev nD) : V m c main_v0 = maskF (m ((c : Thread nD τ).loc main_arg2)) := by
  dsimp only [V, V0]
  simp only [hostOps0, hostOps0_1, List.flatten_cons, List.flatten_nil, List.append_nil, List.cons_append, List.nil_append]
  after_results
  rfl

theorem V_main_v6 (c : Dev nD) : V m c main_v6 = weightArr (m ((c : Thread nD τ).loc main_arg2)) := by
  dsimp only [V, V0]
  simp only [hostOps0, hostOps0_1, List.flatten_cons, List.flatten_nil, List.append_nil, List.cons_append, List.nil_append]
  after_results
  rfl

/-! ### Read at an index, at the extended reals -/

/-- The float pattern of one. -/
theorem ofBits_one : Ideal.ofBits .f32 0x3F800000#32 = 1 := by
  simp [Ideal.ofBits, Ideal.ieee, -EReal.coe_mul]; norm_num

/-- The row test of the weight array at `(s, b)`: the word of `s` compared with zero. -/
theorem rowTest_apply (s b : Fin 512) :
    (broadcastInDim S512x512 ![0, 1] bcast_S512x1_S512x512_0_1
      (cmpi .eq
        (broadcastInDim S512x1 ![0] bcast_S512_S512x1_0 (iotaInDim S512 32 0) : (⟨S512x1, .i32⟩ : BufTy).Contents (Elt F))
        (broadcastInDim S512x1 ![] bcast_S_S512x1 (constantI S_ 32 0#32) : (⟨S512x1, .i32⟩ : BufTy).Contents (Elt F))
        : (⟨S512x1, .i1⟩ : BufTy).Contents (Elt F))
      : (⟨S512x512, .i1⟩ : BufTy).Contents (Elt F)) (ix2 s b)
      = IntOp.cmpi .eq (BitVec.ofNat 32 s.val) 0#32 := by
  refine (broadcastInDim_apply _ bcast_S512x1_S512x512_0_1 _ (ix2 s b) (ix2 s (0 : Fin 1)) (fun a => match a with
    | ⟨0, _⟩ => by show s.val = if (512 : Nat) = 1 then 0 else s.val; rw [if_neg (by decide)]
    | ⟨1, _⟩ => by show (0 : Nat) = if (1 : Nat) = 1 then 0 else b.val; rw [if_pos rfl])).trans ?_
  show IntOp.cmpi .eq (broadcastInDim S512x1 ![0] bcast_S512_S512x1_0 (iotaInDim S512 32 0) (ix2 s (0 : Fin 1))) _ = _
  rw [broadcastInDim_apply _ bcast_S512_S512x1_0 (iotaInDim S512 32 0) (ix2 s (0 : Fin 1)) (ix1 s) (fun a => match a with
    | ⟨0, _⟩ => by show s.val = if (512 : Nat) = 1 then 0 else s.val; rw [if_neg (by decide)])]
  rfl

theorem weightArr_apply (x2 : (⟨S512x512, .i32⟩ : BufTy).Contents (Elt Ideal)) (s b : Fin 512) :
    weightArr (F := Ideal) x2 (ix2 s b) = if s.val = 0 then (1 : EReal) else maskF (F := Ideal) x2 (ix2 s b) := by
  unfold weightArr
  rw [select_apply, rowTest_apply (F := Ideal) s b]
  by_cases hs : s.val = 0
  · rw [if_pos hs, (StableHlo.Predicate.cmpi_eq_iff).mpr (by rw [hs]), select_one]
    exact ofBits_one
  · have hne : ¬ IntOp.cmpi .eq (BitVec.ofNat 32 s.val) 0#32 = 1#1 := fun h => hs (by
      have h2 := congrArg BitVec.toNat ((StableHlo.Predicate.cmpi_eq_iff).mp h)
      simp only [BitVec.toNat_ofNat] at h2
      have := s.isLt
      omega)
    rw [if_neg hs, eq_zero_of_ne_one hne, select_zero]

/-- The float mask holds reals: an integer word converts exactly. -/
theorem maskF_real (x2 : (⟨S512x512, .i32⟩ : BufTy).Contents (Elt Ideal)) (i : S512x512.Idx) :
    ∃ r : ℝ, maskF (F := Ideal) x2 i = (r : EReal) := ⟨((x2 i).toInt : ℝ), rfl⟩

/-! ## After the region -/

/-- A tag word wrapped into the table's 128 entries: a negative word is moved up by 128. -/
def norm512 (t : (⟨S512, .i32⟩ : BufTy).Contents (Elt F)) : (⟨S512, .i32⟩ : BufTy).Contents (Elt F) :=
  select
    (cmpi .slt t (broadcastInDim S512 ![] bcast_S_S512 (constantI S_ 32 0#32) : (⟨S512, .i32⟩ : BufTy).Contents (Elt F))
      : (⟨S512, .i1⟩ : BufTy).Contents (Elt F))
    (addi t (broadcastInDim S512 ![] bcast_S_S512 (constantI S_ 32 128#32) : (⟨S512, .i32⟩ : BufTy).Contents (Elt F))
      : (⟨S512, .i32⟩ : BufTy).Contents (Elt F))
    t

/-- The same wrap on a [511, 512] array of tag words. -/
def norm511 (t : (⟨S511x512, .i32⟩ : BufTy).Contents (Elt F)) : (⟨S511x512, .i32⟩ : BufTy).Contents (Elt F) :=
  select
    (cmpi .slt t (broadcastInDim S511x512 ![] bcast_S_S511x512 (constantI S_ 32 0#32) : (⟨S511x512, .i32⟩ : BufTy).Contents (Elt F))
      : (⟨S511x512, .i1⟩ : BufTy).Contents (Elt F))
    (addi t (broadcastInDim S511x512 ![] bcast_S_S511x512 (constantI S_ 32 128#32) : (⟨S511x512, .i32⟩ : BufTy).Contents (Elt F))
      : (⟨S511x512, .i32⟩ : BufTy).Contents (Elt F))
    t

/-- A table of 128 scores gathered at 512 tag words. -/
def gather128 (x : (⟨S128, .f32⟩ : BufTy).Contents (Elt F)) (t : (⟨S512, .i32⟩ : BufTy).Contents (Elt F)) :
    (⟨S512, .f32⟩ : BufTy).Contents (Elt F) :=
  Host.gather gather_S128_S512x1_S512_n_0_n_n_0_1_1 x
    (broadcastInDim S512x1 ![0] bcast_S512_S512x1_0 (norm512 t) : (⟨S512x1, .i32⟩ : BufTy).Contents (Elt F))

/-- The start scores at the first row of tags. -/
def kStart (x1 : (⟨S512x512, .i32⟩ : BufTy).Contents (Elt F)) (x3 : (⟨S128, .f32⟩ : BufTy).Contents (Elt F)) :
    (⟨S512, .f32⟩ : BufTy).Contents (Elt F) :=
  gather128 x3 (shapeCast _ (extractStridedSlice S1x512 ![0, 0] x1 slices_S512x512_S1x512_0_0) shapeCasts_S1x512_S512)

/-- The transition scores at each pair of consecutive tags. -/
def kTrans (x1 : (⟨S512x512, .i32⟩ : BufTy).Contents (Elt F)) (x5 : (⟨S128x128, .f32⟩ : BufTy).Contents (Elt F)) :
    (⟨S511x512, .f32⟩ : BufTy).Contents (Elt F) :=
  Host.gather gather_S128x128_S511x512x2_S511x512_n_01_n_n_01_2_11 x5
    (concatenate S511x512x2 2
      [⟨S511x512x1, (broadcastInDim S511x512x1 ![0, 1] bcast_S511x512_S511x512x1_0_1
          (norm511 (extractStridedSlice S511x512 ![0, 0] x1 slices_S512x512_S511x512_0_0)) : (⟨S511x512x1, .i32⟩ : BufTy).Contents (Elt F))⟩,
       ⟨S511x512x1, (broadcastInDim S511x512x1 ![0, 1] bcast_S511x512_S511x512x1_0_1
          (norm511 (extractStridedSlice S511x512 ![1, 0] x1 slices_S512x512_S511x512_1_0)) : (⟨S511x512x1, .i32⟩ : BufTy).Contents (Elt F))⟩]
      concatenates_S511x512x1_S511x512x1_S511x512x2_d2 : (⟨S511x512x2, .i32⟩ : BufTy).Contents (Elt F))

/-- The masked sum of the transition scores along the sequence, with the float mask given. -/
def kSumOf (x1 : (⟨S512x512, .i32⟩ : BufTy).Contents (Elt F)) (mf : (⟨S512x512, .f32⟩ : BufTy).Contents (Elt F))
    (x5 : (⟨S128x128, .f32⟩ : BufTy).Contents (Elt F)) : (⟨S512, .f32⟩ : BufTy).Contents (Elt F) :=
  Host.reduceAdd
    (mulf (kTrans x1 x5) (extractStridedSlice S511x512 ![1, 0] mf slices_S512x512_S511x512_1_0) : (⟨S511x512, .f32⟩ : BufTy).Contents (Elt F))
    (constant (F := F) S_ .f32 0x00000000#32) reducesTo_S511x512_S512_d0 h_S_

/-- The word sum of each mask column. -/
def kColSum (x2 : (⟨S512x512, .i32⟩ : BufTy).Contents (Elt F)) : (⟨S512, .i32⟩ : BufTy).Contents (Elt F) :=
  Host.reduce IntOp.addi x2 (constantI S_ 32 0#32) reducesTo_S512x512_S512_d0 h_S_

/-- One less than each column sum, as a row. -/
def kIdx (x2 : (⟨S512x512, .i32⟩ : BufTy).Contents (Elt F)) : (⟨S1x512, .i32⟩ : BufTy).Contents (Elt F) :=
  broadcastInDim S1x512 ![1] bcast_S512_S1x512_1
    (subi (kColSum x2) (broadcastInDim S512 ![] bcast_S_S512 (constantI S_ 32 1#32) : (⟨S512, .i32⟩ : BufTy).Contents (Elt F))
      : (⟨S512, .i32⟩ : BufTy).Contents (Elt F))

/-- A row of positions wrapped by the sequence length: a negative word is moved up by 512. -/
def kWrap (ix : (⟨S1x512, .i32⟩ : BufTy).Contents (Elt F)) : (⟨S1x512x1, .i32⟩ : BufTy).Contents (Elt F) :=
  shapeCast _
    (select
      (cmpi .slt ix (broadcastInDim S1x512 ![] bcast_S_S1x512 (constantI S_ 32 0#32) : (⟨S1x512, .i32⟩ : BufTy).Contents (Elt F))
        : (⟨S1x512, .i1⟩ : BufTy).Contents (Elt F))
      (addi ix (broadcastInDim S1x512 ![] bcast_S_S1x512 (constantI S_ 32 512#32) : (⟨S1x512, .i32⟩ : BufTy).Contents (Elt F))
        : (⟨S1x512, .i32⟩ : BufTy).Contents (Elt F))
      ix : (⟨S1x512, .i32⟩ : BufTy).Contents (Elt F))
    shapeCasts_S1x512_S1x512x1

/-- The tags taken along the sequence axis at a row of positions, the most negative word where a position is out of range. -/
def kTake (x1 : (⟨S512x512, .i32⟩ : BufTy).Contents (Elt F)) (ix : (⟨S1x512, .i32⟩ : BufTy).Contents (Elt F)) :
    (⟨S1x512, .i32⟩ : BufTy).Contents (Elt F) :=
  select
    (Host.reduce IntOp.andi
      (andi
        (cmpi .sge (kWrap ix) (broadcastInDim S1x512x1 ![] bcast_S_S1x512x1 (constantI S_ 32 0#32) : (⟨S1x512x1, .i32⟩ : BufTy).Contents (Elt F))
          : (⟨S1x512x1, .i1⟩ : BufTy).Contents (Elt F))
        (cmpi .sle (kWrap ix)
          (broadcastInDim S1x512x1 ![0, 1, 2] bcast_S1x1x1_S1x512x1_0_1_2
            (broadcastInDim S1x1x1 ![2] bcast_S1_S1x1x1_2 (constantI S1 32 511#32) : (⟨S1x1x1, .i32⟩ : BufTy).Contents (Elt F))
            : (⟨S1x512x1, .i32⟩ : BufTy).Contents (Elt F))
          : (⟨S1x512x1, .i1⟩ : BufTy).Contents (Elt F))
        : (⟨S1x512x1, .i1⟩ : BufTy).Contents (Elt F))
      (constantI S_ 1 1#1) reducesTo_S1x512x1_S1x512_d2 h_S_ : (⟨S1x512, .i1⟩ : BufTy).Contents (Elt F))
    (Host.gather gather_S512x512_S1x512x1_S1x512_n_0_1_1_0_2_11 x1 (kWrap ix) : (⟨S1x512, .i32⟩ : BufTy).Contents (Elt F))
    (broadcastInDim S1x512 ![] bcast_S_S1x512 (constantI S_ 32 2147483648#32) : (⟨S1x512, .i32⟩ : BufTy).Contents (Elt F))

/-- The tag at each column's last set position. -/
def kLast (x1 x2 : (⟨S512x512, .i32⟩ : BufTy).Contents (Elt F)) : (⟨S512, .i32⟩ : BufTy).Contents (Elt F) :=
  shapeCast _ (kTake x1 (kIdx x2)) shapeCasts_S1x512_S512

/-- The end scores at a vector of last tags. -/
def kEnd (lt : (⟨S512, .i32⟩ : BufTy).Contents (Elt F)) (x4 : (⟨S128, .f32⟩ : BufTy).Contents (Elt F)) :
    (⟨S512, .f32⟩ : BufTy).Contents (Elt F) :=
  gather128 x4 lt

/-- What the later operations leave in the result vector, from the region's result row and the arguments. -/
def ktail (r7 : (⟨S1x512, .f32⟩ : BufTy).Contents (Elt F)) (x1 x2 : (⟨S512x512, .i32⟩ : BufTy).Contents (Elt F))
    (x3 x4 : (⟨S128, .f32⟩ : BufTy).Contents (Elt F)) (x5 : (⟨S128x128, .f32⟩ : BufTy).Contents (Elt F)) :
    (⟨S512, .f32⟩ : BufTy).Contents (Elt F) :=
  addf
    (addf
      (addf (shapeCast _ r7 shapeCasts_S1x512_S512 : (⟨S512, .f32⟩ : BufTy).Contents (Elt F)) (kStart x1 x3)
        : (⟨S512, .f32⟩ : BufTy).Contents (Elt F))
      (Host.reduceAdd
        (mulf (kTrans x1 x5) (extractStridedSlice S511x512 ![1, 0] (maskF x2) slices_S512x512_S511x512_1_0)
          : (⟨S511x512, .f32⟩ : BufTy).Contents (Elt F))
        (constant (F := F) S_ .f32 0x00000000#32) reducesTo_S511x512_S512_d0 h_S_)
      : (⟨S512, .f32⟩ : BufTy).Contents (Elt F))
    (kEnd (kLast x1 x2) x4)

/-! ### The later operations stretch by stretch, from any contents `W` -/

section Stages
variable (W : Valuation τ sig (Elt F))

theorem ops1_v8 : StableHlo.after hostOps1 W (Proc.devRef .tc main_v8)
    = (shapeCast _ (W (Proc.devRef .tc main_v7)) shapeCasts_S1x512_S512 : (⟨S512, .f32⟩ : BufTy).Contents (Elt F)) := by
  dsimp only [hostOps1]
  after_results_simp
  rfl

theorem ops1_v17 : StableHlo.after hostOps1 W (Proc.devRef .tc main_v17)
    = kStart (W (Proc.devRef .tc main_arg1)) (W (Proc.devRef .tc main_arg3)) := by
  dsimp only [hostOps1]
  after_results_simp
  rfl

set_option maxHeartbeats 1000000 in
theorem ops1_v36 : StableHlo.after hostOps1 W (Proc.devRef .tc main_v36)
    = kSumOf (W (Proc.devRef .tc main_arg1)) (W (Proc.devRef .tc main_v0)) (W (Proc.devRef .tc main_arg5)) := by
  dsimp only [hostOps1]
  after_results_simp
  rfl

theorem ops1_v40 : StableHlo.after hostOps1 W (Proc.devRef .tc main_v40) = kIdx (W (Proc.devRef .tc main_arg2)) := by
  dsimp only [hostOps1]
  after_results_simp
  rfl

theorem ops1_arg1 : StableHlo.after hostOps1 W (Proc.devRef .tc main_arg1) = W (Proc.devRef .tc main_arg1) := by
  dsimp only [hostOps1]
  after_results_simp

theorem ops1_arg4 : StableHlo.after hostOps1 W (Proc.devRef .tc main_arg4) = W (Proc.devRef .tc main_arg4) := by
  dsimp only [hostOps1]
  after_results_simp

set_option maxHeartbeats 1000000 in
theorem ops11_v41 : StableHlo.after hostOps1_1 W (Proc.devRef .tc main_v41)
    = kTake (W (Proc.devRef .tc main_arg1)) (W (Proc.devRef .tc main_v40)) := by
  dsimp only [hostOps1_1]
  after_results_simp
  rfl

theorem ops11_v8 : StableHlo.after hostOps1_1 W (Proc.devRef .tc main_v8) = W (Proc.devRef .tc main_v8) := by
  dsimp only [hostOps1_1]
  after_results_simp

theorem ops11_v17 : StableHlo.after hostOps1_1 W (Proc.devRef .tc main_v17) = W (Proc.devRef .tc main_v17) := by
  dsimp only [hostOps1_1]
  after_results_simp

theorem ops11_v36 : StableHlo.after hostOps1_1 W (Proc.devRef .tc main_v36) = W (Proc.devRef .tc main_v36) := by
  dsimp only [hostOps1_1]
  after_results_simp

theorem ops11_arg4 : StableHlo.after hostOps1_1 W (Proc.devRef .tc main_arg4) = W (Proc.devRef .tc main_arg4) := by
  dsimp only [hostOps1_1]
  after_results_simp

set_option maxHeartbeats 1000000 in
theorem ops12_v52 : StableHlo.after hostOps1_2 W (Proc.devRef .tc main_v52)
    = (addf
        (addf
          (addf (W (Proc.devRef .tc main_v8) : (⟨S512, .f32⟩ : BufTy).Contents (Elt F)) (W (Proc.devRef .tc main_v17))
            : (⟨S512, .f32⟩ : BufTy).Contents (Elt F))
          (W (Proc.devRef .tc main_v36)) : (⟨S512, .f32⟩ : BufTy).Contents (Elt F))
        (kEnd (shapeCast _ (W (Proc.devRef .tc main_v41)) shapeCasts_S1x512_S512) (W (Proc.devRef .tc main_arg4)))
        : (⟨S512, .f32⟩ : BufTy).Contents (Elt F)) := by
  dsimp only [hostOps1_2]
  after_results_simp
  rfl

/-- The seventy-seven operations' result from any contents: a function of the contents at the region's result row,
    the float mask and the five arguments read. -/
theorem tail_after : StableHlo.after (List.flatten (sfx : List (List (HloOp τ sig (Elt F))))) W (Proc.devRef .tc main_v52)
    = (addf
        (addf
          (addf (shapeCast _ (W (Proc.devRef .tc main_v7)) shapeCasts_S1x512_S512 : (⟨S512, .f32⟩ : BufTy).Contents (Elt F))
            (kStart (W (Proc.devRef .tc main_arg1)) (W (Proc.devRef .tc main_arg3))) : (⟨S512, .f32⟩ : BufTy).Contents (Elt F))
          (kSumOf (W (Proc.devRef .tc main_arg1)) (W (Proc.devRef .tc main_v0)) (W (Proc.devRef .tc main_arg5)))
          : (⟨S512, .f32⟩ : BufTy).Contents (Elt F))
        (kEnd (shapeCast _ (kTake (W (Proc.devRef .tc main_arg1)) (kIdx (W (Proc.devRef .tc main_arg2)))) shapeCasts_S1x512_S512)
          (W (Proc.devRef .tc main_arg4)))
        : (⟨S512, .f32⟩ : BufTy).Contents (Elt F)) := by
  simp only [sfx, List.flatten_cons, List.flatten_nil, List.append_nil]
  rw [StableHlo.after_append, StableHlo.after_append, ops12_v52, ops11_v8, ops11_v17, ops11_v36, ops11_v41, ops11_arg4,
    ops1_v8, ops1_v17, ops1_v36, ops1_v40, ops1_arg1, ops1_arg4]

end Stages

/-- The tail's result vector: the later operations read the region's result row, the float mask the earlier
    operations left, and the arguments as launched. -/
theorem tail_v52 (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) sfx c main_v52
      = ktail ((dats 0 c).arrAt 3 cfg0.N) (m ((c : Thread nD τ).loc main_arg1)) (m ((c : Thread nD τ).loc main_arg2))
          (m ((c : Thread nD τ).loc main_arg3)) (m ((c : Thread nD τ).loc main_arg4)) (m ((c : Thread nD τ).loc main_arg5)) := by
  unfold Pipeline.afterTail₀
  rw [tail_after]
  have h7 : Pipeline.withArrays (cfgs 0).spec c (V0 m c) (fun w => (dats 0 c).arrAt w (cfgs 0).N) (Proc.devRef .tc main_v7)
      = (dats 0 c).arrAt 3 cfg0.N := Pipeline.withArrays_arr spec0 launch0.win.arr_inj c _ _ 3
  have h1 : Pipeline.withArrays (cfgs 0).spec c (V0 m c) (fun w => (dats 0 c).arrAt w (cfgs 0).N) (Proc.devRef .tc main_arg1)
      = m ((c : Thread nD τ).loc main_arg1) :=
    (Pipeline.withArrays_arr spec0 launch0.win.arr_inj c _ _ 1).trans
      (((dats 0 c).arrAt_in 1 rfl _).trans ((hA c 1).trans (V_main_arg1 m c)))
  have h2 : Pipeline.withArrays (cfgs 0).spec c (V0 m c) (fun w => (dats 0 c).arrAt w (cfgs 0).N) (Proc.devRef .tc main_arg2)
      = m ((c : Thread nD τ).loc main_arg2) :=
    (Pipeline.withArrays_of_ne _ c (V0 m c) _ main_arg2 (fun w => by fin_cases w <;> decide)).trans (V_main_arg2 m c)
  have h3 : Pipeline.withArrays (cfgs 0).spec c (V0 m c) (fun w => (dats 0 c).arrAt w (cfgs 0).N) (Proc.devRef .tc main_arg3)
      = m ((c : Thread nD τ).loc main_arg3) :=
    (Pipeline.withArrays_of_ne _ c (V0 m c) _ main_arg3 (fun w => by fin_cases w <;> decide)).trans (V_main_arg3 m c)
  have h4 : Pipeline.withArrays (cfgs 0).spec c (V0 m c) (fun w => (dats 0 c).arrAt w (cfgs 0).N) (Proc.devRef .tc main_arg4)
      = m ((c : Thread nD τ).loc main_arg4) :=
    (Pipeline.withArrays_of_ne _ c (V0 m c) _ main_arg4 (fun w => by fin_cases w <;> decide)).trans (V_main_arg4 m c)
  have h5 : Pipeline.withArrays (cfgs 0).spec c (V0 m c) (fun w => (dats 0 c).arrAt w (cfgs 0).N) (Proc.devRef .tc main_arg5)
      = m ((c : Thread nD τ).loc main_arg5) :=
    (Pipeline.withArrays_of_ne _ c (V0 m c) _ main_arg5 (fun w => by fin_cases w <;> decide)).trans (V_main_arg5 m c)
  have h0 : Pipeline.withArrays (cfgs 0).spec c (V0 m c) (fun w => (dats 0 c).arrAt w (cfgs 0).N) (Proc.devRef .tc main_v0)
      = maskF (m ((c : Thread nD τ).loc main_arg2)) :=
    (Pipeline.withArrays_of_ne _ c (V0 m c) _ main_v0 (fun w => by fin_cases w <;> decide)).trans (V_main_v0 m c)
  rw [h7, h1, h2, h3, h4, h5, h0]
  rfl

/-! ### The result vector read at a column, at the extended reals -/

/-- The host's float sum along the sequence axis, read at a column: the initial value plus the column's sum. -/
theorem reduce511_apply (y : (⟨S511x512, .f32⟩ : BufTy).Contents (Elt Ideal)) (b : Fin 512) :
    Host.reduceAdd y (constant (F := Ideal) S_ .f32 0x00000000#32) reducesTo_S511x512_S512_d0 h_S_ (ix1 b)
      = Ideal.ofBits .f32 0x00000000#32 + ∑ k : Fin 511, y (ix2 k b) := by
  simp only [Host.reduceAdd, Ideal.hostReduceAdd_def]
  rw [Ideal.hostReduceAdd_single reducesTo_S511x512_S512_d0 (by decide)]
  refine congrArg₂ (· + ·) rfl (Finset.sum_congr rfl fun k _ => ?_)
  exact congrArg y (funext fun a => Fin.ext (by match a with | ⟨0, _⟩ => rfl | ⟨1, _⟩ => rfl))

theorem ktail_apply (r7 : (⟨S1x512, .f32⟩ : BufTy).Contents (Elt Ideal)) (x1 x2 : (⟨S512x512, .i32⟩ : BufTy).Contents (Elt Ideal))
    (x3 x4 : (⟨S128, .f32⟩ : BufTy).Contents (Elt Ideal)) (x5 : (⟨S128x128, .f32⟩ : BufTy).Contents (Elt Ideal)) (b : Fin 512) :
    ktail (F := Ideal) r7 x1 x2 x3 x4 x5 (ix1 b)
      = ((r7 (ix2 (0 : Fin 1) b) + kStart x1 x3 (ix1 b))
          + (Ideal.ofBits .f32 0x00000000#32
              + ∑ k : Fin 511, kTrans x1 x5 (ix2 k b) * maskF x2 (ix2 (⟨k.val + 1, Nat.succ_lt_succ k.isLt⟩ : Fin 512) b)))
        + kEnd (kLast x1 x2) x4 (ix1 b) := by
  unfold ktail
  rw [addf_apply, addf_apply, addf_apply, reduce511_apply, shapeCast_1a_a_apply]
  refine congrArg₂ (· + ·) (congrArg₂ (· + ·) rfl (congrArg₂ (· + ·) rfl (Finset.sum_congr rfl fun k _ => ?_))) rfl
  rw [mulf_apply]
  refine congrArg₂ (· * ·) rfl ?_
  exact extractStridedSlice_apply ![1, 0] (maskF x2) slices_S512x512_S511x512_1_0 (ix2 k b)
    (ix2 (⟨k.val + 1, Nat.succ_lt_succ k.isLt⟩ : Fin 512) b) (fun a => match a with
      | ⟨0, _⟩ => by show k.val + 1 = 1 + k.val; omega
      | ⟨1, _⟩ => by show b.val = 0 + b.val; omega)

/-! ### The last tag of a column -/

/-- One less than a count, a negative word moved up by 512: the position word the gather along the sequence reads at. -/
def wrapWord (cnt : BitVec 32) : BitVec 32 :=
  Scalar.select (IntOp.cmpi .slt (IntOp.subi cnt 1#32) 0#32) (IntOp.addi (IntOp.subi cnt 1#32) 512#32) (IntOp.subi cnt 1#32)

/-- For a count of at most 512 the position word is the last row: `n - 1` for `n ≥ 1`, and 511 for an empty column. -/
theorem wrapWord_toNat (cnt : BitVec 32) (h : cnt.toNat ≤ 512) : (wrapWord cnt).toNat = (Cert.Spec.lastRow cnt).val := by
  unfold wrapWord
  by_cases h0 : cnt.toNat = 0
  · have hc : cnt = 0#32 := BitVec.eq_of_toNat_eq (by simpa using h0)
    subst hc
    decide
  · have hw : (IntOp.subi cnt 1#32).toNat = cnt.toNat - 1 := by
      unfold IntOp.subi; rw [BitVec.toNat_sub]; simp only [BitVec.toNat_ofNat]; omega
    have hns : ¬ IntOp.cmpi .slt (IntOp.subi cnt 1#32) 0#32 = 1#1 := by
      rw [StableHlo.Predicate.slt_iff_toNat (by omega) (by decide)]
      simp
    rw [eq_zero_of_ne_one hns, select_zero, hw]
    unfold Cert.Spec.lastRow
    rw [dif_pos ⟨by omega, h⟩]

theorem wrapWord_range (cnt : BitVec 32) (h : cnt.toNat ≤ 512) : 0 ≤ (wrapWord cnt).toInt ∧ (wrapWord cnt).toInt < 512 := by
  have h2 : (wrapWord cnt).toNat < 512 := by rw [wrapWord_toNat cnt h]; exact (Cert.Spec.lastRow cnt).isLt
  rw [StableHlo.Predicate.toInt_eq_toNat_of_lt (by omega)]
  omega

/-- The row of positions at column `b`: one less than the column's sum. -/
theorem kIdx_apply (x2 : (⟨S512x512, .i32⟩ : BufTy).Contents (Elt F)) (b : Fin 512) :
    kIdx x2 (ix2 (0 : Fin 1) b) = IntOp.subi (kColSum x2 (ix1 b)) 1#32 := by
  unfold kIdx
  refine (broadcastInDim_apply _ bcast_S512_S1x512_1 _ (ix2 (0 : Fin 1) b) (ix1 b) (fun a => match a with
    | ⟨0, _⟩ => by show b.val = if (512 : Nat) = 1 then 0 else b.val; rw [if_neg (by decide)])).trans ?_
  rfl

/-- The wrapped positions at column `b`. -/
theorem kWrap_apply (ix : (⟨S1x512, .i32⟩ : BufTy).Contents (Elt F)) (b : Fin 512) :
    kWrap ix (ix3 (0 : Fin 1) b (0 : Fin 1))
      = Scalar.select (IntOp.cmpi .slt (ix (ix2 (0 : Fin 1) b)) 0#32) (IntOp.addi (ix (ix2 (0 : Fin 1) b)) 512#32) (ix (ix2 (0 : Fin 1) b)) := by
  unfold kWrap
  refine (shapeCast_apply _ shapeCasts_S1x512_S1x512x1 (ix3 (0 : Fin 1) b (0 : Fin 1)) (ix2 (0 : Fin 1) b) ?_).trans rfl
  rw [Shape.rowMajor_val_two, Shape.rowMajor_val_three]
  show 0 * 512 + b.val = (0 * 512 + b.val) * 1 + 0
  omega

/-- A fold over the one index of a unit axis is one application. -/
theorem fold_fin1 (f : BitVec 1 → BitVec 1 → BitVec 1) [Std.Commutative f] [Std.Associative f] (i : BitVec 1) (g : Fin 1 → BitVec 1) :
    (Finset.univ : Finset (Fin 1)).fold f i g = f (g 0) i := by
  rw [Finset.univ_unique, Finset.fold_singleton]; rfl

/-- The conjunction over the unit axis of the in-range tests: one where the test holds. -/
theorem inRange_apply (y : (⟨S1x512x1, .i1⟩ : BufTy).Contents (Elt F)) (b : Fin 512) (hy : y (ix3 (0 : Fin 1) b (0 : Fin 1)) = 1#1) :
    Host.reduce IntOp.andi y (constantI S_ 1 1#1) reducesTo_S1x512x1_S1x512_d2 h_S_ (ix2 (0 : Fin 1) b) = 1#1 := by
  have hR : S1x512x1.Reduces [2] S1x512 := by decide
  rw [Host.reduce_eq_fold_single IntOp.andi y _ reducesTo_S1x512x1_S1x512_d2 hR h_S_ (ix2 (0 : Fin 1) b)]
  have hl : hR.lift (ix2 (0 : Fin 1) b) (0 : Fin 1) = ix3 (0 : Fin 1) b (0 : Fin 1) :=
    funext fun a => Fin.ext (by match a with | ⟨0, _⟩ => rfl | ⟨1, _⟩ => rfl | ⟨2, _⟩ => rfl)
  refine (fold_fin1 IntOp.andi 1#1 (y ∘ hR.lift (ix2 (0 : Fin 1) b))).trans ?_
  show IntOp.andi (y (hR.lift (ix2 (0 : Fin 1) b) (0 : Fin 1))) 1#1 = 1#1
  rw [hl, hy]
  rfl

/-- The gather along the sequence axis with its in-range guard, at column `b`, when the position word there is the
    wrapped word of a count of at most 512: the tag at the count's last row. -/
theorem take_last (x1 : (⟨S512x512, .i32⟩ : BufTy).Contents (Elt F)) (idx : (⟨S1x512x1, .i32⟩ : BufTy).Contents (Elt F)) (b : Fin 512)
    (cnt : BitVec 32) (hcnt : cnt.toNat ≤ 512) (hk : idx (ix3 (0 : Fin 1) b (0 : Fin 1)) = wrapWord cnt) :
    (select
      (Host.reduce IntOp.andi
        (andi
          (cmpi .sge idx (broadcastInDim S1x512x1 ![] bcast_S_S1x512x1 (constantI S_ 32 0#32) : (⟨S1x512x1, .i32⟩ : BufTy).Contents (Elt F))
            : (⟨S1x512x1, .i1⟩ : BufTy).Contents (Elt F))
          (cmpi .sle idx
            (broadcastInDim S1x512x1 ![0, 1, 2] bcast_S1x1x1_S1x512x1_0_1_2
              (broadcastInDim S1x1x1 ![2] bcast_S1_S1x1x1_2 (constantI S1 32 511#32) : (⟨S1x1x1, .i32⟩ : BufTy).Contents (Elt F))
              : (⟨S1x512x1, .i32⟩ : BufTy).Contents (Elt F))
            : (⟨S1x512x1, .i1⟩ : BufTy).Contents (Elt F))
          : (⟨S1x512x1, .i1⟩ : BufTy).Contents (Elt F))
        (constantI S_ 1 1#1) reducesTo_S1x512x1_S1x512_d2 h_S_ : (⟨S1x512, .i1⟩ : BufTy).Contents (Elt F))
      (Host.gather gather_S512x512_S1x512x1_S1x512_n_0_1_1_0_2_11 x1 idx : (⟨S1x512, .i32⟩ : BufTy).Contents (Elt F))
      (broadcastInDim S1x512 ![] bcast_S_S1x512 (constantI S_ 32 2147483648#32) : (⟨S1x512, .i32⟩ : BufTy).Contents (Elt F))
      : (⟨S1x512, .i32⟩ : BufTy).Contents (Elt F)) (ix2 (0 : Fin 1) b)
      = x1 (ix2 (Cert.Spec.lastRow cnt) b) := by
  have hr := wrapWord_range cnt hcnt
  have hn : (wrapWord cnt).toNat < 512 := by rw [wrapWord_toNat cnt hcnt]; exact (Cert.Spec.lastRow cnt).isLt
  rw [select_apply]
  rw [inRange_apply (F := F) _ b (by
    show IntOp.andi (IntOp.cmpi .sge (idx (ix3 (0 : Fin 1) b (0 : Fin 1))) 0#32)
      (IntOp.cmpi .sle (idx (ix3 (0 : Fin 1) b (0 : Fin 1))) 511#32) = 1#1
    rw [hk, (StableHlo.Predicate.sge_iff_toNat (by omega) (by decide)).mpr (Nat.zero_le _),
      (StableHlo.Predicate.sle_iff_toNat (by omega) (by decide)).mpr (by show _ ≤ 511; omega)]
    rfl), select_one]
  rw [Cert.Gathers.g2 x1 idx b (by rw [hk]; exact hr)]
  exact congrArg (fun r => x1 (ix2 r b)) (Fin.ext ((congrArg BitVec.toNat hk).trans (wrapWord_toNat cnt hcnt)))

theorem kLast_apply (x1 x2 : (⟨S512x512, .i32⟩ : BufTy).Contents (Elt Ideal)) (b : Fin 512)
    (hm : ∀ i, x2 i = 0#32 ∨ x2 i = 1#32) (hcnt : (kColSum (F := Ideal) x2 (ix1 b)).toNat ≤ 512) :
    kLast (F := Ideal) x1 x2 (ix1 b) = x1 (ix2 (Cert.Spec.lastRow (kColSum (F := Ideal) x2 (ix1 b))) b) := by
  have hk : kWrap (F := Ideal) (kIdx x2) (ix3 (0 : Fin 1) b (0 : Fin 1)) = wrapWord (kColSum (F := Ideal) x2 (ix1 b)) := by
    rw [kWrap_apply, kIdx_apply]; rfl
  unfold kLast
  rw [shapeCast_1a_a_apply]
  unfold kTake
  exact take_last (F := Ideal) x1 (kWrap (F := Ideal) (kIdx x2)) b (kColSum (F := Ideal) x2 (ix1 b)) hcnt hk

end Cert.KernelIdeal.HandValue

end
-- ==== Proof.KI.Run.lean ====
/-
  The run of @main with its result: the frame run's post read at the result array and at the six arguments.
  The result array is written by the operations after the region only, so the post's second clause gives it as those
  operations leave it, which is the tail function of the region's output array and the arguments.
-/
import proofs.«410888_j47141561041240_3_alg».proof.Proof.KI.Frame
import proofs.«410888_j47141561041240_3_alg».proof.Proof.KI.HostValue

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- From any launch contents with zero counters, every weakly fair execution of @main on the TensorCores terminates
    with the result array at the tail function of the region's output array and the arguments, and the six argument
    arrays as launched. -/
theorem run : θ_run defs (onTc (τ := τ) (main (F := F))) ⟨m, fun _ => 0, ρ⟩ (fun r => ∀ c : Dev nD,
      r.2.mem ((c.tc : Thread nD τ).loc main_v52) = ktail ((dats m 0 c).arrAt 3 cfg0.N) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) ∧ r.2.mem ((c.tc : Thread nD τ).loc main_arg5) = m ((c.tc : Thread nD τ).loc main_arg5)) :=
  (θ_run defs _ _).mono (fun _ h c =>
    ⟨((h c).2 main_v52 (Pipeline.mem_restRefs_of main_v52 (by decide) (by decide))).trans (tail_v52 m (dats m) (A_eq m) c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 (by decide) (by decide))).trans (tail_arg2 m (dats m) c),
     ((h c).2 main_arg3 (Pipeline.mem_restRefs_of main_arg3 (by decide) (by decide))).trans (tail_arg3 m (dats m) c),
     ((h c).2 main_arg4 (Pipeline.mem_restRefs_of main_arg4 (by decide) (by decide))).trans (tail_arg4 m (dats m) c),
     ((h c).2 main_arg5 (Pipeline.mem_restRefs_of main_arg5 (by decide) (by decide))).trans (tail_arg5 m (dats m) c)⟩) (run_main m ρ)

end Cert.KernelIdeal.HandValue

end
-- ==== Proof.KI.Payload.lean ====
/-
  The body's two payloads read at one entry, at the exact (extended-real) float instance.

  The partial row: the tags block [64,128] is compared lane by lane with the lane numbers 0..127, which gives a
  one-hot vector per (row, column); it is multiplied with the emissions block [64,128,128] and summed over the lanes,
  multiplied with the weight block, and summed over the 64 rows. So entry (0, q) of the partial row is
  Σ_r (Σ_t onehot(tag[r,q], t) · emis[r,q,t]) · weight[r,q]. The accumulated row adds what the output buffer held.
  A tag in [0, 128) selects exactly one lane: the lane sum of a one-hot row times f is f at the tag.
-/
import proofs.«410888_j47141561041240_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.HandValue

open Cert.KernelIdeal Cert.KernelIdeal.Gen
open Idealize.ShloMosaic Idealize.ShloMosaic.ValueIdx
open scoped BigOperators

/-- The one-hot entry: the comparison of a tag word with lane t, widened and converted to a float. -/
def onehot (w : BitVec 32) (t : Fin 128) : EReal :=
  FloatOps.sitofp (F := Ideal) .f32 ((IntOp.cmpi .eq w (BitVec.ofNat 32 t.val)).setWidth 32)

/-- It is 1 on the lane the tag names and 0 elsewhere. -/
theorem onehot_eq (w : BitVec 32) (t : Fin 128) : onehot w t = if w = BitVec.ofNat 32 t.val then 1 else 0 := by
  have h1 : ((BitVec.ofBool true).setWidth 32).toInt = 1 := by decide
  have h0 : ((BitVec.ofBool false).setWidth 32).toInt = 0 := by decide
  unfold onehot IntOp.cmpi
  by_cases h : w = BitVec.ofNat 32 t.val
  · rw [if_pos h]
    subst h
    show (((( (BitVec.ofBool (BitVec.ofNat 32 t.val == BitVec.ofNat 32 t.val)).setWidth 32).toInt : ℝ)) : EReal) = 1
    rw [beq_self_eq_true, h1]
    norm_num
  · rw [if_neg h]
    have hb : (w == BitVec.ofNat 32 t.val) = false := by simpa using h
    show (((( (BitVec.ofBool (w == BitVec.ofNat 32 t.val)).setWidth 32).toInt : ℝ)) : EReal) = 0
    rw [hb, h0]
    norm_num

/-- The lane sum of the one-hot times the emissions block, at row r and column q. -/
theorem lane_apply (v0 : Vec Ideal S64x128 .i32) (v3 : Vec Ideal S64x128x128 .f32) (r : Fin 64) (q : Fin 128)
    (hacc : (0x00000000#32 : BitVec 32) = 0x00000000#32) :
    multiReduction (F := Ideal) .add [2] S64x128
      (mulf (sitofp .f32 (extui 32 (cmpi .eq (broadcastTo S64x128x128 (shapeCast S64x128x1 v0 shapeCasts_S64x128_S64x128x1) broadcasts_S64x128x1_S64x128x128)
        (iota .tc S64x128x128 32 [2] iota_S64x128x128_d2_w32)) natLt_1_32)) v3)
      0x00000000#32 reduces_S64x128x128_S64x128 (.inl rfl) hacc (ix2 r q)
      = ∑ t : Fin 128, onehot (v0 (ix2 r q)) t * v3 (ix3 r q t) := by
  refine (Ideal.multiReduction_add_single _ _ reduces_S64x128x128_S64x128 _ _ (ix2 r q)).trans ?_
  refine Finset.sum_congr rfl fun t _ => ?_
  have hl : reduces_S64x128x128_S64x128.lift (ix2 r q) t = ix3 r q t :=
    funext fun a => Fin.ext (match a with | ⟨0, _⟩ => rfl | ⟨1, _⟩ => rfl | ⟨2, _⟩ => rfl)
  have hb : broadcastTo S64x128x128 (shapeCast S64x128x1 v0 shapeCasts_S64x128_S64x128x1) broadcasts_S64x128x1_S64x128x128 (ix3 r q t)
      = v0 (ix2 r q) :=
    (broadcastTo_apply _ _ (ix3 r q t) (ix3 r q (0 : Fin 1))
      (fun a => match a with | ⟨0, _⟩ => rfl | ⟨1, _⟩ => rfl | ⟨2, _⟩ => rfl)).trans
    (shapeCast_apply _ _ (ix3 r q (0 : Fin 1)) (ix2 r q) (by
      rw [Shape.rowMajor_val_two, Shape.rowMajor_val_three]
      show r.val * 128 + q.val = (r.val * 128 + q.val) * 1 + 0
      omega))
  have hi : iota .tc S64x128x128 32 [2] iota_S64x128x128_d2_w32 (ix3 r q t) = BitVec.ofNat 32 t.val :=
    iota_single_apply .tc S64x128x128 32 2 iota_S64x128x128_d2_w32 (ix3 r q t)
  rw [hl]
  show FloatOps.sitofp (F := Ideal) .f32 ((IntOp.cmpi .eq
      (broadcastTo S64x128x128 (shapeCast S64x128x1 v0 shapeCasts_S64x128_S64x128x1) broadcasts_S64x128x1_S64x128x128 (ix3 r q t))
      (iota .tc S64x128x128 32 [2] iota_S64x128x128_d2_w32 (ix3 r q t))).setWidth 32) * v3 (ix3 r q t) = _
  rw [hb, hi]
  rfl

/-- The partial row at column q: over the 64 rows of the block, the lane sum of the one-hot times the emissions, times the weight. -/
theorem pay1_apply (v0 : Vec Ideal S64x128 .i32) (v1 : Vec Ideal S64x128 .f32) (v3 : Vec Ideal S64x128x128 .f32) (q : Fin 128) :
    k0_pay1 (F := Ideal) v0 v1 v3 (ix2 0 q)
      = ∑ r : Fin 64, (∑ t : Fin 128, onehot (v0 (ix2 r q)) t * v3 (ix3 r q t)) * v1 (ix2 r q) := by
  unfold k0_pay1
  dsimp only
  refine (transpose_ix2_apply _ transposes_S128x1_p1_0_S1x128 (0 : Fin 1) q).trans ?_
  refine (shapeCast_apply _ shapeCasts_S128_S128x1 (ix2 q (0 : Fin 1)) (ix1 q) (by
    rw [Shape.rowMajor_val_one, Shape.rowMajor_val_two]
    show q.val = q.val * 1 + 0
    omega)).trans ?_
  refine (Ideal.multiReduction_add_single _ _ reduces_S128x64_S128 _ _ (ix1 q)).trans ?_
  refine Finset.sum_congr rfl fun r _ => ?_
  have hl : reduces_S128x64_S128.lift (ix1 q) r = ix2 q r :=
    funext fun a => Fin.ext (match a with | ⟨0, _⟩ => rfl | ⟨1, _⟩ => rfl)
  rw [hl]
  refine (transpose_ix2_apply _ transposes_S64x128_p1_0_S128x64 q r).trans ?_
  exact congrArg₂ (· * ·) (lane_apply v0 v3 r q rfl) (congrFun (shapeCast_self v1 shapeCasts_S64x128_S64x128) (ix2 r q))

/-- The accumulated row: what the output buffer held plus the partial row. -/
theorem pay2_apply (v0 : Vec Ideal S64x128 .i32) (v1 : Vec Ideal S64x128 .f32) (v3 : Vec Ideal S64x128x128 .f32)
    (v23 : Vec Ideal S1x128 .f32) (q : Fin 128) :
    k0_pay2 (F := Ideal) v0 v1 v3 v23 (ix2 0 q) = v23 (ix2 0 q) + k0_pay1 (F := Ideal) v0 v1 v3 (ix2 0 q) := by
  unfold k0_pay2
  rw [shapeCast_self]
  rfl

/-- A tag word whose signed value lies in [0, 128) is a lane number. -/
theorem tag_lt (w : BitVec 32) (hw : 0 ≤ w.toInt ∧ w.toInt < 128) : w.toNat < 128 := by
  obtain ⟨h1, h2⟩ := hw
  have hlt := w.isLt
  rw [BitVec.toInt_eq_toNat_cond] at h1 h2
  split_ifs at h1 h2 <;> omega

/-- A tag in range selects exactly its own lane. -/
theorem onehot_sum (w : BitVec 32) (hw : 0 ≤ w.toInt ∧ w.toInt < 128) (f : Fin 128 → EReal) :
    ∑ t : Fin 128, onehot w t * f t = f ⟨w.toNat, tag_lt w hw⟩ := by
  rw [Finset.sum_eq_single (⟨w.toNat, tag_lt w hw⟩ : Fin 128)]
  · rw [onehot_eq, if_pos (by simp), one_mul]
  · intro t _ ht
    rw [onehot_eq, if_neg, zero_mul]
    intro h
    apply ht
    apply Fin.ext
    subst h
    have := t.isLt
    simp only [BitVec.toNat_ofNat]
    omega
  · intro h
    exact absurd (Finset.mem_univ _) h

end Cert.KernelIdeal.HandValue

end
-- ==== Proof.KI.Region.lean ====
/-
  The value of the kernel region, at the exact (extended-real) float instance.

  The output array f32[1,512] is cut into four blocks of 128 columns, one per batch block. The block of a batch
  block is an accumulator over that batch block's eight sequence blocks: its first point stores its partial row, each
  later point adds its partial row to what the point before left, and the block is written back after the eighth. A
  partial row's column q is, over the 64 rows of the point's sequence block, the emission the row's tag selects times
  the row's weight. So after the eighth point column q of the block holds the eight partial rows added in point order,
  and since addition of extended reals is commutative and associative that is the sum over all 512 sequence
  positions: entry b of the result is Σ_s (Σ_t onehot(tag[s,b], t) · emis[s,b,t]) · weight[s,b].
-/
import proofs.«410888_j47141561041240_3_alg».proof.Proof.KI.Payload
import proofs.«410888_j47141561041240_3_alg».proof.Proof.KI.Frame
import Idealize.ShloMosaic.Lib.Pipeline.Value
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat)
open scoped BigOperators

/-! ## What each case leaves, as the payloads -/

section AnyInstance
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At the first point of a batch block the output's buffer is left holding the partial row of the point's blocks. -/
theorem out_A (c : Dev nD) (i : grid0.Coords) (arg2 : Memref sig .tc .vmem S64x128x128 .f32) (harg2 : arg2.IsWhole) (arg3 : Memref sig .tc .vmem S64x128 .i32) (harg3 : arg3.IsWhole) (arg4 : Memref sig .tc .vmem S64x128 .f32) (harg4 : arg4.IsWhole) (arg5 : Memref sig .tc .vmem S1x128 .f32) (harg5 : arg5.IsWhole) (hc1 : cond1 i) (hc2 : ¬cond2 i)
    (x0 : Vec F S64x128x128 .f32) (x1 : Vec F S64x128 .i32) (x2 : Vec F S64x128 .f32) :
    outA c i arg2 harg2 arg3 harg3 arg4 harg4 arg5 harg5 hc1 hc2 x0 x1 x2 = k0_pay1 x1 x2 x0 := by
  unfold outA
  rw [View.read_writes_eq_canon _ _ _ (coverA c i arg2 harg2 arg3 harg3 arg4 harg4 arg5 harg5 hc1 hc2 x0 x1 x2)]
  unfold kernelRunA
  dsimp only
  rw [View.canon_unit_zero hz2]
  simp only [View.readAt_eq_ld, harg2.read_unread, harg3.read_unread, harg4.read_unread,
    View.ld_unit_zero (S := S64x128) hz2, View.ld_unit_zero (S := S64x128x128) hz3]

/-- At a later point it is left holding what it held plus the partial row. -/
theorem out_B (c : Dev nD) (i : grid0.Coords) (arg2 : Memref sig .tc .vmem S64x128x128 .f32) (harg2 : arg2.IsWhole) (arg3 : Memref sig .tc .vmem S64x128 .i32) (harg3 : arg3.IsWhole) (arg4 : Memref sig .tc .vmem S64x128 .f32) (harg4 : arg4.IsWhole) (arg5 : Memref sig .tc .vmem S1x128 .f32) (harg5 : arg5.IsWhole) (hc1 : ¬cond1 i) (hc2 : cond2 i)
    (x0 : Vec F S64x128x128 .f32) (x1 : Vec F S64x128 .i32) (x2 : Vec F S64x128 .f32) (xo : Vec F S1x128 .f32) :
    outB c i arg2 harg2 arg3 harg3 arg4 harg4 arg5 harg5 hc1 hc2 x0 x1 x2 xo = k0_pay2 x1 x2 x0 xo := by
  unfold outB
  rw [View.read_writes_eq_canon _ _ _ (coverB c i arg2 harg2 arg3 harg3 arg4 harg4 arg5 harg5 hc1 hc2 x0 x1 x2 xo)]
  unfold kernelRunB
  dsimp only
  rw [View.canon_unit_zero hz2]
  simp only [View.readAt_eq_ld, harg2.read_unread, harg3.read_unread, harg4.read_unread, harg5.read_unread,
    View.ld_unit_zero (S := S64x128) hz2, View.ld_unit_zero (S := S64x128x128) hz3, View.ld_unit_zero (S := S1x128) hz2]

end AnyInstance

/-! ## The accumulation as arithmetic

A value that is reset at every multiple of 8 and otherwise added to ends each run of eight points holding the sum of
that run's eight terms; and eight consecutive runs of 64 terms are the 512 terms. Only commutative-monoid facts. -/

section Arith
variable {M : Type} [AddCommMonoid M]

/-- The running value: reset to the point's term where the point is a multiple of 8, else the term added. -/
def run8 (p : ℕ → M) : ℕ → M
  | 0 => p 0
  | n + 1 => if (n + 1) % 8 = 0 then p (n + 1) else run8 p n + p (n + 1)

theorem run8_eq (p : ℕ → M) (b : ℕ) : ∀ j : ℕ, j < 8 → run8 p (8 * b + j) = ∑ k ∈ Finset.range (j + 1), p (8 * b + k)
  | 0, _ => by
    rw [Finset.sum_range_one]
    cases b with
    | zero => rfl
    | succ b =>
      show run8 p (8 * b + 7 + 1) = p (8 * b + 7 + 1)
      rw [run8, if_pos (by omega)]
  | j + 1, hj => by
    show run8 p (8 * b + j + 1) = _
    rw [run8, if_neg (by omega), run8_eq p b j (by omega), Finset.sum_range_succ (n := j + 1)]
    rfl

/-- Consecutive blocks of n terms, a of them, are the first a * n terms. -/
theorem sum_range_blocks (f : ℕ → M) (n : ℕ) : ∀ a : ℕ,
    ∑ k ∈ Finset.range a, ∑ r ∈ Finset.range n, f (n * k + r) = ∑ s ∈ Finset.range (a * n), f s
  | 0 => by simp
  | a + 1 => by
    rw [Finset.sum_range_succ, sum_range_blocks f n a, Nat.succ_mul, Finset.sum_range_add, Nat.mul_comm n a]

end Arith

/-! ## The accumulation over the grid, at the exact instance -/

variable (m : (ℓ : Loc nD τ sig) → Buf (Elt Ideal) ℓ)

/-- Point n's partial row at column q (0 past the grid). -/
def part (c : Dev nD) (q : Fin 128) (n : ℕ) : EReal :=
  if hn : n < cfg0.N then
    k0_pay1 (F := Ideal) (iblk m c 1 ⟨n, hn⟩) (iblk m c 2 ⟨n, hn⟩) (iblk m c 0 ⟨n, hn⟩) (ix2 0 q)
  else 0

/-- What the output's buffer holds after point n, at column q: the running value of the partial rows. -/
theorem outsAt_entry (c : Dev nD) (q : Fin 128) : ∀ (n : ℕ) (hn : n < cfg0.N),
    outsAt m c n hn (ix2 0 q) = run8 (part m c q) n
  | 0, hn => by
    rw [outsAt_A m c ⟨0, hn⟩ rfl, out_A]
    show _ = part m c q 0
    unfold part
    rw [dif_pos hn]
  | n + 1, hn => by
    by_cases h0 : (n + 1) % 8 = 0
    · rw [outsAt_A m c ⟨n + 1, hn⟩ h0, out_A, run8, if_pos h0]
      unfold part
      rw [dif_pos hn]
    · rw [outsAt_B m c ⟨n + 1, hn⟩ h0, out_B, pay2_apply, run8, if_neg h0]
      show outsAt m c n _ (ix2 0 q) + _ = _
      rw [outsAt_entry c q n]
      unfold part
      rw [dif_pos hn]

/-! ## The blocks as parts of the arrays -/

/-- The block index maps, decided over the grid: the sequence block is t % 8, the batch block is t / 8. -/
theorem idx_facts : ∀ t : Fin cfg0.N,
    win0_0.index t (0 : Fin 3) = t.val % 8 ∧ win0_0.index t (1 : Fin 3) = t.val / 8 ∧ win0_0.index t (2 : Fin 3) = 0
    ∧ win0_1.index t (0 : Fin 2) = t.val % 8 ∧ win0_1.index t (1 : Fin 2) = t.val / 8
    ∧ win0_2.index t (0 : Fin 2) = t.val % 8 ∧ win0_2.index t (1 : Fin 2) = t.val / 8
    ∧ win0_3.index t (0 : Fin 2) = 0 ∧ win0_3.index t (1 : Fin 2) = t.val / 8 :=
  (by decide +kernel : ∀ t : Fin grid0.N, _)

/-- The emissions, the tags and the weights as the region finds them. -/
abbrev emis (c : Dev nD) : Vec Ideal S512x512x128 .f32 := V m c main_arg0
abbrev tags (c : Dev nD) : Vec Ideal S512x512 .i32 := V m c main_arg1
abbrev wgt (c : Dev nD) : Vec Ideal S512x512 .f32 := V m c main_v6

/-- The emissions block of point t at (r, q, l) is the array at (64 (t % 8) + r, 128 (t / 8) + q, l). -/
theorem blk0_apply (c : Dev nD) (t : Fin cfg0.N) (r : Fin 64) (q l : Fin 128) (s b : Fin 512)
    (hs : s.val = 64 * (t.val % 8) + r.val) (hb : b.val = 128 * (t.val / 8) + q.val) :
    (iblk m c 0 t : Vec Ideal S64x128x128 .f32) (ix3 r q l) = emis m c (ix3 s b l) := by
  obtain ⟨e00, e01, e02, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 3) * 64 + 1 * r.val = s.val; rw [e00, hs]; omega
  | ⟨1, _⟩ => show win0_0.index t (1 : Fin 3) * 128 + 1 * q.val = b.val; rw [e01, hb]; omega
  | ⟨2, _⟩ => show win0_0.index t (2 : Fin 3) * 128 + 1 * l.val = l.val; rw [e02]; omega

/-- The tags block likewise. -/
theorem blk1_apply (c : Dev nD) (t : Fin cfg0.N) (r : Fin 64) (q : Fin 128) (s b : Fin 512)
    (hs : s.val = 64 * (t.val % 8) + r.val) (hb : b.val = 128 * (t.val / 8) + q.val) :
    (iblk m c 1 t : Vec Ideal S64x128 .i32) (ix2 r q) = tags m c (ix2 s b) := by
  obtain ⟨-, -, -, e10, e11, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 2) * 64 + 1 * r.val = s.val; rw [e10, hs]; omega
  | ⟨1, _⟩ => show win0_1.index t (1 : Fin 2) * 128 + 1 * q.val = b.val; rw [e11, hb]; omega

/-- The weight block likewise. -/
theorem blk2_apply (c : Dev nD) (t : Fin cfg0.N) (r : Fin 64) (q : Fin 128) (s b : Fin 512)
    (hs : s.val = 64 * (t.val % 8) + r.val) (hb : b.val = 128 * (t.val / 8) + q.val) :
    (iblk m c 2 t : Vec Ideal S64x128 .f32) (ix2 r q) = wgt m c (ix2 s b) := by
  obtain ⟨-, -, -, -, -, e20, e21, -⟩ := idx_facts t
  unfold iblk
  rw [View.read_apply]
  show V m c main_v6 _ = V m c main_v6 _
  refine congrArg (V m c main_v6) (funext fun a => Fin.ext ?_)
  match a with
  | ⟨0, _⟩ => show win0_2.index t (0 : Fin 2) * 64 + 1 * r.val = s.val; rw [e20, hs]; omega
  | ⟨1, _⟩ => show win0_2.index t (1 : Fin 2) * 128 + 1 * q.val = b.val; rw [e21, hb]; omega

/-! ## A column of the result -/

/-- Sequence position s's term of column b (0 past the array): the emission the tag selects, times the weight. -/
def term (c : Dev nD) (b : Fin 512) (s : ℕ) : EReal :=
  if hs : s < 512 then
    (∑ l : Fin 128, onehot (tags m c (ix2 ⟨s, hs⟩ b)) l * emis m c (ix3 ⟨s, hs⟩ b l)) * wgt m c (ix2 ⟨s, hs⟩ b)
  else 0

/-- Point n's partial row at column q is the 64 terms of its sequence block, in column 128 (n / 8) + q. -/
theorem part_eq (c : Dev nD) (q : Fin 128) (n : ℕ) (hn : n < cfg0.N) (b : Fin 512) (hb : b.val = 128 * (n / 8) + q.val) :
    part m c q n = ∑ r ∈ Finset.range 64, term m c b (64 * (n % 8) + r) := by
  unfold part
  rw [dif_pos hn, pay1_apply, ← Fin.sum_univ_eq_sum_range (fun r => term m c b (64 * (n % 8) + r)) 64]
  refine Finset.sum_congr rfl fun r _ => ?_
  have hs : 64 * (n % 8) + r.val < 512 := by have := r.isLt; omega
  unfold term
  rw [dif_pos hs, blk1_apply m c ⟨n, hn⟩ r q ⟨_, hs⟩ b rfl hb, blk2_apply m c ⟨n, hn⟩ r q ⟨_, hs⟩ b rfl hb]
  congr 1
  refine Finset.sum_congr rfl fun l _ => ?_
  rw [blk0_apply m c ⟨n, hn⟩ r q l ⟨_, hs⟩ b rfl hb]

/-- After the eighth point of batch block bi the running value at column q is all 512 terms of column 128 bi + q. -/
theorem col_eq (c : Dev nD) (bi : ℕ) (hbi : bi < 4) (q : Fin 128) (b : Fin 512) (hb : b.val = 128 * bi + q.val) :
    run8 (part m c q) (8 * bi + 7) = ∑ s ∈ Finset.range 512, term m c b s := by
  have hN : cfg0.N = 32 := N_0
  rw [run8_eq _ bi 7 (by omega), ← sum_range_blocks (term m c b) 64 8]
  refine Finset.sum_congr rfl fun k hk => ?_
  have hk8 : k < 8 := Finset.mem_range.mp hk
  have e1 : (8 * bi + k) / 8 = bi := by omega
  have e2 : (8 * bi + k) % 8 = k := by omega
  rw [part_eq m c q (8 * bi + k) (by omega) b (by rw [e1]; exact hb), e2]

/-! ## The result array -/

/-- The result array: column b holds the 512 terms of column b added up. -/
def G (c : Dev nD) : Vec Ideal S1x512 .f32 := fun j => ∑ s ∈ Finset.range 512, term m c (j 1) s

/-- What the eighth point of a batch block writes back is that batch block's 128 columns of the result. -/
theorem flushed_eq (c : Dev nD) (t : Fin cfg0.N) (hf : (cfg0.win 3).flush t = true) :
    (dats m 0 c).flushed 3 t = ((cfg0.win 3).blk t).view.read (Elt Ideal) (G m c) := by
  have hN : cfg0.N = 32 := N_0
  have hlt := t.isLt
  have h7 : t.val % 8 = 7 := (flush0_3 t).mp hf
  obtain ⟨-, -, -, -, -, -, -, e30, e31⟩ := idx_facts t
  show (cfg0.win 3).cut (grid0.coords t) ((dats m 0 c).after 3 t) = _
  rw [after3]
  funext j
  obtain ⟨u, q, rfl⟩ : ∃ (u : Fin 1) (q : Fin 128), j = ix2 u q := ⟨j 0, j 1, eq_ix2 j⟩
  obtain rfl : u = 0 := Subsingleton.elim _ _
  rw [View.read_apply]
  show outsAt m c t.val t.isLt (ix2 0 q) = G m c (((cfg0.win 3).blk t).view.emb (ix2 0 q))
  rw [outsAt_entry]
  have ht : t.val = 8 * (t.val / 8) + 7 := by omega
  have hb : ((((cfg0.win 3).blk t).view.emb (ix2 0 q)) 1).val = 128 * (t.val / 8) + q.val := by
    show win0_3.index t (1 : Fin 2) * 128 + 1 * q.val = _
    rw [e31]; omega
  exact (congrArg (run8 (part m c q)) ht).trans (col_eq m c (t.val / 8) (by omega) q _ hb)

/-- An index of the result array is in point t's block iff each coordinate is in the block's range. -/
theorem mem_blk3 (t : Fin cfg0.N) (i : S1x512.Idx) :
    i ∈ ((cfg0.win 3).blk t).view.set ↔ ∀ a : Fin 2, win0_3.index t a * S1x128.size a ≤ (i a).val ∧ (i a).val < win0_3.index t a * S1x128.size a + S1x128.size a := by
  show i ∈ ((View.whole main_v7).slice (win0_3.rect t)).set ↔ _
  rw [View.set_slice_whole, Rect.mem_set_unit]
  exact Iff.rfl

/-- Every column lies in the block its batch block's eighth point writes back. -/
theorem cover (i : S1x512.Idx) : ∃ t : Fin cfg0.N, (cfg0.win 3).flush t = true ∧ i ∈ ((cfg0.win 3).blk t).view.set := by
  have hN : cfg0.N = 32 := N_0
  have hi0 : (i 0).val < 1 := (i 0).isLt
  have hi1 : (i 1).val < 512 := (i 1).isLt
  have hlt : 8 * ((i 1).val / 128) + 7 < cfg0.N := by omega
  obtain ⟨-, -, -, -, -, -, -, e30, e31⟩ := idx_facts ⟨8 * ((i 1).val / 128) + 7, hlt⟩
  refine ⟨⟨8 * ((i 1).val / 128) + 7, hlt⟩, (flush0_3 _).mpr (by show (8 * ((i 1).val / 128) + 7) % 8 = 7; omega), ?_⟩
  rw [mem_blk3]
  intro a
  match a with
  | ⟨0, _⟩ =>
    show win0_3.index ⟨8 * ((i 1).val / 128) + 7, hlt⟩ (0 : Fin 2) * 1 ≤ (i 0).val ∧ (i 0).val < win0_3.index ⟨8 * ((i 1).val / 128) + 7, hlt⟩ (0 : Fin 2) * 1 + 1
    rw [e30]; omega
  | ⟨1, _⟩ =>
    show win0_3.index ⟨8 * ((i 1).val / 128) + 7, hlt⟩ (1 : Fin 2) * 128 ≤ (i 1).val ∧ (i 1).val < win0_3.index ⟨8 * ((i 1).val / 128) + 7, hlt⟩ (1 : Fin 2) * 128 + 128
    rw [e31]
    show (8 * ((i 1).val / 128) + 7) / 8 * 128 ≤ (i 1).val ∧ (i 1).val < (8 * ((i 1).val / 128) + 7) / 8 * 128 + 128
    omega

/-- So the result array ends holding, in every column, the 512 terms added up. -/
theorem final (c : Dev nD) : (dats m 0 c).arrAt 3 cfg0.N = G m c :=
  (dats m 0 c).arrAt_eq_of_cover 3 (G m c) (flushed_eq m c) cover

/-- The region's result: entry b is, over the 512 sequence positions, the emission the tag selects times the weight. -/
theorem region_apply (c : Dev nD) (b : Fin 512) :
    (dats m 0 c).arrAt 3 cfg0.N (ix2 0 b)
      = ∑ s : Fin 512, (∑ t : Fin 128, onehot (V m c main_arg1 (ix2 s b)) t * V m c main_arg0 (ix3 s b t)) * V m c main_v6 (ix2 s b) := by
  rw [final]
  show ∑ s ∈ Finset.range 512, term m c b s = _
  rw [← Fin.sum_univ_eq_sum_range (term m c b) 512]
  refine Finset.sum_congr rfl fun s _ => ?_
  unfold term
  rw [dif_pos s.isLt]

end Cert.KernelIdeal.HandValue

end
-- ==== Proof.Ref.RunVal.lean ====
/-
  The reference's run, stated over its stages.

  The run of @main's 100 host operations leaves the score buffer at the operations' composed term of the arguments'
  launch contents; that term is, by unfolding, the last of the program's stages (each stage one operation applied to
  the stages before it). So every weakly fair execution ends with the score at the last stage and the arguments
  unchanged.
-/
import proofs.«410888_j47141561041240_3_alg».proof.Proof.Ref.RunGen
import proofs.«410888_j47141561041240_3_alg».proof.Proof.Ref.Stages

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The composed term the run states for the score is the last stage, at the arguments' launch contents. -/
theorem val_main_v63_eq (m : (ℓ : Loc nD τ sig) → Buf (Elt F) ℓ) (c : Dev nD) :
    Cert.ReferenceIdeal.ValueP.res_main_v63 m c = val_main_v63 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.ValueP.res_main_v63; rfl

/-- The reference's run over the stages: every weakly fair execution of @main terminates with the score buffer at the
    last stage of the arguments' launch contents, and the six arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63) = val_main_v63 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (val_main_v63_eq m c), (h c).2⟩)
    (Cert.ReferenceIdeal.ValueP.run (F := F) m ρ)

end Cert.ReferenceIdeal.RunP

end
-- ==== Proof.Ref.Value.lean ====
/-
  The reference's score read at an index, at the ideal float instance.

  The reference computes, for each sequence b (a column of the [512, 512] tag and mask arrays),
    score[b] = (start[tag[0,b]] + emit[0,b]) + (0 + Σ_{k<511} (trans[tag[k,b], tag[k+1,b]] + emit[k+1,b]) · maskf[k+1,b])
               + end[tag[last(b), b]],
  where emit[s,b] = emissions[s, b, tag[s,b]] is a take along the tag axis and last(b) is the column's mask sum less
  one, wrapped by 512 when negative. Three readings of its stages are proved here:
  * `ref_apply`: the score at b as that expression over the stages for the start term, the take, the transition
    gather, the converted mask and the end term;
  * `emit_apply`: the take, when every tag lies in [0, 128): the emission at the tag (no wrap of a negative index, the
    in-range test true, the gather's clamp idle);
  * `lastTag_apply`: the tag the end term is looked up at, when the column's word sum is at most 512: the tag at the last
    row of the column.
-/
import proofs.«410888_j47141561041240_3_alg».proof.Proof.Ref.Stages
import proofs.«410888_j47141561041240_3_alg».proof.Proof.Spec
import proofs.«410888_j47141561041240_3_alg».proof.Proof.Gathers
import Idealize.ShloMosaic.Lib.ValueIdx
import Idealize.ShloMosaic.Lib.Pipeline.Value
import Idealize.ShloMosaic.PureOps.Ideal.Laws
import Idealize.ShloMosaic.Lib.StableHlo.Predicate

noncomputable section

namespace Cert.ReferenceIdeal.RefValue

open Cert.ReferenceIdeal Cert.ReferenceIdeal.Gen Cert.ReferenceIdeal.ReadP Idealize.ShloMosaic Idealize.ShloMosaic.ValueIdx
open Idealize.ShloMosaic.StableHlo.Predicate

/-! ## The score's layout operations: their index maps at coordinates -/

/-- Row 0 of the emissions, as a vector: position `b` reads (0, b). -/
theorem idx_v31_v30 (b : Fin 512) : idx_main_v30 (idx_main_v31 (ix1 b)) = ix2 (0 : Fin 512) b := by
  funext a
  match a with
  | ⟨0, _⟩ => rfl
  | ⟨1, _⟩ => exact Fin.ext (Nat.mod_eq_of_lt b.isLt)

/-- The sum over the rows of column `b`: term `k` reads (k, b). -/
theorem idx_v37_ix (b : Fin 512) (k : Fin 511) : idx_main_v37 (ix1 b) k = ix2 k b := by
  funext a
  match a with
  | ⟨0, _⟩ => rfl
  | ⟨1, _⟩ => rfl

/-- The emissions from row 1 on: (k, b) reads (k + 1, b). -/
theorem idx_v33_ix (k : Fin 511) (b : Fin 512) :
    idx_main_v33 (ix2 k b) = ix2 (⟨k.val + 1, by have := k.isLt; omega⟩ : Fin 512) b := by
  funext a
  match a with
  | ⟨0, _⟩ => exact Fin.ext (Nat.add_comm 1 k.val)
  | ⟨1, _⟩ => rfl

/-- The mask from row 1 on: (k, b) reads (k + 1, b). -/
theorem idx_v35_ix (k : Fin 511) (b : Fin 512) :
    idx_main_v35 (ix2 k b) = ix2 (⟨k.val + 1, by have := k.isLt; omega⟩ : Fin 512) b := by
  funext a
  match a with
  | ⟨0, _⟩ => exact Fin.ext (Nat.add_comm 1 k.val)
  | ⟨1, _⟩ => rfl

/-- The score of sequence `b`: the start term plus the first emission, plus the masked sum over the steps of transition
    plus emission, plus the end term. -/
theorem ref_apply (x0 : (⟨S512x512x128, .f32⟩ : BufTy).Contents (Elt Ideal)) (x1 x2 : (⟨S512x512, .i32⟩ : BufTy).Contents (Elt Ideal))
    (x3 x4 : (⟨S128, .f32⟩ : BufTy).Contents (Elt Ideal)) (x5 : (⟨S128x128, .f32⟩ : BufTy).Contents (Elt Ideal)) (b : Fin 512) :
    val_main_v63 (F := Ideal) x0 x1 x2 x3 x4 x5 (ix1 b)
      = ((val_main_v29 (F := Ideal) x1 x3 (ix1 b) + val_main_v4 (F := Ideal) x0 x1 (ix2 (0 : Fin 512) b))
          + (Ideal.ofBits .f32 0x00000000#32
              + ∑ k : Fin 511,
                  (val_main_v20 (F := Ideal) x1 x5 (ix2 k b)
                      + val_main_v4 (F := Ideal) x0 x1 (ix2 (⟨k.val + 1, by have := k.isLt; omega⟩ : Fin 512) b))
                    * val_main_v0 (F := Ideal) x2 (ix2 (⟨k.val + 1, by have := k.isLt; omega⟩ : Fin 512) b)))
        + val_main_v62 (F := Ideal) x1 x2 x4 (ix1 b) := by
  rw [val_main_v63_apply, val_main_v38_apply, val_main_v32_apply, val_main_v31_apply, val_main_v30_apply, idx_v31_v30,
    val_main_v37_apply, val_main_cst_apply]
  simp only [val_main_v36_apply, val_main_v34_apply, val_main_v33_apply, val_main_v35_apply, idx_v37_ix, idx_v33_ix,
    idx_v35_ix, Ideal.addf_def, Ideal.mulf_def, Ideal.ofBits_def]

/-! ## Words: a tag whose signed value lies in [0, 128) -/

/-- A 32-bit word whose signed value lies in [0, 128) has an unsigned value below 128. -/
theorem toNat_lt_of_tag {t : BitVec 32} (h : 0 ≤ t.toInt ∧ t.toInt < 128) : t.toNat < 128 := by
  have h1 := BitVec.toInt_eq_toNat_cond t
  have h2 := t.isLt
  split at h1 <;> omega

/-- For such a word the signed value, as a natural number, is the unsigned value. -/
theorem toInt_toNat_of_tag {t : BitVec 32} (h : 0 ≤ t.toInt ∧ t.toInt < 128) : t.toInt.toNat = t.toNat := by
  have h1 := BitVec.toInt_eq_toNat_cond t
  have h2 := t.isLt
  split at h1 <;> omega

/-- Such a word is not negative. -/
theorem slt_zero_of_tag {t : BitVec 32} (h : 0 ≤ t.toInt ∧ t.toInt < 128) : IntOp.cmpi .slt t 0#32 = 0#1 := by
  have ht := toNat_lt_of_tag h
  exact eq_zero_of_ne_one fun hc => Nat.not_lt_zero _ ((slt_iff_toNat (by omega) (by decide)).1 hc)

/-- Such a word is at least zero. -/
theorem sge_zero_of_tag {t : BitVec 32} (h : 0 ≤ t.toInt ∧ t.toInt < 128) : IntOp.cmpi .sge t 0#32 = 1#1 := by
  have ht := toNat_lt_of_tag h
  exact (sge_iff_toNat (by omega) (by decide)).2 (Nat.zero_le _)

/-- Such a word is at most 127. -/
theorem sle_127_of_tag {t : BitVec 32} (h : 0 ≤ t.toInt ∧ t.toInt < 128) : IntOp.cmpi .sle t 127#32 = 1#1 := by
  have ht := toNat_lt_of_tag h
  exact (sle_iff_toNat (by omega) (by decide)).2 (by show t.toNat ≤ 127; omega)

/-! ## The layout operations' index maps at coordinates -/

theorem idx_v4_ix2 (s b : Fin 512) : idx_main_v4 (ix2 s b) = ix3 s b (0 : Fin 1) := by
  have hs := s.isLt
  have hb := b.isLt
  funext a
  match a with
  | ⟨0, _⟩ => exact Fin.ext (by show (s.val * 512 + b.val) / 512 = s.val; omega)
  | ⟨1, _⟩ => exact Fin.ext (by show (s.val * 512 + b.val) / 1 % 512 = b.val; omega)
  | ⟨2, _⟩ => rfl

theorem idx_call0_v5_ix4 (s b : Fin 512) :
    idx_main_call0_v5 (ix4 s b (0 : Fin 1) (0 : Fin 1)) = ix3 s b (0 : Fin 1) := by
  have hs := s.isLt
  have hb := b.isLt
  funext a
  match a with
  | ⟨0, _⟩ => exact Fin.ext (by show (((s.val * 512 + b.val) * 1 + 0) * 1 + 0) / 512 = s.val; omega)
  | ⟨1, _⟩ => exact Fin.ext (by show (((s.val * 512 + b.val) * 1 + 0) * 1 + 0) / 1 % 512 = b.val; omega)
  | ⟨2, _⟩ => rfl

theorem idx_v2_ix3 (s b : Fin 512) : idx_main_v2 (ix3 s b (0 : Fin 1)) = ix2 s b := by
  funext a
  match a with
  | ⟨0, _⟩ => rfl
  | ⟨1, _⟩ => rfl

/-! ## The take along the tag axis -/

section Emit

variable (x0 : (⟨S512x512x128, .f32⟩ : BufTy).Contents (Elt Ideal)) (x1 : (⟨S512x512, .i32⟩ : BufTy).Contents (Elt Ideal))
  (h : ∀ i, 0 ≤ (x1 i).toInt ∧ (x1 i).toInt < 128)
include h

/-- The index wrapped as a negative one would be (`idx < 0 ? idx + 128 : idx`) is the tag itself: no tag is negative. -/
theorem call0_v5_eq (i : S512x512x1x1.Idx) :
    val_main_call0_v5 (F := Ideal) x1 i = x1 (idx_main_v2 (idx_main_call0_v5 i)) := by
  rw [val_main_call0_v5_apply, val_main_call0_v4_apply, val_main_call0_v1_apply, val_main_v2_apply,
    val_main_call0_v0_apply, val_main_call0_c_apply, slt_zero_of_tag (h _), select_zero]

/-- The in-range test `0 ≤ idx ∧ idx ≤ 127` holds at every position. -/
theorem call0_v11_eq (i : S512x512x1x1.Idx) : val_main_call0_v11 (F := Ideal) x1 i = 1#1 := by
  rw [val_main_call0_v11_apply, val_main_call0_v7_apply, val_main_call0_v10_apply, call0_v5_eq x1 h,
    val_main_call0_v6_apply, val_main_call0_c_2_apply, val_main_call0_v9_apply, val_main_call0_v8_apply,
    val_main_call0_c_1_apply, sge_zero_of_tag (h _), sle_127_of_tag (h _)]
  rfl

/-- So its conjunction along the unit axis holds too. -/
theorem call0_v12_eq (j : S512x512x1.Idx) : val_main_call0_v12 (F := Ideal) x1 j = 1#1 := by
  unfold val_main_call0_v12
  rw [Host.reduce_eq_foldl]
  have hx : ∀ i, val_main_call0_v11 (F := Ideal) x1 i = 1#1 := call0_v11_eq x1 h
  generalize val_main_call0_v11 (F := Ideal) x1 = y at hx ⊢
  generalize (List.filter _ _) = l
  show List.foldl (fun r i => IntOp.andi r (y i)) (1#1) l = 1#1
  induction l with
  | nil => rfl
  | cons a l ih => rw [List.foldl_cons, hx a, show IntOp.andi (1#1) (1#1) = 1#1 from by decide]; exact ih

/-- THE TAKE ALONG THE TAG AXIS, read at (s, b): the emission of sequence `b` at step `s` for that step's tag. No tag is
    negative, so none is wrapped; every tag is in range, so the out-of-range fill is never selected; and the gather,
    batching over (s, b), reads the emissions at the tag. -/
theorem emit_apply (s b : Fin 512) :
    val_main_v4 (F := Ideal) x0 x1 (ix2 s b) = x0 (ix3 s b ⟨(x1 (ix2 s b)).toNat, toNat_lt_of_tag (h _)⟩) := by
  have h5 : val_main_call0_v5 (F := Ideal) x1 (ix4 s b (0 : Fin 1) (0 : Fin 1)) = x1 (ix2 s b) := by
    rw [call0_v5_eq x1 h, idx_call0_v5_ix4, idx_v2_ix3]
  have hr : 0 ≤ (val_main_call0_v5 (F := Ideal) x1 (ix4 s b (0 : Fin 1) (0 : Fin 1))).toInt
      ∧ (val_main_call0_v5 (F := Ideal) x1 (ix4 s b (0 : Fin 1) (0 : Fin 1))).toInt < 128 := by
    rw [h5]; exact h _
  rw [val_main_v4_apply, idx_v4_ix2, val_main_v3_apply, call0_v12_eq x1 h, select_one]
  unfold val_main_call0_v13
  refine (Cert.Gathers.g1 x0 (val_main_call0_v5 (F := Ideal) x1) s b hr).trans ?_
  exact congrArg x0 (congrArg (fun c : Fin 128 => ix3 s b c) (Fin.ext (congrArg BitVec.toNat h5)))

end Emit

/-! ## The last position of a column, as a word -/

/-- The column's word sum less one, wrapped by the axis' extent 512 when negative. -/
def lastWord (cnt : BitVec 32) : BitVec 32 :=
  Scalar.select (IntOp.cmpi .slt (IntOp.subi cnt 1#32) 0#32) (IntOp.addi (IntOp.subi cnt 1#32) 512#32) (IntOp.subi cnt 1#32)

/-- For a sum of at most 512 that word is the last row's index, and lies in [0, 512). -/
theorem lastWord_spec (cnt : BitVec 32) (hc : cnt.toNat ≤ 512) :
    (lastWord cnt).toNat = (Cert.Spec.lastRow cnt).val ∧ 0 ≤ (lastWord cnt).toInt ∧ (lastWord cnt).toInt < 512 := by
  by_cases h0 : cnt.toNat = 0
  · have hz : cnt = 0#32 := BitVec.eq_of_toNat_eq h0
    subst hz
    exact ⟨by decide, by decide, by decide⟩
  · have h1 : 1 ≤ cnt.toNat := by omega
    have hs : (cnt - 1#32).toNat = cnt.toNat - 1 := by
      simp only [BitVec.toNat_sub, BitVec.toNat_ofNat]; omega
    have hw : lastWord cnt = cnt - 1#32 := by
      unfold lastWord
      rw [show IntOp.subi cnt 1#32 = cnt - 1#32 from rfl,
        eq_zero_of_ne_one fun hc' => Nat.not_lt_zero _ ((slt_iff_toNat (by omega) (by decide)).1 hc'), select_zero]
    rw [hw]
    refine ⟨?_, ?_, ?_⟩
    · rw [hs]; unfold Cert.Spec.lastRow; rw [dif_pos ⟨h1, hc⟩]
    · rw [toInt_eq_toNat_of_lt (by omega)]; omega
    · rw [toInt_eq_toNat_of_lt (by omega)]; omega

section LastTag

variable (x1 x2 : (⟨S512x512, .i32⟩ : BufTy).Contents (Elt Ideal))

/-- The batch position: the iota, wrapped as a negative index would be, is the position itself. -/
theorem v51_eq (b : Fin 512) : val_main_v51 (F := Ideal) (ix1 b) = BitVec.ofNat 32 b.val := by
  rw [val_main_v51_apply, val_main_v48_apply, val_main_v1_apply, val_main_v47_apply, val_main_c_9_apply]
  show Scalar.select (IntOp.cmpi .slt (BitVec.ofNat 32 b.val) 0#32) _ (BitVec.ofNat 32 b.val) = _
  have hb : (BitVec.ofNat 32 b.val).toNat < 2 ^ 31 := by
    rw [BitVec.toNat_ofNat]; have := b.isLt; omega
  rw [eq_zero_of_ne_one fun hc => Nat.not_lt_zero _ ((slt_iff_toNat hb (by decide)).1 hc), select_zero]

/-- The row component of the index pair: the column's word sum less one, wrapped. -/
theorem v46_eq (b : Fin 512) :
    val_main_v46 (F := Ideal) x2 (ix1 b) = lastWord (val_main_v39 (F := Ideal) x2 (ix1 b)) := by
  rw [val_main_v46_apply, val_main_v43_apply, val_main_v45_apply, val_main_v41_apply, val_main_v40_apply,
    val_main_c_6_apply, val_main_v42_apply, val_main_c_7_apply, val_main_v44_apply, val_main_c_8_apply]
  rfl

/-- The index pairs' first component is the row. -/
theorem v54_left (b : Fin 512) :
    val_main_v54 (F := Ideal) x2 (ix2 b (0 : Fin 2)) = val_main_v46 (F := Ideal) x2 (ix1 b) := by
  unfold val_main_v54
  refine (concatenate_pair_apply_left (t := S512x2) (s₁ := S512x1) (s₂ := S512x1) _ _ _ _ (ix2 b (0 : Fin 2)) rfl (ix2 b (0 : Fin 1)) ?_).trans ?_
  · intro a; match a with | ⟨0, _⟩ => rfl | ⟨1, _⟩ => rfl
  · rw [val_main_v52_apply]; exact congrArg _ (funext fun a => match a with | ⟨0, _⟩ => rfl)

/-- The index pairs' second component is the batch position. -/
theorem v54_right (b : Fin 512) :
    val_main_v54 (F := Ideal) x2 (ix2 b (1 : Fin 2)) = val_main_v51 (F := Ideal) (ix1 b) := by
  unfold val_main_v54
  refine (concatenate_pair_apply_right (t := S512x2) (s₁ := S512x1) (s₂ := S512x1) _ _ _ _ (ix2 b (1 : Fin 2)) rfl rfl (ix2 b (0 : Fin 1)) ?_ ?_).trans ?_
  · intro a ha; match a with | ⟨0, _⟩ => rfl | ⟨1, _⟩ => exact absurd (Fin.ext rfl) ha
  · rfl
  · rw [val_main_v53_apply]; exact congrArg _ (funext fun a => match a with | ⟨0, _⟩ => rfl)

/-- THE LAST TAG of sequence `b`: the two-index gather reads the tags at (last row, b). The row component of the index
    pair is the column's word sum less one, wrapped when negative; the column component is the batch position. Both
    lie inside their axes, so the gather's clamp moves neither. -/
theorem lastTag_apply (hm : ∀ i, x2 i = 0#32 ∨ x2 i = 1#32) (b : Fin 512)
    (hcnt : (val_main_v39 (F := Ideal) x2 (ix1 b)).toNat ≤ 512) :
    val_main_v55 (F := Ideal) x1 x2 (ix1 b)
      = x1 (ix2 (Cert.Spec.lastRow (val_main_v39 (F := Ideal) x2 (ix1 b))) b) := by
  have hsp := lastWord_spec _ hcnt
  have hbl := b.isLt
  have e0 : val_main_v54 (F := Ideal) x2 (ix2 b (0 : Fin 2)) = lastWord (val_main_v39 (F := Ideal) x2 (ix1 b)) := by
    rw [v54_left, v46_eq]
  have e1 : val_main_v54 (F := Ideal) x2 (ix2 b (1 : Fin 2)) = BitVec.ofNat 32 b.val := by
    rw [v54_right, v51_eq]
  have hb1 : (BitVec.ofNat 32 b.val).toNat = b.val := by
    rw [BitVec.toNat_ofNat]; exact Nat.mod_eq_of_lt (by omega)
  have h0 : 0 ≤ (val_main_v54 (F := Ideal) x2 (ix2 b (0 : Fin 2))).toInt
      ∧ (val_main_v54 (F := Ideal) x2 (ix2 b (0 : Fin 2))).toInt < 512 := by
    rw [e0]; exact hsp.2
  have h1 : 0 ≤ (val_main_v54 (F := Ideal) x2 (ix2 b (1 : Fin 2))).toInt
      ∧ (val_main_v54 (F := Ideal) x2 (ix2 b (1 : Fin 2))).toInt < 512 := by
    rw [e1, toInt_eq_toNat_of_lt (by rw [hb1]; omega), hb1]
    omega
  unfold val_main_v55
  refine (Cert.Gathers.g3 x1 (val_main_v54 (F := Ideal) x2) b h0 h1).trans ?_
  have t0 : (val_main_v54 (F := Ideal) x2 (ix2 b (0 : Fin 2))).toNat
      = (Cert.Spec.lastRow (val_main_v39 (F := Ideal) x2 (ix1 b))).val := by
    rw [e0]; exact hsp.1
  have t1 : (val_main_v54 (F := Ideal) x2 (ix2 b (1 : Fin 2))).toNat = b.val := by
    rw [e1]; exact hb1
  simp only [t0, t1, Fin.eta]

end LastTag

end Cert.ReferenceIdeal.RefValue

end
-- ==== Proof.PreFacts.lean ====
/-
  The printed input predicate, read back at the extended reals. The predicate is the conjunction of seven
  `jnp.all`s, each a reduction by `and` of an `i1` array to a scalar, and the claim assumes the conjunction is 1.
  Then every one of the seven arrays is 1 everywhere, and an element being 1 says: for a float x, |x| < +∞, so x
  is a real (neither infinity); for a tag, 0 ≤ tag < 128 read signed; for a mask word, it is 0 or 1.
  Last, a column of 512 words each 0 or 1 sums, without wrapping, to at most 512.
-/
import proofs.«410888_j47141561041240_3_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Idealize.ShloMosaic Cert.Pre_finite_inputs

/-- The scalar shape has one index. -/
instance : Subsingleton S_.Idx := ⟨fun a b => funext fun d => d.elim0⟩

/-- The f32 pattern 0x7F800000 denotes +∞. -/
theorem inf_bits : Ideal.ofBits .f32 0x7F800000#32 = (⊤ : EReal) := by
  simp [Ideal.ofBits, Ideal.ieee]

/-- An extended real whose absolute value max x (-x) is below +∞ is a real. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : Ideal.cmp .olt (max x (-x)) (Ideal.ofBits .f32 0x7F800000#32) = 1#1 := h
  rw [inf_bits] at h'
  simp only [Ideal.cmp, StableHlo.Predicate.ofBool_eq_one_iff, decide_eq_true_eq] at h'
  induction x using EReal.rec with
  | bot => exact absurd h' (by simp)
  | coe r => exact ⟨r, rfl⟩
  | top => exact absurd h' (by simp)

/-- A word that is ≥ 0 and < 128 in the signed order has its signed value in [0, 128). -/
theorem tag_range (w : BitVec 32) (h0 : IntOp.cmpi .sge w 0#32 = 1#1) (h1 : IntOp.cmpi .slt w 128#32 = 1#1) :
    0 ≤ w.toInt ∧ w.toInt < 128 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (128#32 : BitVec 32).toInt = 128 := by decide
  rw [e0] at h0
  rw [e1] at h1
  exact ⟨h0, h1⟩

/-- A word for which (w == 0) | (w == 1) is 1 is 0 or 1. -/
theorem mask01 (w : BitVec 32) (h : IntOp.ori (IntOp.cmpi .eq w 0#32) (IntOp.cmpi .eq w 1#32) = 1#1) :
    w = 0#32 ∨ w = 1#32 := by
  rcases IntOp.ori_eq_one.1 h with h | h
  · exact Or.inl (StableHlo.Predicate.cmpi_eq_iff.1 h)
  · exact Or.inr (StableHlo.Predicate.cmpi_eq_iff.1 h)

variable (x0 : FVec Ideal S512x512x128 .f32) (x1 x2 : IVec S512x512 32) (x3 x4 : FVec Ideal S128 .f32)
  (x5 : FVec Ideal S128x128 .f32)

/-- The predicate read back: the floats are reals, the tags lie in [0, 128), the mask words are 0 or 1. -/
theorem decode (h : Cert.Pre_finite_inputs.fn (F := Ideal) x0 x1 x2 x3 x4 x5 = fun _ => 1#1) :
    (∀ i, ∃ r : ℝ, x0 i = (r : EReal)) ∧ (∀ i, ∃ r : ℝ, x3 i = (r : EReal)) ∧ (∀ i, ∃ r : ℝ, x4 i = (r : EReal))
      ∧ (∀ i, ∃ r : ℝ, x5 i = (r : EReal))
      ∧ (∀ i, 0 ≤ (x1 i).toInt ∧ (x1 i).toInt < 128) ∧ (∀ i, x2 i = 0#32 ∨ x2 i = 1#32) := by
  have h0 := congrFun h ValueIdx.ix0
  dsimp only [fn, fn_part1, fn_part2, andi] at h0
  simp only [IntOp.andi_eq_one] at h0
  obtain ⟨⟨⟨⟨⟨⟨a0, a3⟩, a4⟩, a5⟩, t0⟩, t1⟩, mk⟩ := h0
  refine ⟨fun i => real_of_abs_lt _ (Host.reduce_andi_all _ _ _ _ _ a0 i),
    fun i => real_of_abs_lt _ (Host.reduce_andi_all _ _ _ _ _ a3 i),
    fun i => real_of_abs_lt _ (Host.reduce_andi_all _ _ _ _ _ a4 i),
    fun i => real_of_abs_lt _ (Host.reduce_andi_all _ _ _ _ _ a5 i),
    fun i => tag_range _ (Host.reduce_andi_all _ _ _ _ _ t0 i) (Host.reduce_andi_all _ _ _ _ _ t1 i),
    fun i => mask01 _ (Host.reduce_andi_all _ _ _ _ _ mk i)⟩

/-- A column of 512 words, each 0 or 1, sums without wrapping to at most 512: such a column is a widened
    bit mask, and the sum of a widened mask down a column counts its set bits, of which there are at most 512. -/
theorem colsum_le (x2 : IVec ⟨2, ![512, 512]⟩ 32) (hm : ∀ i, x2 i = 0#32 ∨ x2 i = 1#32)
    (hred : (⟨2, ![512, 512]⟩ : Shape).ReducesTo [0] ⟨1, ![512]⟩) (h0 : 0 < (⟨0, ![]⟩ : Shape).numel)
    (j : (⟨1, ![512]⟩ : Shape).Idx) :
    (Host.reduce IntOp.addi x2 (constantI ⟨0, ![]⟩ 32 0#32) hred h0 j).toNat ≤ 512 := by
  have hw : 1 < 32 := by decide
  have e : x2 = extui 32 (fun i => (x2 i).setWidth 1) hw := by
    funext i
    show x2 i = ((x2 i).setWidth 1).setWidth 32
    rcases hm i with e | e <;> rw [e] <;> decide
  rw [e, StableHlo.Predicate.toNat_reduce_count_rows (n := 512) (m := 512) (by decide) _ hw hred h0 j]
  exact (Finset.card_le_univ _).trans (by simp)

end Cert.PreFacts

end
-- ==== Proof.Algebra.lean ====
/-
  The law that joins two ways of adding up one score over the extended reals. One program adds
  emit[s]·weight[s] over all 512 rows (weight 1 at row 0, the mask at the others) and, separately,
  Σ trans[k]·mask[k+1]; the other adds emit[0] and Σ (trans[k] + emit[k+1])·mask[k+1]. Addition on the extended
  reals is commutative and associative, so only (t + e)·m = t·m + e·m is needed, and that holds for real t, e, m.
-/
import Mathlib.Data.EReal.Basic
import Mathlib.Algebra.BigOperators.Fin

namespace Cert.Algebra

/-- Multiplication distributes over addition on the reals inside the extended reals. -/
theorem coe_add_mul (a b c : ℝ) : ((a : EReal) + (b : EReal)) * (c : EReal) = (a : EReal) * c + (b : EReal) * c := by
  rw [← EReal.coe_add, ← EReal.coe_mul, add_mul, EReal.coe_add, EReal.coe_mul, EReal.coe_mul]

/-- Row 0 split off a sum over 512 rows whose weight is 1 at row 0 and the mask at row k + 1. -/
theorem weighted_split (em mf : Fin 512 → ℝ) (wt : Fin 512 → EReal) (hw0 : wt 0 = 1)
    (hws : ∀ k : Fin 511, wt k.succ = ((mf k.succ : ℝ) : EReal)) :
    (∑ s : Fin 512, ((em s : ℝ) : EReal) * wt s)
      = ((em 0 : ℝ) : EReal) + ∑ k : Fin 511, ((em k.succ : ℝ) : EReal) * ((mf k.succ : ℝ) : EReal) := by
  rw [Fin.sum_univ_succ (n := 511), hw0, mul_one]
  exact congrArg _ (Finset.sum_congr rfl fun k _ => by rw [hws k])

/-- The two scores agree. -/
theorem score_eq (ST EN z : EReal) (hz : z = 0) (em mf : Fin 512 → ℝ) (T : Fin 511 → ℝ) (wt : Fin 512 → EReal)
    (hw0 : wt 0 = 1) (hws : ∀ k : Fin 511, wt k.succ = ((mf k.succ : ℝ) : EReal)) :
    (((∑ s : Fin 512, ((em s : ℝ) : EReal) * wt s) + ST)
        + (z + ∑ k : Fin 511, ((T k : ℝ) : EReal) * ((mf k.succ : ℝ) : EReal))) + EN
      = ((ST + ((em 0 : ℝ) : EReal))
        + (z + ∑ k : Fin 511, (((T k : ℝ) : EReal) + ((em k.succ : ℝ) : EReal)) * ((mf k.succ : ℝ) : EReal))) + EN := by
  rw [weighted_split em mf wt hw0 hws]
  simp only [coe_add_mul, Finset.sum_add_distrib]
  ac_rfl

end Cert.Algebra
-- ==== Proof.Bridge.lean ====
/-
  The two programs' results agree under the input predicate, at the extended reals.

  At column b the reference adds the start score at the first tag, the emission of row 0, the sum over k < 511 of
  (transition k + emission of row k+1) times the mask at row k+1, and the end score at the last tag. The kernel
  program adds, to the weighted sum of the emissions over all 512 rows (weight one at row 0, the mask elsewhere), the
  same start score, the sum of transition k times the mask at row k+1, and the same end score. The start, transition,
  mask and end terms are the same operations in both programs. Under the predicate every emission, transition and
  mask entry is a real, where multiplication distributes over addition, and the rest is commutativity and
  associativity of addition.
-/
import proofs.«410888_j47141561041240_3_alg».proof.Proof.Ref.Value
import proofs.«410888_j47141561041240_3_alg».proof.Proof.KI.HostValue
import proofs.«410888_j47141561041240_3_alg».proof.Proof.KI.Payload
import proofs.«410888_j47141561041240_3_alg».proof.Proof.PreFacts
import proofs.«410888_j47141561041240_3_alg».proof.Proof.Algebra
import proofs.«410888_j47141561041240_3_alg».proof.Proof.Spec
import Idealize.ShloMosaic.Lib.ValueIdx
import Idealize.ShloMosaic.PureOps.Ideal.Laws

noncomputable section

namespace Cert.Bridge

open Cert.KernelIdeal Cert.KernelIdeal.Facts₀ Cert.KernelIdeal.HandValue
open Idealize.ShloMosaic Idealize.ShloMosaic.ValueIdx

/-! ## The operations the two programs share

Each pair below is the same chain of operations, written once in each program; the shape records they cite are the
same literals. Stated at any float instance. -/

section Chains

variable {F : FTy → Type} [FloatOps F]

/-- The start scores at the first row of tags. -/
theorem start_eq (x1 : IVec S512x512 32) (x3 : FVec F S128 .f32) :
    Cert.ReferenceIdeal.ReadP.val_main_v29 (F := F) x1 x3 = kStart (F := F) x1 x3 := rfl

/-- The transition scores at consecutive tags. -/
theorem trans_eq (x1 : IVec S512x512 32) (x5 : FVec F S128x128 .f32) :
    Cert.ReferenceIdeal.ReadP.val_main_v20 (F := F) x1 x5 = kTrans (F := F) x1 x5 := rfl

/-- The mask as floats. -/
theorem mask_eq (x2 : IVec S512x512 32) :
    Cert.ReferenceIdeal.ReadP.val_main_v0 (F := F) x2 = maskF (F := F) x2 := rfl

/-- The column sums of the mask. -/
theorem colsum_eq (x2 : IVec S512x512 32) :
    Cert.ReferenceIdeal.ReadP.val_main_v39 (F := F) x2 = kColSum (F := F) x2 := rfl

/-- The end scores, as a function of the vector of last tags. -/
theorem end_eq (x1 x2 : IVec S512x512 32) (x4 : FVec F S128 .f32) :
    Cert.ReferenceIdeal.ReadP.val_main_v62 (F := F) x1 x2 x4
      = kEnd (F := F) (Cert.ReferenceIdeal.ReadP.val_main_v55 (F := F) x1 x2) x4 := rfl

end Chains

/-! ## At the extended reals -/

local notation "rv0" => Cert.ReferenceIdeal.ReadP.val_main_v0 (F := Ideal)
local notation "rv4" => Cert.ReferenceIdeal.ReadP.val_main_v4 (F := Ideal)
local notation "rv20" => Cert.ReferenceIdeal.ReadP.val_main_v20 (F := Ideal)
local notation "rv29" => Cert.ReferenceIdeal.ReadP.val_main_v29 (F := Ideal)
local notation "rv39" => Cert.ReferenceIdeal.ReadP.val_main_v39 (F := Ideal)
local notation "rv55" => Cert.ReferenceIdeal.ReadP.val_main_v55 (F := Ideal)
local notation "rv62" => Cert.ReferenceIdeal.ReadP.val_main_v62 (F := Ideal)
local notation "rv63" => Cert.ReferenceIdeal.ReadP.val_main_v63 (F := Ideal)
local notation "mkF" => maskF (F := Ideal)
local notation "wtA" => weightArr (F := Ideal)
local notation "kSt" => kStart (F := Ideal)
local notation "kTr" => kTrans (F := Ideal)
local notation "kCs" => kColSum (F := Ideal)
local notation "kLa" => kLast (F := Ideal)
local notation "kEn" => kEnd (F := Ideal)
local notation "kTl" => ktail (F := Ideal)

variable (x0 : FVec Ideal S512x512x128 .f32) (x1 x2 : IVec S512x512 32) (x3 x4 : FVec Ideal S128 .f32)
  (x5 : FVec Ideal S128x128 .f32)

/-- A transition score is an entry of the transition table, hence a real when the table's entries are. -/
theorem kTrans_real (h5 : ∀ i, ∃ r : ℝ, x5 i = (r : EReal)) (j : S511x512.Idx) : ∃ r : ℝ, kTr x1 x5 j = (r : EReal) := by
  unfold kTrans Host.gather
  exact h5 _

/-- A column of zeros and ones sums to at most 512. -/
theorem colsum_rv (hm : ∀ i, x2 i = 0#32 ∨ x2 i = 1#32) (j : S512.Idx) : (kCs x2 j).toNat ≤ 512 :=
  Cert.PreFacts.colsum_le x2 hm reducesTo_S512x512_S512_d0 h_S_ j

/-- Both programs read the last tag of a column at the same row. -/
theorem last_eq (hm : ∀ i, x2 i = 0#32 ∨ x2 i = 1#32) : kLa x1 x2 = rv55 x1 x2 := by
  have key : ∀ b : Fin 512, kLa x1 x2 (ix1 b) = rv55 x1 x2 (ix1 b) := fun b => by
    have hc := colsum_rv x2 hm (ix1 b)
    rw [Cert.ReferenceIdeal.RefValue.lastTag_apply x1 x2 hm b (by rw [colsum_eq x2]; exact hc),
      kLast_apply x1 x2 b hm hc, colsum_eq x2]
  funext j
  have e : j = ix1 (n := 512) (j 0) := eq_ix1 j
  rw [e]
  exact key (j 0)

/-- The two results at column b. -/
theorem result_at (hpre : Cert.Pre_finite_inputs.fn (F := Ideal) x0 x1 x2 x3 x4 x5 = fun _ => 1#1)
    (r7 : FVec Ideal S1x512 .f32)
    (hr7 : ∀ b : Fin 512, r7 (ix2 (0 : Fin 1) b)
      = ∑ s : Fin 512, (∑ t : Fin 128, onehot (x1 (ix2 s b)) t * x0 (ix3 s b t)) * wtA x2 (ix2 s b))
    (b : Fin 512) :
    rv63 x0 x1 x2 x3 x4 x5 (ix1 b) = kTl r7 x1 x2 x3 x4 x5 (ix1 b) := by
  obtain ⟨hx0, hx3, hx4, hx5, htag, hmask⟩ := Cert.PreFacts.decode x0 x1 x2 x3 x4 x5 hpre
  -- the real witnesses
  choose em hem using fun s : Fin 512 => hx0 (ix3 s b ⟨(x1 (ix2 s b)).toNat, tag_lt _ (htag _)⟩)
  choose mf hmf using fun s : Fin 512 => maskF_real x2 (ix2 s b)
  choose T hT using fun k : Fin 511 => kTrans_real x1 x5 hx5 (ix2 k b)
  -- the weights
  have hw0 : wtA x2 (ix2 (0 : Fin 512) b) = 1 := by
    rw [weightArr_apply x2 0 b]; exact if_pos rfl
  have hws : ∀ k : Fin 511, wtA x2 (ix2 k.succ b) = ((mf k.succ : ℝ) : EReal) := fun k => by
    have hne : ¬ (k.succ : Fin 512).val = 0 := by rw [Fin.val_succ]; exact Nat.succ_ne_zero _
    rw [weightArr_apply x2 k.succ b]; exact (if_neg hne).trans (hmf _)
  -- the one-hot lane sum is the emission at the tag
  have hOh : ∀ s : Fin 512, (∑ t : Fin 128, onehot (x1 (ix2 s b)) t * x0 (ix3 s b t)) = ((em s : ℝ) : EReal) := fun s =>
    (onehot_sum _ (htag _) (fun t => x0 (ix3 s b t))).trans (hem s)
  have hEm : ∀ s : Fin 512, rv4 x0 x1 (ix2 s b) = ((em s : ℝ) : EReal) := fun s =>
    (Cert.ReferenceIdeal.RefValue.emit_apply x0 x1 htag s b).trans (hem s)
  have hEnd : rv62 x1 x2 x4 (ix1 b) = kEn (kLa x1 x2) x4 (ix1 b) := by
    rw [end_eq x1 x2 x4, last_eq x1 x2 hmask]
  rw [Cert.ReferenceIdeal.RefValue.ref_apply x0 x1 x2 x3 x4 x5 b, ktail_apply r7 x1 x2 x3 x4 x5 b, hr7 b]
  refine Eq.trans ?_ (Eq.trans (Cert.Algebra.score_eq (kSt x1 x3 (ix1 b)) (kEn (kLa x1 x2) x4 (ix1 b))
    (Ideal.ofBits .f32 0x00000000#32) Ideal.ofBits_zero_f32 em mf T (fun s => wtA x2 (ix2 s b)) hw0 hws).symm ?_)
  · refine congrArg₂ (· + ·) (congrArg₂ (· + ·) (congrArg₂ (· + ·) (congrFun (start_eq x1 x3) (ix1 b)) (hEm 0))
      (congrArg (fun u => Ideal.ofBits .f32 0x00000000#32 + u) (Finset.sum_congr rfl fun k _ =>
        congrArg₂ (· * ·) (congrArg₂ (· + ·) ((congrFun (trans_eq x1 x5) (ix2 k b)).trans (hT k)) (hEm k.succ))
          ((congrFun (mask_eq x2) (ix2 k.succ b)).trans (hmf k.succ))))) hEnd
  · refine congrArg₂ (· + ·) (congrArg₂ (· + ·) (congrArg₂ (· + ·)
        (Finset.sum_congr rfl fun s _ => congrArg₂ (· * ·) (hOh s).symm rfl) rfl)
      (congrArg (fun u => Ideal.ofBits .f32 0x00000000#32 + u) (Finset.sum_congr rfl fun k _ =>
        congrArg₂ (· * ·) (hT k).symm (hmf k.succ).symm))) rfl

/-- The reference's result is the kernel program's, given the region's result row. -/
theorem result_eq (hpre : Cert.Pre_finite_inputs.fn (F := Ideal) x0 x1 x2 x3 x4 x5 = fun _ => 1#1)
    (r7 : FVec Ideal S1x512 .f32)
    (hr7 : ∀ b : Fin 512, r7 (ix2 (0 : Fin 1) b)
      = ∑ s : Fin 512, (∑ t : Fin 128, onehot (x1 (ix2 s b)) t * x0 (ix3 s b t)) * wtA x2 (ix2 s b)) :
    rv63 x0 x1 x2 x3 x4 x5 = kTl r7 x1 x2 x3 x4 x5 := by
  funext j
  have e : j = ix1 (n := 512) (j 0) := eq_ix1 j
  rw [e]
  exact result_at x0 x1 x2 x3 x4 x5 hpre r7 hr7 (j 0)

end Cert.Bridge

end
-- ==== Proof.lean ====
/-
  The linear-chain CRF sequence score: the kernel program against the jnp reference, over the extended reals.

  For every sequence `b` (512 of them, 512 positions, 128 tags) the reference computes

      score[b] = start[tags[0,b]] + emit[0,b] + Σ_{k<511} (trans[tags[k,b], tags[k+1,b]] + emit[k+1,b]) · mask[k+1,b]
                 + end[tags[last(b), b]],      emit[s,b] = emissions[s, b, tags[s,b]],

  where `last(b)` is the number of set mask entries of column `b` less one (wrapped to 511 for an empty column).
  The kernel program computes the emission part in one pallas_call — at each grid point a [64,128] block of
  `Σ_t [tags = t] · emissions[·,·,t]` (the tag picked by a one-hot product and a lane sum), times a weight that is 1
  at position 0 and the mask elsewhere, summed over the 64 rows and accumulated over the eight sequence blocks of a
  batch block — and the start, transition and end parts on the host, adding the four.

  Under the precondition (finite floats; every tag in [0,128); every mask entry 0 or 1) the two agree:
  the one-hot sum picks exactly `emissions[s,b,tags[s,b]]`, which is also what the reference's gather reads in range;
  the last-tag index is in range, so the kernel's guarded take and the reference's clamped two-index gather read
  the same tag; the start, transition and end gathers are the same operations on both sides; and with real
  entries `(trans + emit) · mask = trans · mask + emit · mask`, the rest being commutativity and associativity of
  addition of extended reals.

  The three frames: the two kernel programs run their grid of 4 × 8 points between ten and seventy-seven host
  operations, none of which writes an argument; the reference is a straight line of host operations.
  The ideal pass rewrote nothing, so `preserves` is trivial.
-/
import proofs.«410888_j47141561041240_3_alg».proof.Defs
import proofs.«410888_j47141561041240_3_alg».proof.Proof.K.Frame
import proofs.«410888_j47141561041240_3_alg».proof.Proof.KI.Run
import proofs.«410888_j47141561041240_3_alg».proof.Proof.KI.Region
import proofs.«410888_j47141561041240_3_alg».proof.Proof.Ref.RunVal
import proofs.«410888_j47141561041240_3_alg».proof.Proof.Bridge
import proofs.«410888_j47141561041240_3_alg».proof.Proof.Gen.Kernel
import proofs.«410888_j47141561041240_3_alg».proof.Proof.Gen.KernelIdeal
import proofs.«410888_j47141561041240_3_alg».proof.Proof.Gen.ReferenceIdeal
import proofs.«410888_j47141561041240_3_alg».proof.Proof.Gen.Pre_finite_inputs

noncomputable section

namespace Cert.Proof

open Idealize.ShloMosaic Idealize.ShloMosaic.TcCoe Idealize.SL.Sem

/-- The word-level kernel program runs, faults nowhere and leaves its six arguments as launched. -/
theorem frame_k : Cert.frame_Kernel := fun m ρ _ => Cert.Kernel.Hand.frame m ρ

/-- The same for the kernel program read over the extended reals. -/
theorem frame_ki : Cert.frame_KernelIdeal := fun m ρ _ => Cert.KernelIdeal.Hand.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- No operation of the kernel program was rewritten when it was read over the extended reals. -/
theorem preserves : Cert.preserves_Kernel_KernelIdeal := trivial

/-- From memories that agree on the arguments both programs end with the same 512 scores: the kernel program's
    result is its host tail applied to the region's result array, whose entry `(0, b)` is the weighted sum of the
    picked emissions of column `b`; the reference's result is its last stage; the two are one function of the
    arguments under the precondition. -/
theorem algebraic : Cert.algebraic_KernelIdeal_ReferenceIdeal := by
  intro m ρ m' ρ' hpre hagree
  refine ⟨fun c => Cert.KernelIdeal.HandValue.ktail (F := Ideal)
      ((Cert.KernelIdeal.Hand.dats m 0 c).arrAt 3 Cert.KernelIdeal.cfg0.N)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.HandValue.run (F := Ideal) m ρ, ?_⟩
  refine (θ_run Cert.ReferenceIdeal.defs _ _).mono (fun _ h c => ⟨(h c).1.trans ?_, (h c).2⟩)
    (Cert.ReferenceIdeal.RunP.run (F := Ideal) m' ρ')
  rw [(hagree c).1, (hagree c).2.1, (hagree c).2.2.1, (hagree c).2.2.2.1, (hagree c).2.2.2.2.1, (hagree c).2.2.2.2.2]
  refine Cert.Bridge.result_eq _ _ _ _ _ _ (hpre c) _ (fun b => ?_)
  rw [Cert.KernelIdeal.HandValue.region_apply m c b, Cert.KernelIdeal.Hand.V_main_arg0 m c,
    Cert.KernelIdeal.Hand.V_main_arg1 m c, Cert.KernelIdeal.HandValue.V_main_v6 m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
